-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32000 : Shape := ⟨3, ![32, 256, 32000]⟩
abbrev S32x256 : Shape := ⟨2, ![32, 256]⟩
abbrev S32 : Shape := ⟨1, ![32]⟩
abbrev S_ : Shape := ⟨0, ![]⟩

class Facts : Prop where
  bcast_S_S32x256x32000 : S_.BroadcastsInDim S32x256x32000 (![] : Fin 0 → Fin S32x256x32000.rank)
  reducesTo_S32x256x32000_S_d0_1_2 : S32x256x32000.ReducesTo [0, 1, 2] S_
  h_S_ : 0 < S_.numel
  bcast_S_S32x256 : S_.BroadcastsInDim S32x256 (![] : Fin 0 → Fin S32x256.rank)
  reducesTo_S32x256_S_d0_1 : S32x256.ReducesTo [0, 1] S_

variable [Facts]

def fn {F : FTy → Type} [FloatOps F] (main_arg0 : FVec F S32x256x32000 .f32) (main_arg1 : IVec S32x256 32) (main_arg2 : IVec S32 32) : IVec S_ 1 :=
  let main_v0 : FVec F S32x256x32000 .f32 := Host.absf main_arg0
  let main_cst : FVec F S_ .f32 := constant S_ .f32 0x7F800000#32
  let main_v1 : FVec F S32x256x32000 .f32 := broadcastInDim S32x256x32000 ![] bcast_S_S32x256x32000 main_cst
  let main_v2 : IVec S32x256x32000 1 := cmpf .olt main_v0 main_v1
  let main_c : IVec S_ 1 := constantI S_ 1 1#1
  let main_v3 : IVec S_ 1 := (fun x v => Host.reduce IntOp.andi x v reducesTo_S32x256x32000_S_d0_1_2 h_S_) main_v2 main_c
  let main_c_0 : IVec S_ 32 := constantI S_ 32 0#32
  let main_v4 : IVec S32x256 32 := broadcastInDim S32x256 ![] bcast_S_S32x256 main_c_0
  let main_v5 : IVec S32x256 1 := cmpi .sge main_arg1 main_v4
  let main_c_1 : IVec S_ 32 := constantI S_ 32 32000#32
  let main_v6 : IVec S32x256 32 := broadcastInDim S32x256 ![] bcast_S_S32x256 main_c_1
  let main_v7 : IVec S32x256 1 := cmpi .slt main_arg1 main_v6
  let main_v8 : IVec S32x256 1 := andi main_v5 main_v7
  let main_c_2 : IVec S_ 1 := constantI S_ 1 1#1
  let main_v9 : IVec S_ 1 := (fun x v => Host.reduce IntOp.andi x v reducesTo_S32x256_S_d0_1 h_S_) main_v8 main_c_2
  let main_v10 : IVec S_ 1 := andi main_v3 main_v9
  main_v10
-- ==== Kernel.lean ====
abbrev S32x256x32000 : Shape := ⟨3, ![32, 256, 32000]⟩
abbrev S32x256 : Shape := ⟨2, ![32, 256]⟩
abbrev S32 : Shape := ⟨1, ![32]⟩
abbrev S32x256x1 : Shape := ⟨3, ![32, 256, 1]⟩
abbrev S1x256x1 : Shape := ⟨3, ![1, 256, 1]⟩
abbrev S1x256x6400 : Shape := ⟨3, ![1, 256, 6400]⟩
abbrev S256x1 : Shape := ⟨2, ![256, 1]⟩
abbrev S256x6400 : Shape := ⟨2, ![256, 6400]⟩
abbrev S256 : Shape := ⟨1, ![256]⟩
abbrev S1 : Shape := ⟨1, ![1]⟩
abbrev S_ : Shape := ⟨0, ![]⟩

abbrev nBuf : Space → Nat
  | .hbm => 23
  | .vmem => 9
  | .smem => 1
  | _ => 0

abbrev bufTy : (tb : Table) → Fin (tcTables nBuf tb) → BufTy
  | .hbm, ⟨0, _⟩ => ⟨S32x256x32000, .f32⟩
  | .hbm, ⟨1, _⟩ => ⟨S32x256, .i32⟩
  | .hbm, ⟨2, _⟩ => ⟨S32x256x1, .i32⟩
  | .hbm, ⟨3, _⟩ => ⟨S32x256x1, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x256x1, .i32⟩
  | .local _ .vmem, ⟨1, _⟩ => ⟨S1x256x1, .i32⟩
  | .local _ .vmem, ⟨2, _⟩ => ⟨S1x256x6400, .f32⟩
  | .local _ .vmem, ⟨3, _⟩ => ⟨S1x256x6400, .f32⟩
  | .local _ .vmem, ⟨4, _⟩ => ⟨S1x256x1, .f32⟩
  | .local _ .vmem, ⟨5, _⟩ => ⟨S1x256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .smem, ⟨0, _⟩ => ⟨S32, .i32⟩
  | _, _ => ⟨S32x256x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_c_3 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c4_i32 : BitVec 32 := 4#32
  let v42 : BitVec 1 := Scalar.cmpi .eq arg1 c4_i32
  let v43 : BitVec 32 := Scalar.extui v42
  let c0_i32_21 : BitVec 32 := 0#32
  let v44 : BitVec 1 := Scalar.cmpi .ne v43 c0_i32_21
  v44

def k0_off1 (i : grid0.Coords) : Fin 1 → Nat :=
  let arg0 : BitVec 32 := BitVec.ofNat 32 (i 0).val
  let v45 : Index := Scalar.indexCast arg0
  ![v45.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32x256_S32x256x1 : S32x256.ShapeCasts S32x256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x6400_S1x256x6400_0_0_0 : ∀ a, (![0, 0, 0] : Fin 3 → Nat) a + S1x256x6400.size a ≤ S1x256x6400.size a
  h_S1x256x6400 : 0 < S1x256x6400.numel
  shapeCasts_S1x256x6400_S256x6400 : S1x256x6400.ShapeCasts S256x6400
  reduces_S256x6400_S256 : S256x6400.Reduces [1] S256
  shapeCasts_S256_S256x1 : S256.ShapeCasts S256x1
  broadcasts_S256x1_S256x6400 : S256x1.Broadcasts S256x6400
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  iota_S256x6400_d1_w32 : S256x6400.Iotas .tc 32 [1]
  numel1_S1 : S1.numel = 1
  iota_S256x1_d0_w32 : S256x1.Iotas .tc 32 [0]
  shapeCasts_S256x1_S1x256x1 : S256x1.ShapeCasts S1x256x1
  bcast_S_S32 : S_.BroadcastsInDim S32 (![] : Fin 0 → Fin S32.rank)
  reducesTo_S32_S_d0 : S32.ReducesTo [0] S_
  h_S_ : 0 < S_.numel
  reducesTo_S32x256x1_S_d0_1_2 : S32x256x1.ReducesTo [0, 1, 2] S_
  hrank0 : 0 < grid0.rank
  k0_off1_inb : ∀ i : grid0.Coords, ∀ (k0_h2 : k0_cond2 i = 1#1), ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1.size a ≤ S32x256x1.size a
  hwx0_0 : ∀ i : grid0.Coords, EltTy.bits .i32 = 32 ∨ (Rect.block (s := S32x256x1) S1x256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x6400.size a ≤ S32x256x32000.size a
  hwx0_1 : ∀ i : grid0.Coords, EltTy.bits .f32 = 32 ∨ (Rect.block (s := S32x256x32000) S1x256x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S32x256x1.size a
  hwx0_2 : ∀ i : grid0.Coords, EltTy.bits .f32 = 32 ∨ (Rect.block (s := S32x256x1) S1x256x1.size (cc0_transform_2 i) (hinb0_2 i)).WholeWords (EltTy.packing .f32)

variable [Facts₀]

abbrev spec0_0 : Pipeline.WinSpec sig grid0.rank :=
  Pipeline.WinSpec.ofSpec (Memref.whole main_v0) S1x256x1.size reads0_0 false false 2 stage0_0 sem0_0 nbuf0_0 hstage0_0

abbrev spec0_1 : Pipeline.WinSpec sig grid0.rank :=
  Pipeline.WinSpec.ofSpec (Memref.whole main_arg0) S1x256x6400.size reads0_1 false false 2 stage0_1 sem0_1 nbuf0_1 hstage0_1

abbrev spec0_2 : Pipeline.WinSpec sig grid0.rank :=
  Pipeline.WinSpec.ofSpec (Memref.whole main_v1) S1x256x1.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S32x256x32000 : Shape := ⟨3, ![32, 256, 32000]⟩
abbrev S32x256 : Shape := ⟨2, ![32, 256]⟩
abbrev S32 : Shape := ⟨1, ![32]⟩
abbrev S_ : Shape := ⟨0, ![]⟩
abbrev S256 : Shape := ⟨1, ![256]⟩
abbrev S1x256 : Shape := ⟨2, ![1, 256]⟩
abbrev S32x1 : Shape := ⟨2, ![32, 1]⟩
abbrev S32x256x1 : Shape := ⟨3, ![32, 256, 1]⟩
abbrev S32x256x1x1 : Shape := ⟨4, ![32, 256, 1, 1]⟩
abbrev S1 : Shape := ⟨1, ![1]⟩
abbrev S1x1x1x1 : Shape := ⟨4, ![1, 1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S32x256x32000, .f32⟩
  | .hbm, ⟨1, _⟩ => ⟨S32x256, .i32⟩
  | .hbm, ⟨2, _⟩ => ⟨S32, .i32⟩
  | .hbm, ⟨3, _⟩ => ⟨S_, .i32⟩
  | .hbm, ⟨4, _⟩ => ⟨S32, .i32⟩
  | .hbm, ⟨5, _⟩ => ⟨S32, .i32⟩
  | .hbm, ⟨6, _⟩ => ⟨S256, .i32⟩
  | .hbm, ⟨7, _⟩ => ⟨S1x256, .i32⟩
  | .hbm, ⟨8, _⟩ => ⟨S32x1, .i32⟩
  | .hbm, ⟨9, _⟩ => ⟨S32x256, .i32⟩
  | .hbm, ⟨10, _⟩ => ⟨S32x256, .i32⟩
  | .hbm, ⟨11, _⟩ => ⟨S32x256, .i1⟩
  | .hbm, ⟨12, _⟩ => ⟨S_, .f32⟩
  | .hbm, ⟨13, _⟩ => ⟨S32x256, .f32⟩
  | .hbm, ⟨14, _⟩ => ⟨S_, .f32⟩
  | .hbm, ⟨15, _⟩ => ⟨S32x256, .f32⟩
  | .hbm, ⟨16, _⟩ => ⟨S32x256, .f32⟩
  | .hbm, ⟨17, _⟩ => ⟨S32x256x1, .f32⟩
  | .hbm, ⟨18, _⟩ => ⟨S32x256x32000, .f32⟩
  | .hbm, ⟨19, _⟩ => ⟨S32x256x32000, .f32⟩
  | .hbm, ⟨20, _⟩ => ⟨S32x256x32000, .f32⟩
  | .hbm, ⟨21, _⟩ => ⟨S_, .f32⟩
  | .hbm, ⟨22, _⟩ => ⟨S32x256, .f32⟩
  | .hbm, ⟨23, _⟩ => ⟨S32x256x1, .f32⟩
  | .hbm, ⟨24, _⟩ => ⟨S32x256x1, .f32⟩
  | .hbm, ⟨25, _⟩ => ⟨S32x256x32000, .f32⟩
  | .hbm, ⟨26, _⟩ => ⟨S32x256x32000, .f32⟩
  | .hbm, ⟨27, _⟩ => ⟨S32x256x1, .i32⟩
  | .hbm, ⟨28, _⟩ => ⟨S_, .i32⟩
  | .hbm, ⟨29, _⟩ => ⟨S32x256x1, .i32⟩
  | .hbm, ⟨30, _⟩ => ⟨S32x256x1, .i1⟩
  | .hbm, ⟨31, _⟩ => ⟨S_, .i32⟩
  | .hbm, ⟨32, _⟩ => ⟨S32x256x1, .i32⟩
  | .hbm, ⟨33, _⟩ => ⟨S32x256x1, .i32⟩
  | .hbm, ⟨34, _⟩ => ⟨S32x256x1, .i32⟩
  | .hbm, ⟨35, _⟩ => ⟨S32x256x1x1, .i32⟩
  | .hbm, ⟨36, _⟩ => ⟨S1, .i32⟩
  | .hbm, ⟨37, _⟩ => ⟨S_, .i32⟩
  | .hbm, ⟨38, _⟩ => ⟨S32x256x1x1, .i32⟩
  | .hbm, ⟨39, _⟩ => ⟨S32x256x1x1, .i1⟩
  | .hbm, ⟨40, _⟩ => ⟨S1x1x1x1, .i32⟩
  | .hbm, ⟨41, _⟩ => ⟨S32x256x1x1, .i32⟩
  | .hbm, ⟨42, _⟩ => ⟨S32x256x1x1, .i1⟩
  | .hbm, ⟨43, _⟩ => ⟨S32x256x1x1, .i1⟩
  | .hbm, ⟨44, _⟩ => ⟨S_, .i1⟩
  | .hbm, ⟨45, _⟩ => ⟨S32x256x1, .i1⟩
  | .hbm, ⟨46, _⟩ => ⟨S32x256x1, .f32⟩
  | .hbm, ⟨47, _⟩ => ⟨S_, .f32⟩
  | .hbm, ⟨48, _⟩ => ⟨S32x256x1, .f32⟩
  | .hbm, ⟨49, _⟩ => ⟨S32x256x1, .f32⟩
  | .hbm, ⟨50, _⟩ => ⟨S32x256, .f32⟩
  | .hbm, ⟨51, _⟩ => ⟨S32x256, .f32⟩
  | .hbm, ⟨52, _⟩ => ⟨S32x256, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .f32⟩
  | .hbm, ⟨58, _⟩ => ⟨S_, .f32⟩
  | .hbm, ⟨59, _⟩ => ⟨S32x256, .f32⟩
  | .hbm, ⟨60, _⟩ => ⟨S32x256, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S32x256x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v8 : Ref sig .tc := ⟨.hbm, 26, rfl⟩
abbrev main_v9 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_0 : Ref sig .tc := ⟨.hbm, 53, rfl⟩
abbrev main_v14 : Ref sig .tc := ⟨.hbm, 54, rfl⟩
abbrev main_c_1 : Ref sig .tc := ⟨.hbm, 55, rfl⟩
abbrev main_v15 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_v16 : Ref sig .tc := ⟨.hbm, 60, rfl⟩
abbrev main_cst_2 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  reducesTo_S32x256x32000_S32x256_d2 : S32x256x32000.ReducesTo [2] S32x256
  h_S_ : 0 < S_.numel
  bcast_S_S32x256 : S_.BroadcastsInDim S32x256 (![] : Fin 0 → Fin S32x256.rank)
  bcast_S32x256_S32x256x1_0_1 : S32x256.BroadcastsInDim S32x256x1 (![0, 1] : Fin 2 → Fin S32x256x1.rank)
  bcast_S32x256x1_S32x256x32000_0_1_2 : S32x256x1.BroadcastsInDim S32x256x32000 (![0, 1, 2] : Fin 3 → Fin S32x256x32000.rank)
  bcast_S_S32x256x1 : S_.BroadcastsInDim S32x256x1 (![] : Fin 0 → Fin S32x256x1.rank)
  shapeCasts_S32x256x1_S32x256x1x1 : S32x256x1.ShapeCasts S32x256x1x1
  bcast_S_S32x256x1x1 : S_.BroadcastsInDim S32x256x1x1 (![] : Fin 0 → Fin S32x256x1x1.rank)
  bcast_S1_S1x1x1x1_3 : S1.BroadcastsInDim S1x1x1x1 (![3] : Fin 1 → Fin S1x1x1x1.rank)
  bcast_S1x1x1x1_S32x256x1x1_0_1_2_3 : S1x1x1x1.BroadcastsInDim S32x256x1x1 (![0, 1, 2, 3] : Fin 4 → Fin S32x256x1x1.rank)
  reducesTo_S32x256x1x1_S32x256x1_d3 : S32x256x1x1.ReducesTo [3] S32x256x1
  shapeCasts_S32x256x1_S32x256 : S32x256x1.ShapeCasts S32x256
  natLt_1_32 : 1 < 32
  reducesTo_S32x256_S_d0_1 : S32x256.ReducesTo [0, 1] S_
  gather_S32x256x32000_S32x256x1x1_S32x256x1_n_2_01_01_2_3_111_wf : GatherDims.WF S32x256x32000 S32x256x1x1 S32x256x1 [] [2] [0, 1] [2] [0, 1] 3 ![1, 1, 1]

variable [Facts₀]

def gather_S32x256x32000_S32x256x1x1_S32x256x1_n_2_01_01_2_3_111 : GatherDims S32x256x32000 S32x256x1x1 S32x256x1 where
  offsetDims := []
  collapsedSliceDims := [2]
  operandBatchingDims := [0, 1]
  startIndicesBatchingDims := [0, 1]
  startIndexMap := [2]
  indexVectorDim := 3
  sliceSizes := ![1, 1, 1]
  wf := gather_S32x256x32000_S32x256x1x1_S32x256x1_n_2_01_01_2_3_111_wf

class Facts : Prop extends Facts₀ where

variable [Facts]
-- ==== Proof.BRuns.lean ====
import proofs.«429842_j38276748542062_2_alg».proof.Proof.Gen.Kernel.Launch
import proofs.«429842_j38276748542062_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel's body, one run per control case

The body at grid point `(b, v)` (sample `b`, vocabulary tile `v` of five): at tile 0 it first resets the three row
statistics it carries between tiles (the running maximum to `-∞`, the running sum and the label's logit to `0`);
at every tile it folds the tile's logits into them; at tile 4 it reads the sample's length and writes the masked
negative log-likelihoods of the sample's 256 rows. Two conditions decide the case: `first` (tile 0) and
`k0_cond2` (tile 4). -/

/-- The body's first condition: the tile index is `0`. -/
abbrev first (i : grid0.Coords) : Prop :=
  (Scalar.cmpi .ne (Scalar.extui (Scalar.cmpi .eq (BitVec.ofNat 32 (i 1).val) 0#32)) 0#32) = 1#1

/-- The lengths table as the body is handed it: its whole buffer. -/
abbrev tbM : Memref sig .tc .smem S32 .i32 := Memref.whole main_arg2
abbrev htbM : tbM.IsWhole := Memref.isWhole_whole _
/-- Its buffer's contents type on core `c`, and the buffer held whole at `f`. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f

set_option maxHeartbeats 1000000 in
/-- A middle tile (neither the first nor the last): the three statistics, found at `s6 s7 s8`, end with the pieces
    the body stores into them; the label and logit blocks and the output buffer come back as found. -/
noncomputable def runMid (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : ¬k0_cond2 i = 1#1)
    (g : Vec F S1x256x1 .i32) (x : Vec F S1x256x6400 .f32) (s6 s7 s8 : Vec F S256x1 .f32) :
    Σ' (L6 : List (View.Piece (Elt F) S256x1 .f32)) (L7 : List (View.Piece (Elt F) S256x1 .f32)), { L8 : List (View.Piece (Elt F) S256x1 .f32) //
      ∀ (xi5 : Vec F S1x256x1 .f32) (xt : TbBuf (F := F) c) (E : Set ℕ) (K : PUnit → sProp 𝕄),
        iprop(owns (c : Thread nD τ) arg3 fullShare g ∗ owns (c : Thread nD τ) arg4 fullShare x ∗ owns (c : Thread nD τ) arg5 fullShare xi5
            ∗ owns (c : Thread nD τ) arg6 fullShare s6 ∗ owns (c : Thread nD τ) arg7 fullShare s7 ∗ owns (c : Thread nD τ) arg8 fullShare s8 ∗ tbPt c xt
            ∗ (iprop(owns (c : Thread nD τ) arg3 fullShare g ∗ owns (c : Thread nD τ) arg4 fullShare x ∗ owns (c : Thread nD τ) arg5 fullShare xi5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8) ∗ tbPt c xt) -∗ K ⟨⟩))
          ⊢ wp frame (wpE (defs₀ (F := F)) Variants.none c none) E (cc0__ragged_ce_kernel i tbM htbM arg3 harg3 arg4 harg4 arg5 harg5 arg6 harg6 arg7 harg7 arg8 harg8) K } := by
  refine ⟨?_, ?_, ?_, fun xi5 xt E K => ?run⟩
  case run =>
    simp only [cc0__ragged_ce_kernel_eq_skeleton]; unfold cc0__ragged_ce_kernel_skel
    simp only [k0_part1_eq_skeleton]; unfold k0_part1_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, HT, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexact HT

set_option maxHeartbeats 1000000 in
/-- The first tile of a sample: the three statistics, found at anything, are reset and then folded; they end with the
    pieces the body stores into them; the blocks and the output buffer come back as found. -/
noncomputable def runFirst (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : first i) (hc2 : ¬k0_cond2 i = 1#1)
    (g : Vec F S1x256x1 .i32) (x : Vec F S1x256x6400 .f32) :
    Σ' (L6 : List (View.Piece (Elt F) S256x1 .f32)) (L7 : List (View.Piece (Elt F) S256x1 .f32)), { L8 : List (View.Piece (Elt F) S256x1 .f32) //
      ∀ (xi5 : Vec F S1x256x1 .f32) (xt : TbBuf (F := F) c) (E : Set ℕ) (K : PUnit → sProp 𝕄),
        iprop(owns (c : Thread nD τ) arg3 fullShare g ∗ owns (c : Thread nD τ) arg4 fullShare x ∗ owns (c : Thread nD τ) arg5 fullShare xi5
            ∗ (∃ d, owns (c : Thread nD τ) arg6 fullShare d) ∗ (∃ d, owns (c : Thread nD τ) arg7 fullShare d) ∗ (∃ d, owns (c : Thread nD τ) arg8 fullShare d) ∗ tbPt c xt
            ∗ (iprop(owns (c : Thread nD τ) arg3 fullShare g ∗ owns (c : Thread nD τ) arg4 fullShare x ∗ owns (c : Thread nD τ) arg5 fullShare xi5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8) ∗ tbPt c xt) -∗ K ⟨⟩))
          ⊢ wp frame (wpE (defs₀ (F := F)) Variants.none c none) E (cc0__ragged_ce_kernel i tbM htbM arg3 harg3 arg4 harg4 arg5 harg5 arg6 harg6 arg7 harg7 arg8 harg8) K } := by
  refine ⟨?_, ?_, ?_, fun xi5 xt E K => ?run⟩
  case run =>
    simp only [cc0__ragged_ce_kernel_eq_skeleton]; unfold cc0__ragged_ce_kernel_skel
    simp only [k0_part1_eq_skeleton]; unfold k0_part1_skel
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩, HT, Hk⟩
    obtain rfl := harg3.eq_unread hf3; obtain rfl := harg4.eq_unread hf4; obtain rfl := harg5.eq_unread hf5
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexact HT

set_option maxHeartbeats 1000000 in
/-- The last tile of a sample: the statistics, found at `s6 s7 s8`, are folded once more, the sample's length is read
    from the table, and the output buffer, found at anything, ends with the piece the body stores into it. -/
noncomputable def runLast (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : k0_cond2 i = 1#1)
    (g : Vec F S1x256x1 .i32) (x : Vec F S1x256x6400 .f32) (s6 s7 s8 : Vec F S256x1 .f32) (xt : TbBuf (F := F) c) :
    Σ' (L5 : List (View.Piece (Elt F) S1x256x1 .f32)) (L6 : List (View.Piece (Elt F) S256x1 .f32)) (L7 : List (View.Piece (Elt F) S256x1 .f32)), { L8 : List (View.Piece (Elt F) S256x1 .f32) //
      ∀ (E : Set ℕ) (K : PUnit → sProp 𝕄),
        iprop(owns (c : Thread nD τ) arg3 fullShare g ∗ owns (c : Thread nD τ) arg4 fullShare x ∗ (∃ d, owns (c : Thread nD τ) arg5 fullShare d)
            ∗ owns (c : Thread nD τ) arg6 fullShare s6 ∗ owns (c : Thread nD τ) arg7 fullShare s7 ∗ owns (c : Thread nD τ) arg8 fullShare s8 ∗ tbPt c xt
            ∗ (iprop(owns (c : Thread nD τ) arg3 fullShare g ∗ owns (c : Thread nD τ) arg4 fullShare x
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8) ∗ tbPt c xt) -∗ K ⟨⟩))
          ⊢ wp frame (wpE (defs₀ (F := F)) Variants.none c none) E (cc0__ragged_ce_kernel i tbM htbM arg3 harg3 arg4 harg4 arg5 harg5 arg6 harg6 arg7 harg7 arg8 harg8) K } := by
  refine ⟨?_, ?_, ?_, ?_, fun E K => ?run⟩
  case run =>
    simp only [cc0__ragged_ce_kernel_eq_skeleton]; unfold cc0__ragged_ce_kernel_skel
    simp only [k0_part1_eq_skeleton]; unfold k0_part1_skel
    unfold owns
    iintro ⟨⟨%f3, %hf3, H3⟩, ⟨%f4, %hf4, H4⟩, ⟨%d5, %f5, -, H5⟩, ⟨%f6, %hf6, H6⟩, ⟨%f7, %hf7, H7⟩, ⟨%f8, %hf8, H8⟩, HT, Hk⟩
    obtain rfl := harg3.eq_unread hf3; obtain rfl := harg4.eq_unread hf4
    obtain rfl := harg6.eq_unread hf6; obtain rfl := harg7.eq_unread hf7; obtain rfl := harg8.eq_unread hf8
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexact HT

end Cert.Kernel.Body

end
-- ==== Proof.BTraj.lean ====
import proofs.«429842_j38276748542062_2_alg».proof.Proof.Gen.Kernel.Skeleton

noncomputable section

namespace Cert.Kernel.Traj

open Cert.Kernel Cert.Kernel.Gen
open Idealize.ShloMosaic

variable {F : FTy → Type} [FloatOps F]

/-! # The row statistics the kernel carries between vocabulary tiles, as pure functions

Grid point number `n` (row-major over the 32 × 5 grid) is sample `n / 5`, tile `n % 5`. At each point the body
folds the point's block of logits `x` and block of labels `g` into three `[256, 1]` columns: the running maximum,
the running sum of exponentials (rescaled to the new maximum) and the label's logit found so far. At tile 0 the
columns it starts from are the reset values, whatever the point before left. -/

/-- The three columns. -/
structure St (F : FTy → Type) where
  mx : Vec F S256x1 .f32
  sm : Vec F S256x1 .f32
  tg : Vec F S256x1 .f32

/-- The grid coordinates of point number `n`. -/
def coords (n : ℕ) : grid0.Coords := fun a => match a with
  | ⟨0, _⟩ => ⟨n / 5 % 32, Nat.mod_lt _ (by decide)⟩
  | ⟨1, _⟩ => ⟨n % 5, Nat.mod_lt _ (by decide)⟩

/-- The columns a point starts from: the reset values at tile 0, else what the point before left. -/
def start (n : ℕ) (s : St F) : St F :=
  if n % 5 = 0 then ⟨k0_pay3 (F := F), k0_pay4 (F := F), k0_pay5 (F := F)⟩ else s

/-- One point: the new maximum, the rescaled sum, the label's logit. -/
def step (n : ℕ) (x : Vec F S1x256x6400 .f32) (g : Vec F S1x256x1 .i32) (s : St F) : St F :=
  ⟨k0_pay9 x (start n s).mx, k0_pay8 x (start n s).mx (start n s).sm, k0_pay1 (k0_pay10 (coords n) x g) (start n s).tg⟩

/-- The columns after the first `n` points, given each point's blocks. -/
def stAt (xb : ℕ → Vec F S1x256x6400 .f32) (gb : ℕ → Vec F S1x256x1 .i32) : ℕ → St F
  | 0 => ⟨k0_pay3 (F := F), k0_pay4 (F := F), k0_pay5 (F := F)⟩
  | n + 1 => step n (xb n) (gb n) (stAt xb gb n)

/-- What the last tile of a sample writes out: the masked negative log-likelihoods, from the sample's length word and
    the columns. -/
def outv (len : Elt F .i32) (s : St F) : Vec F S1x256x1 .f32 := k0_pay2 len s.mx s.sm s.tg

end Cert.Kernel.Traj

end
-- ==== Proof.BBody.lean ====
import proofs.«429842_j38276748542062_2_alg».proof.Proof.Gen.Kernel.Launch
import proofs.«429842_j38276748542062_2_alg».proof.Proof.Gen.Kernel.Skeleton
import proofs.«429842_j38276748542062_2_alg».proof.Proof.BRuns
import proofs.«429842_j38276748542062_2_alg».proof.Proof.BTraj
import Idealize.ShloMosaic.Lib.Pipeline.FrameBody
import Idealize.ShloMosaic.Lib.ValueIdx
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The pipeline's proof data

The contents of the core's buffers when the region is entered (the one host operation before it has run), the
lengths table read off them, each window's block at a point, the three carried columns after each point as the pure
fold of the blocks, and the proof data: the inputs' buffers keep their blocks, the output's buffer holds after the
body what the last tile of a sample writes, the invariant holds the table whole and the three scratch columns at the
fold's values (at anything before the first point). -/

/-- Core `c`'s buffers at launch, -/
abbrev W0 (c : Dev nD) : Valuation τ sig (Elt F) := fun b => m (c, b)
/-- when the region is entered (the labels reshaped to `[32, 256, 1]`), -/
abbrev W1 (c : Dev nD) : Valuation τ sig (Elt F) := StableHlo.after hostOps0 (W0 m c)
/-- and the same read at the TensorCore's references. -/
abbrev V1 (c : Dev nD) (b : Ref sig .tc) : Buf (Elt F) ((c : Thread nD τ).loc b) := W1 m c b

/-- The lengths table's contents at the region's entry (the program runs on one device). -/
def tbl : pre0.Contents (Elt F) := fun j => V1 m (0 : Dev nD) (pre0.ref j)
theorem V_pre (c : Dev nD) (j : Fin 1) : V1 m c (pre0.ref j) = tbl m j := by
  obtain rfl : c = 0 := Subsingleton.elim _ _; rfl
/-- The table as admissible contents (the pipeline's side condition on it is trivial: no index map reads it). -/
abbrev adm : (pcfg0 (F := F)).Adm := ⟨tbl m, trivial⟩
abbrev cfgM : Pipeline.Cfg sig Λ₀ := cfg0 (adm m)
abbrev admP : (p : Fin 1) → (pcfgs (F := F) p).Adm := fun _ => adm m

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V1 m c (Pipeline.arrRef spec0 w))

/-- The logits' and the labels' blocks by point number (anything past the grid). -/
def xb (c : Dev nD) (n : ℕ) : Vec F S1x256x6400 .f32 :=
  if h : n < (cfgM m).N then iblk m c 1 ⟨n, h⟩ else fun _ => FloatOps.ofBits .f32 0x00000000#32
def gb (c : Dev nD) (n : ℕ) : Vec F S1x256x1 .i32 :=
  if h : n < (cfgM m).N then iblk m c 0 ⟨n, h⟩ else fun _ => (0#32 : BitVec 32)
/-- The three columns after the first `n` points. -/
def stAt (c : Dev nD) (n : ℕ) : Traj.St F := Traj.stAt (xb m c) (gb m c) n
/-- The length word of the sample point `n` belongs to. -/
def lenAt (n : ℕ) : Elt F .i32 := tbl m 0 (Idealize.ShloMosaic.ValueIdx.ix1 ⟨n / 5 % 32, Nat.mod_lt _ (by decide)⟩)
/-- What the output's staging buffer holds after the body at point `n` when that point is a sample's last tile. -/
def outAt (c : Dev nD) (n : ℕ) : Vec F S1x256x1 .f32 := Traj.outv (lenAt m n) (stAt m c (n + 1))

/-- The three scratch columns as memrefs. -/
abbrev scM0 : Memref sig .tc .vmem S256x1 .f32 := Memref.whole cc0_scratch0
abbrev scM1 : Memref sig .tc .vmem S256x1 .f32 := Memref.whole cc0_scratch1
abbrev scM2 : Memref sig .tc .vmem S256x1 .f32 := Memref.whole cc0_scratch2

/-- The invariant before point number `n`: the table held whole at its contents; the three scratch columns at
    anything before the first point, afterwards at the fold's values. -/
def PhiS (c : Dev nD) : ℕ → sProp 𝕄
  | 0 => iprop(Pipeline.prefHeld pre0 c (fun _ => fullShare) (tbl m) ∗ Pipeline.scopedRest (Ix := Unit) (Name := ℕ) (U := UR sig nD τ) (Lvl := ℕ) (Val := Elt F) spec0 c)
  | n + 1 => iprop(Pipeline.prefHeld pre0 c (fun _ => fullShare) (tbl m)
      ∗ owns (c : Thread nD τ) scM0 fullShare (stAt m c (n + 1)).mx ∗ owns (c : Thread nD τ) scM1 fullShare (stAt m c (n + 1)).sm ∗ owns (c : Thread nD τ) scM2 fullShare (stAt m c (n + 1)).tg)

/-- The proof data on core `c`. -/
def dats (_ : Fin 1) (c : Dev nD) : Dat τ (Elt F) Unit ℕ (UR sig nD τ) ℕ (cfgM m) c where
  A w := V1 m c (Pipeline.arrRef spec0 w)
  after w t := match w with
    | ⟨0, _⟩ => iblk m c 0 t
    | ⟨1, _⟩ => iblk m c 1 t
    | ⟨2, _⟩ => outAt m c t.val
  Φ t := PhiS m c t.val
  q _ := fullShare
  owed _ := 0

theorem A_eq (c : Dev nD) (w : Fin (cfgM m).W) : (dats m 0 c).A w = V1 m c (Pipeline.arrRef spec0 w) := by
  dsimp only [dats]
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = outAt m c t.val := by dsimp only [dats]; try rfl

end Cert.Kernel.Body

end
-- ==== Proof.BSound.lean ====
import proofs.«429842_j38276748542062_2_alg».proof.Proof.Gen.Kernel.Launch
import proofs.«429842_j38276748542062_2_alg».proof.Proof.Gen.Kernel.Skeleton
import proofs.«429842_j38276748542062_2_alg».proof.Proof.BBody
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each case's run leaves, as the payloads

Every store of the body is a store of a whole buffer, so what a buffer holds after a run is the payload of the last
store into it, and every load reads what the buffer held (or what the store before it left). -/

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

set_option maxHeartbeats 1000000 in
theorem mid_mx (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : ¬k0_cond2 i = 1#1)
    (g : Vec F S1x256x1 .i32) (x : Vec F S1x256x6400 .f32) (s6 s7 s8 : Vec F S256x1 .f32) (f : arg6.view.ty.Contents (Elt F)) :
    arg6.view.read (Elt F) (arg6.view.writes (Elt F) f (runMid c i arg3 harg3 arg4 harg4 arg5 harg5 arg6 harg6 arg7 harg7 arg8 harg8 hc1 hc2 g x s6 s7 s8).1) = k0_pay9 x s6 := by
  rw [View.read_writes_eq_canon _ _ _ (by
    intro y; unfold runMid; dsimp only
    refine ⟨_, List.mem_cons_self .., ?_⟩
    exact View.mem_set_unit_zero (S := S256x1) hz2 inb_S256x1_S256x1_0_0 y)]
  unfold runMid; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem mid_sm (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : ¬k0_cond2 i = 1#1)
    (g : Vec F S1x256x1 .i32) (x : Vec F S1x256x6400 .f32) (s6 s7 s8 : Vec F S256x1 .f32) (f : arg7.view.ty.Contents (Elt F)) :
    arg7.view.read (Elt F) (arg7.view.writes (Elt F) f (runMid c i arg3 harg3 arg4 harg4 arg5 harg5 arg6 harg6 arg7 harg7 arg8 harg8 hc1 hc2 g x s6 s7 s8).2.1) = k0_pay8 x s6 s7 := by
  rw [View.read_writes_eq_canon _ _ _ (by
    intro y; unfold runMid; dsimp only
    refine ⟨_, List.mem_cons_self .., ?_⟩
    exact View.mem_set_unit_zero (S := S256x1) hz2 inb_S256x1_S256x1_0_0 y)]
  unfold runMid; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem mid_tg (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : ¬k0_cond2 i = 1#1)
    (g : Vec F S1x256x1 .i32) (x : Vec F S1x256x6400 .f32) (s6 s7 s8 : Vec F S256x1 .f32) (f : arg8.view.ty.Contents (Elt F)) :
    arg8.view.read (Elt F) (arg8.view.writes (Elt F) f (runMid c i arg3 harg3 arg4 harg4 arg5 harg5 arg6 harg6 arg7 harg7 arg8 harg8 hc1 hc2 g x s6 s7 s8).2.2.1) = k0_pay1 (k0_pay10 i x g) s8 := by
  rw [View.read_writes_eq_canon _ _ _ (by
    intro y; unfold runMid; dsimp only
    refine ⟨_, List.mem_cons_self .., ?_⟩
    exact View.mem_set_unit_zero (S := S256x1) hz2 inb_S256x1_S256x1_0_0 y)]
  unfold runMid; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

/-- The length word the last tile reads from the table held at `xt`: the word at the sample's position. -/
def lastWord (c : Dev nD) (i : grid0.Coords) (hc2 : k0_cond2 i = 1#1) (xt : TbBuf (F := F) c) : Elt F .i32 :=
  tbM.view.readAt (Elt F) (Rect.unit (s := S32) (k0_off1 i) S1.size (k0_off1_inb i hc2)).toLoadRect xt (Shape.Idx.first (numel1_S1.symm ▸ Nat.one_pos))

set_option maxHeartbeats 1000000 in
theorem first_mx (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : first i) (hc2 : ¬k0_cond2 i = 1#1)
    (g : Vec F S1x256x1 .i32) (x : Vec F S1x256x6400 .f32)  (f : arg6.view.ty.Contents (Elt F)) :
    arg6.view.read (Elt F) (arg6.view.writes (Elt F) f (runFirst c i arg3 harg3 arg4 harg4 arg5 harg5 arg6 harg6 arg7 harg7 arg8 harg8 hc1 hc2 g x ).1) = k0_pay9 x (k0_pay3 (F := F)) := by
  rw [View.read_writes_eq_canon _ _ _ (by
    intro y; unfold runFirst; dsimp only
    refine ⟨_, List.mem_cons_self .., ?_⟩
    exact View.mem_set_unit_zero (S := S256x1) hz2 inb_S256x1_S256x1_0_0 y)]
  unfold runFirst; dsimp only; sl_unfold_words
  rw [View.canon_cons_unit_zero (S := S256x1) hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem first_sm (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : first i) (hc2 : ¬k0_cond2 i = 1#1)
    (g : Vec F S1x256x1 .i32) (x : Vec F S1x256x6400 .f32)  (f : arg7.view.ty.Contents (Elt F)) :
    arg7.view.read (Elt F) (arg7.view.writes (Elt F) f (runFirst c i arg3 harg3 arg4 harg4 arg5 harg5 arg6 harg6 arg7 harg7 arg8 harg8 hc1 hc2 g x ).2.1) = k0_pay8 x (k0_pay3 (F := F)) (k0_pay4 (F := F)) := by
  rw [View.read_writes_eq_canon _ _ _ (by
    intro y; unfold runFirst; dsimp only
    refine ⟨_, List.mem_cons_self .., ?_⟩
    exact View.mem_set_unit_zero (S := S256x1) hz2 inb_S256x1_S256x1_0_0 y)]
  unfold runFirst; dsimp only; sl_unfold_words
  rw [View.canon_cons_unit_zero (S := S256x1) hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem first_tg (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : first i) (hc2 : ¬k0_cond2 i = 1#1)
    (g : Vec F S1x256x1 .i32) (x : Vec F S1x256x6400 .f32)  (f : arg8.view.ty.Contents (Elt F)) :
    arg8.view.read (Elt F) (arg8.view.writes (Elt F) f (runFirst c i arg3 harg3 arg4 harg4 arg5 harg5 arg6 harg6 arg7 harg7 arg8 harg8 hc1 hc2 g x ).2.2.1) = k0_pay1 (k0_pay10 i x g) (k0_pay5 (F := F)) := by
  rw [View.read_writes_eq_canon _ _ _ (by
    intro y; unfold runFirst; dsimp only
    refine ⟨_, List.mem_cons_self .., ?_⟩
    exact View.mem_set_unit_zero (S := S256x1) hz2 inb_S256x1_S256x1_0_0 y)]
  unfold runFirst; dsimp only; sl_unfold_words
  rw [View.canon_cons_unit_zero (S := S256x1) hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem last_mx (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : k0_cond2 i = 1#1)
    (g : Vec F S1x256x1 .i32) (x : Vec F S1x256x6400 .f32) (s6 s7 s8 : Vec F S256x1 .f32) (xt : TbBuf (F := F) c) (f : arg6.view.ty.Contents (Elt F)) :
    arg6.view.read (Elt F) (arg6.view.writes (Elt F) f (runLast c i arg3 harg3 arg4 harg4 arg5 harg5 arg6 harg6 arg7 harg7 arg8 harg8 hc1 hc2 g x s6 s7 s8 xt).2.1) = k0_pay9 x s6 := by
  rw [View.read_writes_eq_canon _ _ _ (by
    intro y; unfold runLast; dsimp only
    refine ⟨_, List.mem_cons_self .., ?_⟩
    exact View.mem_set_unit_zero (S := S256x1) hz2 inb_S256x1_S256x1_0_0 y)]
  unfold runLast; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem last_sm (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : k0_cond2 i = 1#1)
    (g : Vec F S1x256x1 .i32) (x : Vec F S1x256x6400 .f32) (s6 s7 s8 : Vec F S256x1 .f32) (xt : TbBuf (F := F) c) (f : arg7.view.ty.Contents (Elt F)) :
    arg7.view.read (Elt F) (arg7.view.writes (Elt F) f (runLast c i arg3 harg3 arg4 harg4 arg5 harg5 arg6 harg6 arg7 harg7 arg8 harg8 hc1 hc2 g x s6 s7 s8 xt).2.2.1) = k0_pay8 x s6 s7 := by
  rw [View.read_writes_eq_canon _ _ _ (by
    intro y; unfold runLast; dsimp only
    refine ⟨_, List.mem_cons_self .., ?_⟩
    exact View.mem_set_unit_zero (S := S256x1) hz2 inb_S256x1_S256x1_0_0 y)]
  unfold runLast; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem last_tg (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : k0_cond2 i = 1#1)
    (g : Vec F S1x256x1 .i32) (x : Vec F S1x256x6400 .f32) (s6 s7 s8 : Vec F S256x1 .f32) (xt : TbBuf (F := F) c) (f : arg8.view.ty.Contents (Elt F)) :
    arg8.view.read (Elt F) (arg8.view.writes (Elt F) f (runLast c i arg3 harg3 arg4 harg4 arg5 harg5 arg6 harg6 arg7 harg7 arg8 harg8 hc1 hc2 g x s6 s7 s8 xt).2.2.2.1) = k0_pay1 (k0_pay10 i x g) s8 := by
  rw [View.read_writes_eq_canon _ _ _ (by
    intro y; unfold runLast; dsimp only
    refine ⟨_, List.mem_cons_self .., ?_⟩
    exact View.mem_set_unit_zero (S := S256x1) hz2 inb_S256x1_S256x1_0_0 y)]
  unfold runLast; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem last_out (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : k0_cond2 i = 1#1)
    (g : Vec F S1x256x1 .i32) (x : Vec F S1x256x6400 .f32) (s6 s7 s8 : Vec F S256x1 .f32) (xt : TbBuf (F := F) c) (f : arg5.view.ty.Contents (Elt F)) :
    arg5.view.read (Elt F) (arg5.view.writes (Elt F) f (runLast c i arg3 harg3 arg4 harg4 arg5 harg5 arg6 harg6 arg7 harg7 arg8 harg8 hc1 hc2 g x s6 s7 s8 xt).1) = k0_pay2 (lastWord c i hc2 xt) (k0_pay9 x s6) (k0_pay8 x s6 s7) (k0_pay1 (k0_pay10 i x g) s8) := by
  rw [View.read_writes_eq_canon _ _ _ (by
    intro y; unfold runLast; dsimp only
    refine ⟨_, List.mem_cons_self .., ?_⟩
    exact View.mem_set_unit_zero (S := S1x256x1) hz3 inb_S1x256x1_S1x256x1_0_0_0 y)]
  unfold runLast; dsimp only; sl_unfold_words
  rw [View.canon_unit_zero hz3]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]
  rfl

end Cert.Kernel.Body

end
-- ==== Proof.BSound2.lean ====
import proofs.«429842_j38276748542062_2_alg».proof.Proof.Gen.Kernel.Launch
import proofs.«429842_j38276748542062_2_alg».proof.Proof.Gen.Kernel.Skeleton
import proofs.«429842_j38276748542062_2_alg».proof.Proof.BSound
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The body at a generic grid point

The two conditions and the output window's schedule in closed form over the 160 points (point `n` is tile `n % 5` of
sample `n / 5`); each input's staging buffer holds its block whenever the body runs; then, case by case, the run
applies and what it leaves is the next value of the fold. -/

theorem first_iff : ∀ t : Fin (cfgM m).N, first (grid0.coords t) ↔ t.val % 5 = 0 :=
  (by decide +kernel : ∀ t : Fin grid0.N, first (grid0.coords t) ↔ t.val % 5 = 0)
theorem last_iff : ∀ t : Fin (cfgM m).N, k0_cond2 (grid0.coords t) = 1#1 ↔ t.val % 5 = 4 :=
  (by decide +kernel : ∀ t : Fin grid0.N, k0_cond2 (grid0.coords t) = 1#1 ↔ t.val % 5 = 4)
theorem coords_eq : ∀ t : Fin (cfgM m).N, Traj.coords t.val = grid0.coords t :=
  (by decide +kernel : ∀ t : Fin grid0.N, Traj.coords t.val = grid0.coords t)
theorem N_eq : (cfgM m).N = 160 := N_0

/-- The output window is idle, and not written back, wherever the body does not store into it; live at a sample's last tile. -/
theorem idle2 (t : Fin (cfgM m).N) (h : ¬k0_cond2 (grid0.coords t) = 1#1) : (cfgM m).idle 2 (grid0.coords t) = true := by
  show (!(k0_cond2 (grid0.coords t) == 1#1)) = true
  simp [h]
theorem live2 (t : Fin (cfgM m).N) (h : k0_cond2 (grid0.coords t) = 1#1) : (cfgM m).idle 2 (grid0.coords t) = false := by
  show (!(k0_cond2 (grid0.coords t) == 1#1)) = false
  simp [h]
theorem noFlush2 : ∀ t : Fin (cfgM m).N, ¬k0_cond2 (grid0.coords t) = 1#1 → ((cfgM m).win 2).flush t = false :=
  (by decide +kernel : ∀ t : Fin grid0.N, ¬k0_cond2 (grid0.coords t) = 1#1 → Pipeline.Window.flushOf grid0 true cc0_transform_2 t = false)

/-- Each input's staging buffer holds the input's block whenever the body runs, fetched at that point or not. -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- Each window's current staging memref at point `t`, and the body as the pipeline calls it there. -/
abbrev ms0 (t : Fin (cfgM m).N) : Memref sig .tc .vmem S1x256x1 .i32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x256x6400 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x256x1 .f32 := spec0_2.stage ((cfgM m).slots t 2)
abbrev hs2 (t : Fin (cfgM m).N) : (ms2 m t).IsWhole := hstage0_2 (((cfgM m).slots t 2).cast nbuf0_2)
abbrev bodyAt (t : Fin (cfgM m).N) : Prog (TpuEff nD τ sig (Elt F) Λ₀ .tc) PUnit :=
  cc0__ragged_ce_kernel (grid0.coords t) tbM htbM (ms0 m t) (hs0 m t) (ms1 m t) (hs1 m t) (ms2 m t) (hs2 m t)
    scM0 (Memref.isWhole_whole _) scM1 (Memref.isWhole_whole _) scM2 (Memref.isWhole_whole _)

/-- The table held whole, as one points-to. -/
theorem prefHeld_eq (c : Dev nD) : (Pipeline.prefHeld pre0 c (fun _ => fullShare) (tbl m) : sProp 𝕄) = tbPt c (tbl m 0) := by
  unfold Pipeline.prefHeld
  rw [show (Finset.univ : Finset (Fin 1)) = {(0 : Fin 1)} from by decide, bigSep_singleton]
  rfl

/-- The blocks by point number are the blocks at the point. -/
theorem xb_eq (c : Dev nD) (t : Fin (cfgM m).N) : xb m c t.val = iblk m c 1 t := by unfold xb; exact dif_pos t.isLt
theorem gb_eq (c : Dev nD) (t : Fin (cfgM m).N) : gb m c t.val = iblk m c 0 t := by unfold gb; exact dif_pos t.isLt

/-- One more point of the fold. -/
theorem stAt_succ (c : Dev nD) (n : ℕ) : stAt m c (n + 1) = Traj.step n (xb m c n) (gb m c n) (stAt m c n) := rfl

/-- The invariant, at whatever point, holds the table and the three scratch columns at something; -/
theorem PhiS_any (c : Dev nD) (n : ℕ) : PhiS m c n ⊢ iprop(tbPt c (tbl m 0) ∗ (∃ d, owns (c : Thread nD τ) scM0 fullShare d) ∗ (∃ d, owns (c : Thread nD τ) scM1 fullShare d) ∗ (∃ d, owns (c : Thread nD τ) scM2 fullShare d)) := by
  cases n with
  | zero =>
    show iprop(Pipeline.prefHeld pre0 c (fun _ => fullShare) (tbl m) ∗ Pipeline.scopedRest (Ix := Unit) (Name := ℕ) (U := UR sig nD τ) (Lvl := ℕ) (Val := Elt F) spec0 c) ⊢ _
    rw [prefHeld_eq, scopedRest0_eq]
    simp only [owns_whole]
    exact .rfl
  | succ n =>
    show iprop(Pipeline.prefHeld pre0 c (fun _ => fullShare) (tbl m) ∗ owns (c : Thread nD τ) scM0 fullShare (stAt m c (n + 1)).mx ∗ owns (c : Thread nD τ) scM1 fullShare (stAt m c (n + 1)).sm ∗ owns (c : Thread nD τ) scM2 fullShare (stAt m c (n + 1)).tg) ⊢ _
    rw [prefHeld_eq]
    iintro ⟨HT, H0, H1, H2⟩
    isplitl [HT]; · iexact HT
    isplitl [H0]; · iexists _; iexact H0
    isplitl [H1]; · iexists _; iexact H1
    iexists _; iexact H2

/-- after the first point, at the fold's values. -/
theorem PhiS_pos (c : Dev nD) (n : ℕ) (hn : n ≠ 0) : PhiS m c n = iprop(tbPt c (tbl m 0) ∗ owns (c : Thread nD τ) scM0 fullShare (stAt m c n).mx ∗ owns (c : Thread nD τ) scM1 fullShare (stAt m c n).sm ∗ owns (c : Thread nD τ) scM2 fullShare (stAt m c n).tg) := by
  cases n with
  | zero => exact absurd rfl hn
  | succ n =>
    show iprop(Pipeline.prefHeld pre0 c (fun _ => fullShare) (tbl m) ∗ _) = _
    rw [prefHeld_eq]

end Cert.Kernel.Body

end
-- ==== Proof.BWord.lean ====
import proofs.«429842_j38276748542062_2_alg».proof.Proof.BSound2
import proofs.«429842_j38276748542062_2_alg».proof.Proof.BBody
import Idealize.ShloMosaic.Lib.ValueIdx

set_option maxRecDepth 16384

noncomputable section

namespace Cert.Kernel.Body

open Cert.Kernel Cert.Kernel.Gen
open Idealize.ShloMosaic Idealize.ShloMosaic.TcCoe

variable {F : FTy → Type} [FloatOps F]

variable (m : (ℓ : Loc nD τ sig) → Buf (Elt F) ℓ)

/-! # The length word the last tile reads

At a sample's last tile the body loads one word of the lengths table, at the offset the first grid coordinate names.
Point `t` of the grid has first coordinate `t / 5`, below 32, so the 32-bit casts leave it as it is and the word
read is the table's entry of the sample the point belongs to. -/

/-- The offset of the load at point `t`: the sample's number. -/
theorem off1_eq : ∀ t : Fin (cfgM m).N, k0_off1 (grid0.coords t) 0 = t.val / 5 % 32 :=
  (by decide +kernel : ∀ t : Fin grid0.N, k0_off1 (grid0.coords t) 0 = t.val / 5 % 32)

/-- The word the last tile reads from the table at its entry contents is the length of the point's sample. -/
theorem lastWord_eq (c : Dev nD) (t : Fin (cfgM m).N) (hc2 : k0_cond2 (grid0.coords t) = 1#1) :
    lastWord c (grid0.coords t) hc2 (tbl m 0) = lenAt m t.val := by
  unfold lastWord lenAt
  show tbl m 0 _ = tbl m 0 _
  congr 1
  funext a
  match a with
  | ⟨0, _⟩ => exact Fin.ext ((Nat.add_zero _).trans (off1_eq m t))

end Cert.Kernel.Body

end
-- ==== Proof.BSound3.lean ====
import proofs.«429842_j38276748542062_2_alg».proof.Proof.Gen.Kernel.Launch
import proofs.«429842_j38276748542062_2_alg».proof.Proof.Gen.Kernel.Skeleton
import proofs.«429842_j38276748542062_2_alg».proof.Proof.BSound2
import proofs.«429842_j38276748542062_2_alg».proof.Proof.BWord
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The body obligation

What the body is called with at a point and what it returns, the windows one by one; then the three cases. -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

def bodyPost (c : Dev nD) (t : Fin (cfgM m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_0 (c : Dev nD) (t : Fin (cfgM m).N) : (dats m 0 c).leavesExact 0 t = owns (c : Thread nD τ) (ms0 m t) fullShare (iblk m c 0 t) := by
  rw [← after_0]; unfold Dat.leavesExact; rw [show (cfgM m).idle 0 ((cfgM m).grid.coords t) = false from rfl]; rfl
theorem leaves_1 (c : Dev nD) (t : Fin (cfgM m).N) : (dats m 0 c).leavesExact 1 t = owns (c : Thread nD τ) (ms1 m t) fullShare (iblk m c 1 t) := by
  rw [← after_1]; unfold Dat.leavesExact; rw [show (cfgM m).idle 1 ((cfgM m).grid.coords t) = false from rfl]; rfl

set_option maxHeartbeats 1000000 in
/-- A middle tile: the columns go from the fold's value before the point to its value after it. -/
theorem sound_mid (c : Dev nD) (t : Fin (cfgM m).N) (h0 : ¬t.val % 5 = 0) (h4 : ¬t.val % 5 = 4) :
    bodyPre m c t ⊢ wp frame (wpE (defs₀ (F := F)) Variants.none c none) Set.univ (bodyAt m t) (fun _ => bodyPost m c t) := by
  have hc1 : ¬first (grid0.coords t) := fun h => h0 ((first_iff m t).mp h)
  have hc2 : ¬k0_cond2 (grid0.coords t) = 1#1 := fun h => h4 ((last_iff m t).mp h)
  have hz : t.val ≠ 0 := fun h => h0 (by rw [h])
  have hstart : Traj.start t.val (stAt m c t.val) = stAt m c t.val := by unfold Traj.start; rw [if_neg h0]
  unfold bodyPre bodyPost bodyAt
  simp only [before_0, before_1]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    leaves_0, leaves_1, Dat.leavesExact_idle (dats m 0 c) 2 t (idle2 m t hc2) (noFlush2 m t hc2),
    PhiS_pos m c _ hz, PhiS_pos m c _ (Nat.succ_ne_zero _), stAt_succ, xb_eq, gb_eq]
  unfold Traj.step; rw [hstart, coords_eq]; dsimp only
  iintro ⟨⟨HT, H6, H7, H8⟩, Ho, ⟨%d0, H3⟩, ⟨%d1, H4⟩, ⟨%d2, H5⟩⟩
  iapply ((runMid c (grid0.coords t) (ms0 m t) (hs0 m t) (ms1 m t) (hs1 m t) (ms2 m t) (hs2 m t) scM0 (Memref.isWhole_whole _) scM1 (Memref.isWhole_whole _) scM2 (Memref.isWhole_whole _) hc1 hc2 (iblk m c 0 t) (iblk m c 1 t) (stAt m c t.val).mx (stAt m c t.val).sm (stAt m c t.val).tg).2.2.2 _ (tbl m 0) Set.univ _)
  isplitl [H3]; · iexact H3
  isplitl [H4]; · iexact H4
  isplitl [H5]; · iexact H5
  isplitl [H6]; · iexact H6
  isplitl [H7]; · iexact H7
  isplitl [H8]; · iexact H8
  isplitl [HT]; · iexact HT
  iintro ⟨H3, H4, H5, ⟨%e6, H6⟩, ⟨%e7, H7⟩, ⟨%e8, H8⟩, HT⟩
  isplitl [HT H6 H7 H8]
  · isplitl [HT]; · iexact HT
    isplitl [H6]
    · unfold owns; iexists _; isplitr
      swap; · iexact H6
      ipureintro; exact mid_mx c _ _ _ _ _ _ _ _ _ _ _ _ _ hc1 hc2 _ _ _ _ _ e6
    isplitl [H7]
    · unfold owns; iexists _; isplitr
      swap; · iexact H7
      ipureintro; exact mid_sm c _ _ _ _ _ _ _ _ _ _ _ _ _ hc1 hc2 _ _ _ _ _ e7
    unfold owns; iexists _; isplitr
    swap; · iexact H8
    ipureintro; exact mid_tg c _ _ _ _ _ _ _ _ _ _ _ _ _ hc1 hc2 _ _ _ _ _ e8
  isplitl [Ho]; · iexact Ho
  isplitl [H3]; · iexact H3
  isplitl [H4]; · iexact H4
  iexists _; iexact H5

set_option maxHeartbeats 1000000 in
/-- The first tile of a sample: whatever the columns held, they end at the fold's value after the point (the fold
    starts a sample from the reset values). -/
theorem sound_first (c : Dev nD) (t : Fin (cfgM m).N) (h0 : t.val % 5 = 0) :
    bodyPre m c t ⊢ wp frame (wpE (defs₀ (F := F)) Variants.none c none) Set.univ (bodyAt m t) (fun _ => bodyPost m c t) := by
  have hc1 : first (grid0.coords t) := (first_iff m t).mpr h0
  have hc2 : ¬k0_cond2 (grid0.coords t) = 1#1 := fun h => by have := (last_iff m t).mp h; omega
  have hstart : Traj.start t.val (stAt m c t.val) = ⟨k0_pay3 (F := F), k0_pay4 (F := F), k0_pay5 (F := F)⟩ := by unfold Traj.start; rw [if_pos h0]
  unfold bodyPre bodyPost bodyAt
  simp only [before_0, before_1]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    leaves_0, leaves_1, Dat.leavesExact_idle (dats m 0 c) 2 t (idle2 m t hc2) (noFlush2 m t hc2),
    PhiS_pos m c _ (Nat.succ_ne_zero _), stAt_succ, xb_eq, gb_eq]
  unfold Traj.step; rw [hstart, coords_eq]; dsimp only
  iintro ⟨HP, Ho, ⟨%d0, H3⟩, ⟨%d1, H4⟩, ⟨%d2, H5⟩⟩
  ihave HQ := (PhiS_any m c t.val) $$ HP
  icases HQ with ⟨HT, H6, H7, H8⟩
  iapply ((runFirst c (grid0.coords t) (ms0 m t) (hs0 m t) (ms1 m t) (hs1 m t) (ms2 m t) (hs2 m t) scM0 (Memref.isWhole_whole _) scM1 (Memref.isWhole_whole _) scM2 (Memref.isWhole_whole _) hc1 hc2 (iblk m c 0 t) (iblk m c 1 t)).2.2.2 _ (tbl m 0) Set.univ _)
  isplitl [H3]; · iexact H3
  isplitl [H4]; · iexact H4
  isplitl [H5]; · iexact H5
  isplitl [H6]; · iexact H6
  isplitl [H7]; · iexact H7
  isplitl [H8]; · iexact H8
  isplitl [HT]; · iexact HT
  iintro ⟨H3, H4, H5, ⟨%e6, H6⟩, ⟨%e7, H7⟩, ⟨%e8, H8⟩, HT⟩
  isplitl [HT H6 H7 H8]
  · isplitl [HT]; · iexact HT
    isplitl [H6]
    · unfold owns; iexists _; isplitr
      swap; · iexact H6
      ipureintro; exact first_mx c _ _ _ _ _ _ _ _ _ _ _ _ _ hc1 hc2 _ _ e6
    isplitl [H7]
    · unfold owns; iexists _; isplitr
      swap; · iexact H7
      ipureintro; exact first_sm c _ _ _ _ _ _ _ _ _ _ _ _ _ hc1 hc2 _ _ e7
    unfold owns; iexists _; isplitr
    swap; · iexact H8
    ipureintro; exact first_tg c _ _ _ _ _ _ _ _ _ _ _ _ _ hc1 hc2 _ _ e8
  isplitl [Ho]; · iexact Ho
  isplitl [H3]; · iexact H3
  isplitl [H4]; · iexact H4
  iexists _; iexact H5

set_option maxHeartbeats 1000000 in
/-- The last tile of a sample: the columns take their last step and the output buffer ends at the masked negative
    log-likelihoods of the sample's rows. -/
theorem sound_last (c : Dev nD) (t : Fin (cfgM m).N) (h4 : t.val % 5 = 4) :
    bodyPre m c t ⊢ wp frame (wpE (defs₀ (F := F)) Variants.none c none) Set.univ (bodyAt m t) (fun _ => bodyPost m c t) := by
  have h0 : ¬t.val % 5 = 0 := by omega
  have hc1 : ¬first (grid0.coords t) := fun h => h0 ((first_iff m t).mp h)
  have hc2 : k0_cond2 (grid0.coords t) = 1#1 := (last_iff m t).mpr h4
  have hz : t.val ≠ 0 := fun h => h0 (by rw [h])
  have hstart : Traj.start t.val (stAt m c t.val) = stAt m c t.val := by unfold Traj.start; rw [if_neg h0]
  unfold bodyPre bodyPost bodyAt
  simp only [before_0, before_1]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    leaves_0, leaves_1,
    show (dats m 0 c).leavesExact 2 t = owns (c : Thread nD τ) (ms2 m t) fullShare ((dats m 0 c).after 2 t) from by
      unfold Dat.leavesExact; rw [live2 m t hc2]; rfl,
    after_2, PhiS_pos m c _ hz, PhiS_pos m c _ (Nat.succ_ne_zero _)]
  unfold outAt Traj.outv
  rw [← lastWord_eq m c t hc2, stAt_succ, xb_eq, gb_eq]
  unfold Traj.step; rw [hstart, coords_eq]; dsimp only
  iintro ⟨⟨HT, H6, H7, H8⟩, Ho, ⟨%d0, H3⟩, ⟨%d1, H4⟩, ⟨%d2, H5⟩⟩
  iapply ((runLast c (grid0.coords t) (ms0 m t) (hs0 m t) (ms1 m t) (hs1 m t) (ms2 m t) (hs2 m t) scM0 (Memref.isWhole_whole _) scM1 (Memref.isWhole_whole _) scM2 (Memref.isWhole_whole _) hc1 hc2 (iblk m c 0 t) (iblk m c 1 t) (stAt m c t.val).mx (stAt m c t.val).sm (stAt m c t.val).tg (tbl m 0)).2.2.2.2 Set.univ _)
  isplitl [H3]; · iexact H3
  isplitl [H4]; · iexact H4
  isplitl [H5]; · iexists _; iexact H5
  isplitl [H6]; · iexact H6
  isplitl [H7]; · iexact H7
  isplitl [H8]; · iexact H8
  isplitl [HT]; · iexact HT
  iintro ⟨H3, H4, ⟨%e5, H5⟩, ⟨%e6, H6⟩, ⟨%e7, H7⟩, ⟨%e8, H8⟩, HT⟩
  isplitl [HT H6 H7 H8]
  · isplitl [HT]; · iexact HT
    isplitl [H6]
    · unfold owns; iexists _; isplitr
      swap; · iexact H6
      ipureintro; exact last_mx c _ _ _ _ _ _ _ _ _ _ _ _ _ hc1 hc2 _ _ _ _ _ _ e6
    isplitl [H7]
    · unfold owns; iexists _; isplitr
      swap; · iexact H7
      ipureintro; exact last_sm c _ _ _ _ _ _ _ _ _ _ _ _ _ hc1 hc2 _ _ _ _ _ _ e7
    unfold owns; iexists _; isplitr
    swap; · iexact H8
    ipureintro; exact last_tg c _ _ _ _ _ _ _ _ _ _ _ _ _ hc1 hc2 _ _ _ _ _ _ e8
  isplitl [Ho]; · iexact Ho
  isplitl [H3]; · iexact H3
  isplitl [H4]; · iexact H4
  unfold owns; iexists _; isplitr
  swap; · iexact H5
  ipureintro; exact last_out c _ _ _ _ _ _ _ _ _ _ _ _ _ hc1 hc2 _ _ _ _ _ _ e5

/-- The body at any point. -/
theorem sound_body (c : Dev nD) (t : Fin (cfgM m).N) :
    bodyPre m c t ⊢ wp frame (wpE (defs₀ (F := F)) Variants.none c none) Set.univ (bodyAt m t) (fun _ => bodyPost m c t) := by
  by_cases h0 : t.val % 5 = 0
  · exact sound_first m c t h0
  · by_cases h4 : t.val % 5 = 4
    · exact sound_last m c t h4
    · exact sound_mid m c t h0 h4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.BVals.lean ====
import proofs.«429842_j38276748542062_2_alg».proof.Proof.BBody
import proofs.«429842_j38276748542062_2_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents behind the kernel region

The contents of a core's buffers at each boundary between the program's items after the region, a fold from the
contents at the region's entry: at the region's exit its three arrays hold what the pipeline leaves and every other
buffer what it held at the entry; each stretch of host operations then acts on the contents before it. -/

/-- At the region's exit: its arrays at what the pipeline leaves, every other buffer as entered. -/
def W2 (c : Dev nD) : Valuation τ sig (Elt F) :=
  Pipeline.withArrays spec0 c (W1 m c) fun w => (dats m 0 c).arrAt w (cfgM m).N
/-- After each of the three host stretches behind the region. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)

/-- At the exit each array of the region holds what the pipeline leaves, -/
theorem W2_arr (c : Dev nD) (w : Fin (cfgM m).W) :
    W2 m c (Proc.devRef .tc (Pipeline.arrRef spec0 w)) = (dats m 0 c).arrAt w (cfgM m).N := by
  unfold W2; exact Pipeline.withArrays_arr spec0 (launch0 (F := F)).win.arr_inj c _ _ w
/-- and a buffer that is no array of the region what it held at the entry. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The exit contents read at the TensorCore's references. -/
abbrev V2 (c : Dev nD) (b : Ref sig .tc) : Buf (Elt F) ((c : Thread nD τ).loc b) := W2 m c b
theorem hF0 (c : Dev nD) (w : Fin (cfgM m).W) : (dats m 0 c).arrAt w (cfgM m).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

end Cert.Kernel.Body

end
-- ==== Proof.BRun.lean ====
import proofs.«429842_j38276748542062_2_alg».proof.Proof.BSound3
import proofs.«429842_j38276748542062_2_alg».proof.Proof.BVals
import proofs.«429842_j38276748542062_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch of the kernel program

The program is one host operation, the kernel region, and nineteen host operations in three stretches, one of which
reads the lengths table. Between two items a core holds every unscoped buffer at a named valuation, a fold through the
program from the launch memory, beside what it owes (nothing). The region takes its three arrays and the table out of
those buffers, hands the table to the body's invariant, and gives all back at the exit valuation: the arrays at what the
pipeline leaves, every other buffer as entered. -/

/-- No core owes another anything: no level is assigned. -/
abbrev L : GSem nD τ sig → Finset Unit := fun _ => ∅
abbrev lv : GSem nD τ sig → Unit → ℕ := fun _ _ => 0
/-- What rides beside the buffers through every item: what the core owes, nothing. -/
abbrev R (c : Dev nD) : sProp 𝕄 := iprop(∃ W, owes (c : Thread nD τ) (0 : CellTallies nD τ sig Unit) W)
/-- A stretch of host operations as a segment, from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- A whole scoped buffer owned at named contents is that buffer held at some contents. -/
theorem owns_forget (c : Dev nD) (b : Ref sig .tc) (f : b.ty.Contents (Elt F)) :
    (owns (c : Thread nD τ) (Memref.whole b) fullShare f : sProp 𝕄)
      ⊢ iprop(∃ g : Buf (Elt F) ((c : Thread nD τ).loc b), ((c : Thread nD τ).loc b) ↦{fullShare} g) := by
  rw [owns_whole]; iintro H; iexists _; iexact H

/-- After any point the invariant gives back the table and the three scratch buffers, their contents forgotten. -/
theorem PhiS_succ_out (c : Dev nD) (n : ℕ) :
    PhiS m c (n + 1) ⊢ iprop(Pipeline.prefHeld pre0 c (fun _ => fullShare) (tbl m)
      ∗ Pipeline.scopedRest (Ix := Unit) (Name := ℕ) (U := UR sig nD τ) (Lvl := ℕ) (Val := Elt F) spec0 c) := by
  rw [scopedRest0_eq]
  show iprop(Pipeline.prefHeld pre0 c (fun _ => fullShare) (tbl m)
      ∗ owns (c : Thread nD τ) scM0 fullShare (stAt m c (n + 1)).mx ∗ owns (c : Thread nD τ) scM1 fullShare (stAt m c (n + 1)).sm ∗ owns (c : Thread nD τ) scM2 fullShare (stAt m c (n + 1)).tg) ⊢ _
  iintro ⟨Ht, H0, H1, H2⟩
  isplitl [Ht]; · iexact Ht
  isplitl [H0]; · iapply (owns_forget c cc0_scratch0 _); iexact H0
  isplitl [H1]; · iapply (owns_forget c cc0_scratch1 _); iexact H1
  iapply (owns_forget c cc0_scratch2 _); iexact H2

/-- The invariant at the last point is the one after point 159. -/
theorem Phi_last (c : Dev nD) : (dats m 0 c).Φ (Fin.last (cfgM m).N) = PhiS m c (159 + 1) :=
  congrArg (PhiS m c) ((Fin.val_last _).trans N_0)

/-- The unscoped buffers that are no array of the region, at the entry contents: the table at its contents and the rest. -/
theorem rest_split (c : Dev nD) :
    (Pipeline.unscopedRest (Ix := Unit) (Name := ℕ) (U := UR sig nD τ) (Lvl := ℕ) spec0 c (V1 m c) : sProp 𝕄)
      = iprop(Pipeline.prefHeld pre0 c (fun _ => fullShare) (tbl m) ∗ Pipeline.unscopedRestP pre0 spec0 c (V1 m c)) := by
  rw [Pipeline.unscopedRest_split preFacts0 c (V1 m c), show (fun k => V1 m c (pre0.ref k)) = tbl m from funext (V_pre m c)]

set_option backward.isDefEq.respectTransparency.types false in
/-- The kernel region over the thread state: entered from every unscoped buffer at `W1`, left at `W2`. Its arrays and
    the table split out of the unscoped buffers at the entry; the table goes through the invariant and comes back; at
    the exit the arrays at their final contents, the table and the rest make the unscoped buffers at `W2`. -/
def reg0 : Pipeline.RegionSeg (pcfgs (F := F)) (admP m) (dats m) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := Pipeline.prefHeld pre0 c (fun _ => fullShare) (tbl m)
  Z c := Pipeline.unscopedRestP (Ix := Unit) (Name := ℕ) (U := UR sig nD τ) (Lvl := ℕ) pre0 spec0 c (V1 m c)
  hentry c := by
    rw [Pipeline.ownSems0_none]
    have hsplit := Pipeline.arrays_of_unscopedBufs (p := 0) (pcfgs (F := F)) (admP m) (dats m) (launch0 (F := F)).win (launch0 (F := F)).arr_whole c
      ((dats m 0 c).share_full fun _ => rfl) (V1 m c) fun _ => rfl
    rw [Pipeline.unscopedBufs_held] at hsplit
    have hsplit' := hsplit.trans (sep_mono .rfl (Entails.of_eq (rest_split m c)))
    iintro ⟨⟨Hub, HO⟩, -, -⟩
    ihave H := hsplit' $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = iprop(Pipeline.prefHeld pre0 c (fun _ => fullShare) (tbl m)
      ∗ Pipeline.scopedRest (Ix := Unit) (Name := ℕ) (U := UR sig nD τ) (Lvl := ℕ) (Val := Elt F) spec0 c) from rfl]
    iintro ⟨-, Ht, Hr⟩
    isplitl [Ht]; · iexact Ht
    iexact Hr
  hout c := by
    rw [Pipeline.ownSems0_none, Phi_last m c]
    iintro H
    ihave H' := (PhiS_succ_out m c 159) $$ H
    icases H' with ⟨Ht, Hr⟩
    isplitl [Ht]; · iexact Ht
    isplitr; · iempintro
    iexact Hr
  hexit c := by
    have hjoin := Pipeline.unscopedBufs_of_arrays (p := 0) (pcfgs (F := F)) (admP m) (Ix := Unit) (Name := ℕ) (U := UR sig nD τ) (Lvl := ℕ)
      (launch0 (F := F)).win (launch0 (F := F)).arr_whole c (dats m) ((dats m 0 c).share_full fun _ => rfl)
      (V1 m c) (V2 m c) ((dats m 0 c).arrAt · (cfgM m).N) (hF0 m c) (hrest0 m c)
    rw [Pipeline.unscopedBufs_held] at hjoin
    have hjoin' := (sep_mono .rfl (Entails.of_eq (rest_split m c).symm)).trans hjoin
    iintro ⟨Ha, HO, HY, Hrest⟩
    imodintro
    isplitl [Ha Hrest HY]
    · iapply hjoin'
      isplitl [Ha]; · iexact Ha
      isplitl [HY]; · iexact HY
      iexact Hrest
    unfold Pipeline.Dat.owesAt Pipeline.owesWithin
    icases HO with ⟨%W, -, HO⟩; iexists W; iexact HO

/-- The program's five segments in order. -/
abbrev segs : List (Pipeline.Seg (pcfgs (F := F)) (admP m) (dats m) () defs₀ Variants.none L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)) ]
/-- The program is the run of its segments. -/
theorem main_run (c : Dev nD) : main (F := F) c = Pipeline.Seg.run (segs m) := (main_chain c).trans (by chain_rfl)

set_option backward.isDefEq.respectTransparency.types false in
/-- From any memory with zero counters every weakly fair execution of the program on the TensorCores terminates, and
    every final state holds each unscoped buffer at the last valuation of the fold. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) (admP m) (dats m) () (cellOf_inj (admP m)) emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (admP m)) (cellOf_inj (admP m))) (Pipeline.launchToks (Pipeline.pin (pcfgs (F := F)) (admP m)) (cellOf_inj (admP m))))
    (hu₀ := by
      iintro Hu; imodintro
      isplitl [Hu]
      · iapply (show (ownU (initOf (Pipeline.cells (Pipeline.pin (pcfgs (F := F)) (admP m)) (cellOf_inj (admP m))) (Pipeline.launchToks (Pipeline.pin (pcfgs (F := F)) (admP m)) (cellOf_inj (admP m)))) : sProp 𝕄)
            ⊢ BI.own (emb₁ (initOf (Pipeline.cells (Pipeline.pin (pcfgs (F := F)) (admP m)) (cellOf_inj (admP m))) (Pipeline.launchToks (Pipeline.pin (pcfgs (F := F)) (admP m)) (cellOf_inj (admP m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.Kernel.Body

end
-- ==== Proof.BArgs.lean ====
/-
  The arguments end as launched. No host operation writes an argument's buffer, and the kernel region reads the
  logits through an input window (never written back) and bypasses the labels and the lengths; so the fold of the
  program's items at an argument's buffer walks back, item by item, to the launch memory.
-/
import proofs.«429842_j38276748542062_2_alg».proof.Proof.BVals

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! # What the host stretches write

Each host operation writes its one result buffer; listed stretch by stretch, the written buffers are values of the
program, never an argument. -/

/-- A one-buffer set of written buffers lies in the image of any list of references naming that buffer. -/
theorem single_sub {W : List (Ref sig .tc)} {y : Ref sig .tc} (hy : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, hy, rfl⟩))

/-- The stretch before the region writes the reshaped labels. -/
theorem writes_hostOps0 : (hostOps0 : List (HloOp τ sig (Elt F))).Forall fun op =>
    op.writes ⊆ ([main_v0].map (Proc.devRef (τ := τ) .tc)).toFinset :=
  single_sub (y := main_v0) (by decide)
/-- The first stretch behind it writes the constants and the lengths less one. -/
theorem writes_hostOps1 : (hostOps1 : List (HloOp τ sig (Elt F))).Forall fun op =>
    op.writes ⊆ ([main_c, main_v2, main_v3, main_c_0, main_c_1].map (Proc.devRef (τ := τ) .tc)).toFinset :=
  ⟨single_sub (y := main_c) (by decide), single_sub (y := main_v2) (by decide), single_sub (y := main_v3) (by decide),
    single_sub (y := main_c_0) (by decide), single_sub (y := main_c_1) (by decide)⟩
/-- The clip writes its own values and its result. -/
theorem writes_hostOps1_1 : (hostOps1_1 : List (HloOp τ sig (Elt F))).Forall fun op =>
    op.writes ⊆ ([main_call0_v0, main_call0_v1, main_call0_v2, main_call0_v3, main_call0_v4, main_v4].map (Proc.devRef (τ := τ) .tc)).toFinset :=
  ⟨single_sub (y := main_call0_v0) (by decide), single_sub (y := main_call0_v1) (by decide), single_sub (y := main_call0_v2) (by decide),
    single_sub (y := main_call0_v3) (by decide), single_sub (y := main_call0_v4) (by decide), single_sub (y := main_v4) (by decide)⟩
/-- The last stretch writes the count, the total and the quotient. -/
theorem writes_hostOps1_2 : (hostOps1_2 : List (HloOp τ sig (Elt F))).Forall fun op =>
    op.writes ⊆ ([main_c_2, main_v5, main_c_3, main_v6, main_v7, main_cst, main_v8, main_v9].map (Proc.devRef (τ := τ) .tc)).toFinset :=
  ⟨single_sub (y := main_c_2) (by decide), single_sub (y := main_v5) (by decide), single_sub (y := main_c_3) (by decide),
    single_sub (y := main_v6) (by decide), single_sub (y := main_v7) (by decide), single_sub (y := main_cst) (by decide),
    single_sub (y := main_v8) (by decide), single_sub (y := main_v9) (by decide)⟩

/-! # The arguments at the program's end -/

/-- The logits: an input window's array of the region, never written back, and written by no host operation. -/
theorem W5_arg0 (c : Dev nD) : W5 m c (Proc.devRef .tc main_arg0) = m ((c.tc : Thread nD τ).loc main_arg0) :=
  calc W5 m c (Proc.devRef .tc main_arg0)
    _ = W4 m c (Proc.devRef .tc main_arg0) := StableHlo.after_of_writes_sub hostOps1_2 _ (writes_hostOps1_2 (F := F)) (by decide)
    _ = W3 m c (Proc.devRef .tc main_arg0) := StableHlo.after_of_writes_sub hostOps1_1 _ (writes_hostOps1_1 (F := F)) (by decide)
    _ = W2 m c (Proc.devRef .tc main_arg0) := StableHlo.after_of_writes_sub hostOps1 _ (writes_hostOps1 (F := F)) (by decide)
    _ = W1 m c (Proc.devRef .tc main_arg0) := (W2_arr m c 1).trans (((dats m 0 c).arrAt_in 1 rfl _).trans (A_eq m c 1))
    _ = W0 m c (Proc.devRef .tc main_arg0) := StableHlo.after_of_writes_sub hostOps0 _ (writes_hostOps0 (F := F)) (by decide)
    _ = m ((c.tc : Thread nD τ).loc main_arg0) := rfl

/-- The labels: no array of the region, and written by no host operation. -/
theorem W5_arg1 (c : Dev nD) : W5 m c (Proc.devRef .tc main_arg1) = m ((c.tc : Thread nD τ).loc main_arg1) :=
  calc W5 m c (Proc.devRef .tc main_arg1)
    _ = W4 m c (Proc.devRef .tc main_arg1) := StableHlo.after_of_writes_sub hostOps1_2 _ (writes_hostOps1_2 (F := F)) (by decide)
    _ = W3 m c (Proc.devRef .tc main_arg1) := StableHlo.after_of_writes_sub hostOps1_1 _ (writes_hostOps1_1 (F := F)) (by decide)
    _ = W2 m c (Proc.devRef .tc main_arg1) := StableHlo.after_of_writes_sub hostOps1 _ (writes_hostOps1 (F := F)) (by decide)
    _ = W1 m c (Proc.devRef .tc main_arg1) := W2_of_ne m c main_arg1 (by decide)
    _ = W0 m c (Proc.devRef .tc main_arg1) := StableHlo.after_of_writes_sub hostOps0 _ (writes_hostOps0 (F := F)) (by decide)
    _ = m ((c.tc : Thread nD τ).loc main_arg1) := rfl

/-- The lengths: no array of the region (it is its prefetched table), and written by no host operation. -/
theorem W5_arg2 (c : Dev nD) : W5 m c (Proc.devRef .tc main_arg2) = m ((c.tc : Thread nD τ).loc main_arg2) :=
  calc W5 m c (Proc.devRef .tc main_arg2)
    _ = W4 m c (Proc.devRef .tc main_arg2) := StableHlo.after_of_writes_sub hostOps1_2 _ (writes_hostOps1_2 (F := F)) (by decide)
    _ = W3 m c (Proc.devRef .tc main_arg2) := StableHlo.after_of_writes_sub hostOps1_1 _ (writes_hostOps1_1 (F := F)) (by decide)
    _ = W2 m c (Proc.devRef .tc main_arg2) := StableHlo.after_of_writes_sub hostOps1 _ (writes_hostOps1 (F := F)) (by decide)
    _ = W1 m c (Proc.devRef .tc main_arg2) := W2_of_ne m c main_arg2 (by decide)
    _ = W0 m c (Proc.devRef .tc main_arg2) := StableHlo.after_of_writes_sub hostOps0 _ (writes_hostOps0 (F := F)) (by decide)
    _ = m ((c.tc : Thread nD τ).loc main_arg2) := rfl

/-- An unscoped TensorCore reference is among the core's unscoped buffers: these are the TensorCore's references
    filtered by not being scoped. -/
theorem mem_uc (b : Ref sig .tc) (h : ¬ (Proc.devRef .tc b : DevRef τ sig).isScoped) : Proc.devRef .tc b ∈ Pipeline.ucRefs τ sig := by
  unfold Pipeline.ucRefs
  rw [Finset.mem_filter]
  exact ⟨StableHlo.devRef_mem_tcRefs b, h⟩

end Cert.Kernel.Body

end
-- ==== Proof.KRuns.lean ====
import proofs.«429842_j38276748542062_2_alg».proof.Proof.Gen.KernelIdeal.Launch
import proofs.«429842_j38276748542062_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel's body, one run per control case

The body at grid point `(b, v)` (sample `b`, vocabulary tile `v` of five): at tile 0 it first resets the three row
statistics it carries between tiles (the running maximum to `-∞`, the running sum and the label's logit to `0`);
at every tile it folds the tile's logits into them; at tile 4 it reads the sample's length and writes the masked
negative log-likelihoods of the sample's 256 rows. Two conditions decide the case: `first` (tile 0) and
`k0_cond2` (tile 4). -/

/-- The body's first condition: the tile index is `0`. -/
abbrev first (i : grid0.Coords) : Prop :=
  (Scalar.cmpi .ne (Scalar.extui (Scalar.cmpi .eq (BitVec.ofNat 32 (i 1).val) 0#32)) 0#32) = 1#1

/-- The lengths table as the body is handed it: its whole buffer. -/
abbrev tbM : Memref sig .tc .smem S32 .i32 := Memref.whole main_arg2
abbrev htbM : tbM.IsWhole := Memref.isWhole_whole _
/-- Its buffer's contents type on core `c`, and the buffer held whole at `f`. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f

set_option maxHeartbeats 1000000 in
/-- A middle tile (neither the first nor the last): the three statistics, found at `s6 s7 s8`, end with the pieces
    the body stores into them; the label and logit blocks and the output buffer come back as found. -/
noncomputable def runMid (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : ¬k0_cond2 i = 1#1)
    (g : Vec F S1x256x1 .i32) (x : Vec F S1x256x6400 .f32) (s6 s7 s8 : Vec F S256x1 .f32) :
    Σ' (L6 : List (View.Piece (Elt F) S256x1 .f32)) (L7 : List (View.Piece (Elt F) S256x1 .f32)), { L8 : List (View.Piece (Elt F) S256x1 .f32) //
      ∀ (xi5 : Vec F S1x256x1 .f32) (xt : TbBuf (F := F) c) (E : Set ℕ) (K : PUnit → sProp 𝕄),
        iprop(owns (c : Thread nD τ) arg3 fullShare g ∗ owns (c : Thread nD τ) arg4 fullShare x ∗ owns (c : Thread nD τ) arg5 fullShare xi5
            ∗ owns (c : Thread nD τ) arg6 fullShare s6 ∗ owns (c : Thread nD τ) arg7 fullShare s7 ∗ owns (c : Thread nD τ) arg8 fullShare s8 ∗ tbPt c xt
            ∗ (iprop(owns (c : Thread nD τ) arg3 fullShare g ∗ owns (c : Thread nD τ) arg4 fullShare x ∗ owns (c : Thread nD τ) arg5 fullShare xi5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8) ∗ tbPt c xt) -∗ K ⟨⟩))
          ⊢ wp frame (wpE (defs₀ (F := F)) Variants.none c none) E (cc0__ragged_ce_kernel i tbM htbM arg3 harg3 arg4 harg4 arg5 harg5 arg6 harg6 arg7 harg7 arg8 harg8) K } := by
  refine ⟨?_, ?_, ?_, fun xi5 xt E K => ?run⟩
  case run =>
    simp only [cc0__ragged_ce_kernel_eq_skeleton]; unfold cc0__ragged_ce_kernel_skel
    simp only [k0_part1_eq_skeleton]; unfold k0_part1_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, HT, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexact HT

set_option maxHeartbeats 1000000 in
/-- The first tile of a sample: the three statistics, found at anything, are reset and then folded; they end with the
    pieces the body stores into them; the blocks and the output buffer come back as found. -/
noncomputable def runFirst (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : first i) (hc2 : ¬k0_cond2 i = 1#1)
    (g : Vec F S1x256x1 .i32) (x : Vec F S1x256x6400 .f32) :
    Σ' (L6 : List (View.Piece (Elt F) S256x1 .f32)) (L7 : List (View.Piece (Elt F) S256x1 .f32)), { L8 : List (View.Piece (Elt F) S256x1 .f32) //
      ∀ (xi5 : Vec F S1x256x1 .f32) (xt : TbBuf (F := F) c) (E : Set ℕ) (K : PUnit → sProp 𝕄),
        iprop(owns (c : Thread nD τ) arg3 fullShare g ∗ owns (c : Thread nD τ) arg4 fullShare x ∗ owns (c : Thread nD τ) arg5 fullShare xi5
            ∗ (∃ d, owns (c : Thread nD τ) arg6 fullShare d) ∗ (∃ d, owns (c : Thread nD τ) arg7 fullShare d) ∗ (∃ d, owns (c : Thread nD τ) arg8 fullShare d) ∗ tbPt c xt
            ∗ (iprop(owns (c : Thread nD τ) arg3 fullShare g ∗ owns (c : Thread nD τ) arg4 fullShare x ∗ owns (c : Thread nD τ) arg5 fullShare xi5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8) ∗ tbPt c xt) -∗ K ⟨⟩))
          ⊢ wp frame (wpE (defs₀ (F := F)) Variants.none c none) E (cc0__ragged_ce_kernel i tbM htbM arg3 harg3 arg4 harg4 arg5 harg5 arg6 harg6 arg7 harg7 arg8 harg8) K } := by
  refine ⟨?_, ?_, ?_, fun xi5 xt E K => ?run⟩
  case run =>
    simp only [cc0__ragged_ce_kernel_eq_skeleton]; unfold cc0__ragged_ce_kernel_skel
    simp only [k0_part1_eq_skeleton]; unfold k0_part1_skel
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩, HT, Hk⟩
    obtain rfl := harg3.eq_unread hf3; obtain rfl := harg4.eq_unread hf4; obtain rfl := harg5.eq_unread hf5
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexact HT

set_option maxHeartbeats 1000000 in
/-- The last tile of a sample: the statistics, found at `s6 s7 s8`, are folded once more, the sample's length is read
    from the table, and the output buffer, found at anything, ends with the piece the body stores into it. -/
noncomputable def runLast (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : k0_cond2 i = 1#1)
    (g : Vec F S1x256x1 .i32) (x : Vec F S1x256x6400 .f32) (s6 s7 s8 : Vec F S256x1 .f32) (xt : TbBuf (F := F) c) :
    Σ' (L5 : List (View.Piece (Elt F) S1x256x1 .f32)) (L6 : List (View.Piece (Elt F) S256x1 .f32)) (L7 : List (View.Piece (Elt F) S256x1 .f32)), { L8 : List (View.Piece (Elt F) S256x1 .f32) //
      ∀ (E : Set ℕ) (K : PUnit → sProp 𝕄),
        iprop(owns (c : Thread nD τ) arg3 fullShare g ∗ owns (c : Thread nD τ) arg4 fullShare x ∗ (∃ d, owns (c : Thread nD τ) arg5 fullShare d)
            ∗ owns (c : Thread nD τ) arg6 fullShare s6 ∗ owns (c : Thread nD τ) arg7 fullShare s7 ∗ owns (c : Thread nD τ) arg8 fullShare s8 ∗ tbPt c xt
            ∗ (iprop(owns (c : Thread nD τ) arg3 fullShare g ∗ owns (c : Thread nD τ) arg4 fullShare x
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8) ∗ tbPt c xt) -∗ K ⟨⟩))
          ⊢ wp frame (wpE (defs₀ (F := F)) Variants.none c none) E (cc0__ragged_ce_kernel i tbM htbM arg3 harg3 arg4 harg4 arg5 harg5 arg6 harg6 arg7 harg7 arg8 harg8) K } := by
  refine ⟨?_, ?_, ?_, ?_, fun E K => ?run⟩
  case run =>
    simp only [cc0__ragged_ce_kernel_eq_skeleton]; unfold cc0__ragged_ce_kernel_skel
    simp only [k0_part1_eq_skeleton]; unfold k0_part1_skel
    unfold owns
    iintro ⟨⟨%f3, %hf3, H3⟩, ⟨%f4, %hf4, H4⟩, ⟨%d5, %f5, -, H5⟩, ⟨%f6, %hf6, H6⟩, ⟨%f7, %hf7, H7⟩, ⟨%f8, %hf8, H8⟩, HT, Hk⟩
    obtain rfl := harg3.eq_unread hf3; obtain rfl := harg4.eq_unread hf4
    obtain rfl := harg6.eq_unread hf6; obtain rfl := harg7.eq_unread hf7; obtain rfl := harg8.eq_unread hf8
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexact HT

end Cert.KernelIdeal.Body

end
-- ==== Proof.KTraj.lean ====
import proofs.«429842_j38276748542062_2_alg».proof.Proof.Gen.KernelIdeal.Skeleton

noncomputable section

namespace Cert.KernelIdeal.Traj

open Cert.KernelIdeal Cert.KernelIdeal.Gen
open Idealize.ShloMosaic

variable {F : FTy → Type} [FloatOps F]

/-! # The row statistics the kernel carries between vocabulary tiles, as pure functions

Grid point number `n` (row-major over the 32 × 5 grid) is sample `n / 5`, tile `n % 5`. At each point the body
folds the point's block of logits `x` and block of labels `g` into three `[256, 1]` columns: the running maximum,
the running sum of exponentials (rescaled to the new maximum) and the label's logit found so far. At tile 0 the
columns it starts from are the reset values, whatever the point before left. -/

/-- The three columns. -/
structure St (F : FTy → Type) where
  mx : Vec F S256x1 .f32
  sm : Vec F S256x1 .f32
  tg : Vec F S256x1 .f32

/-- The grid coordinates of point number `n`. -/
def coords (n : ℕ) : grid0.Coords := fun a => match a with
  | ⟨0, _⟩ => ⟨n / 5 % 32, Nat.mod_lt _ (by decide)⟩
  | ⟨1, _⟩ => ⟨n % 5, Nat.mod_lt _ (by decide)⟩

/-- The columns a point starts from: the reset values at tile 0, else what the point before left. -/
def start (n : ℕ) (s : St F) : St F :=
  if n % 5 = 0 then ⟨k0_pay3 (F := F), k0_pay4 (F := F), k0_pay5 (F := F)⟩ else s

/-- One point: the new maximum, the rescaled sum, the label's logit. -/
def step (n : ℕ) (x : Vec F S1x256x6400 .f32) (g : Vec F S1x256x1 .i32) (s : St F) : St F :=
  ⟨k0_pay9 x (start n s).mx, k0_pay8 x (start n s).mx (start n s).sm, k0_pay1 (k0_pay10 (coords n) x g) (start n s).tg⟩

/-- The columns after the first `n` points, given each point's blocks. -/
def stAt (xb : ℕ → Vec F S1x256x6400 .f32) (gb : ℕ → Vec F S1x256x1 .i32) : ℕ → St F
  | 0 => ⟨k0_pay3 (F := F), k0_pay4 (F := F), k0_pay5 (F := F)⟩
  | n + 1 => step n (xb n) (gb n) (stAt xb gb n)

/-- What the last tile of a sample writes out: the masked negative log-likelihoods, from the sample's length word and
    the columns. -/
def outv (len : Elt F .i32) (s : St F) : Vec F S1x256x1 .f32 := k0_pay2 len s.mx s.sm s.tg

end Cert.KernelIdeal.Traj

end
-- ==== Proof.KBody.lean ====
import proofs.«429842_j38276748542062_2_alg».proof.Proof.Gen.KernelIdeal.Launch
import proofs.«429842_j38276748542062_2_alg».proof.Proof.Gen.KernelIdeal.Skeleton
import proofs.«429842_j38276748542062_2_alg».proof.Proof.KRuns
import proofs.«429842_j38276748542062_2_alg».proof.Proof.KTraj
import Idealize.ShloMosaic.Lib.Pipeline.FrameBody
import Idealize.ShloMosaic.Lib.ValueIdx
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The pipeline's proof data

The contents of the core's buffers when the region is entered (the one host operation before it has run), the
lengths table read off them, each window's block at a point, the three carried columns after each point as the pure
fold of the blocks, and the proof data: the inputs' buffers keep their blocks, the output's buffer holds after the
body what the last tile of a sample writes, the invariant holds the table whole and the three scratch columns at the
fold's values (at anything before the first point). -/

/-- Core `c`'s buffers at launch, -/
abbrev W0 (c : Dev nD) : Valuation τ sig (Elt F) := fun b => m (c, b)
/-- when the region is entered (the labels reshaped to `[32, 256, 1]`), -/
abbrev W1 (c : Dev nD) : Valuation τ sig (Elt F) := StableHlo.after hostOps0 (W0 m c)
/-- and the same read at the TensorCore's references. -/
abbrev V1 (c : Dev nD) (b : Ref sig .tc) : Buf (Elt F) ((c : Thread nD τ).loc b) := W1 m c b

/-- The lengths table's contents at the region's entry (the program runs on one device). -/
def tbl : pre0.Contents (Elt F) := fun j => V1 m (0 : Dev nD) (pre0.ref j)
theorem V_pre (c : Dev nD) (j : Fin 1) : V1 m c (pre0.ref j) = tbl m j := by
  obtain rfl : c = 0 := Subsingleton.elim _ _; rfl
/-- The table as admissible contents (the pipeline's side condition on it is trivial: no index map reads it). -/
abbrev adm : (pcfg0 (F := F)).Adm := ⟨tbl m, trivial⟩
abbrev cfgM : Pipeline.Cfg sig Λ₀ := cfg0 (adm m)
abbrev admP : (p : Fin 1) → (pcfgs (F := F) p).Adm := fun _ => adm m

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V1 m c (Pipeline.arrRef spec0 w))

/-- The logits' and the labels' blocks by point number (anything past the grid). -/
def xb (c : Dev nD) (n : ℕ) : Vec F S1x256x6400 .f32 :=
  if h : n < (cfgM m).N then iblk m c 1 ⟨n, h⟩ else fun _ => FloatOps.ofBits .f32 0x00000000#32
def gb (c : Dev nD) (n : ℕ) : Vec F S1x256x1 .i32 :=
  if h : n < (cfgM m).N then iblk m c 0 ⟨n, h⟩ else fun _ => (0#32 : BitVec 32)
/-- The three columns after the first `n` points. -/
def stAt (c : Dev nD) (n : ℕ) : Traj.St F := Traj.stAt (xb m c) (gb m c) n
/-- The length word of the sample point `n` belongs to. -/
def lenAt (n : ℕ) : Elt F .i32 := tbl m 0 (Idealize.ShloMosaic.ValueIdx.ix1 ⟨n / 5 % 32, Nat.mod_lt _ (by decide)⟩)
/-- What the output's staging buffer holds after the body at point `n` when that point is a sample's last tile. -/
def outAt (c : Dev nD) (n : ℕ) : Vec F S1x256x1 .f32 := Traj.outv (lenAt m n) (stAt m c (n + 1))

/-- The three scratch columns as memrefs. -/
abbrev scM0 : Memref sig .tc .vmem S256x1 .f32 := Memref.whole cc0_scratch0
abbrev scM1 : Memref sig .tc .vmem S256x1 .f32 := Memref.whole cc0_scratch1
abbrev scM2 : Memref sig .tc .vmem S256x1 .f32 := Memref.whole cc0_scratch2

/-- The invariant before point number `n`: the table held whole at its contents; the three scratch columns at
    anything before the first point, afterwards at the fold's values. -/
def PhiS (c : Dev nD) : ℕ → sProp 𝕄
  | 0 => iprop(Pipeline.prefHeld pre0 c (fun _ => fullShare) (tbl m) ∗ Pipeline.scopedRest (Ix := Unit) (Name := ℕ) (U := UR sig nD τ) (Lvl := ℕ) (Val := Elt F) spec0 c)
  | n + 1 => iprop(Pipeline.prefHeld pre0 c (fun _ => fullShare) (tbl m)
      ∗ owns (c : Thread nD τ) scM0 fullShare (stAt m c (n + 1)).mx ∗ owns (c : Thread nD τ) scM1 fullShare (stAt m c (n + 1)).sm ∗ owns (c : Thread nD τ) scM2 fullShare (stAt m c (n + 1)).tg)

/-- The proof data on core `c`. -/
def dats (_ : Fin 1) (c : Dev nD) : Dat τ (Elt F) Unit ℕ (UR sig nD τ) ℕ (cfgM m) c where
  A w := V1 m c (Pipeline.arrRef spec0 w)
  after w t := match w with
    | ⟨0, _⟩ => iblk m c 0 t
    | ⟨1, _⟩ => iblk m c 1 t
    | ⟨2, _⟩ => outAt m c t.val
  Φ t := PhiS m c t.val
  q _ := fullShare
  owed _ := 0

theorem A_eq (c : Dev nD) (w : Fin (cfgM m).W) : (dats m 0 c).A w = V1 m c (Pipeline.arrRef spec0 w) := by
  dsimp only [dats]
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = outAt m c t.val := by dsimp only [dats]; try rfl

end Cert.KernelIdeal.Body

end
-- ==== Proof.KSound.lean ====
import proofs.«429842_j38276748542062_2_alg».proof.Proof.Gen.KernelIdeal.Launch
import proofs.«429842_j38276748542062_2_alg».proof.Proof.Gen.KernelIdeal.Skeleton
import proofs.«429842_j38276748542062_2_alg».proof.Proof.KBody
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each case's run leaves, as the payloads

Every store of the body is a store of a whole buffer, so what a buffer holds after a run is the payload of the last
store into it, and every load reads what the buffer held (or what the store before it left). -/

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

set_option maxHeartbeats 1000000 in
theorem mid_mx (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : ¬k0_cond2 i = 1#1)
    (g : Vec F S1x256x1 .i32) (x : Vec F S1x256x6400 .f32) (s6 s7 s8 : Vec F S256x1 .f32) (f : arg6.view.ty.Contents (Elt F)) :
    arg6.view.read (Elt F) (arg6.view.writes (Elt F) f (runMid c i arg3 harg3 arg4 harg4 arg5 harg5 arg6 harg6 arg7 harg7 arg8 harg8 hc1 hc2 g x s6 s7 s8).1) = k0_pay9 x s6 := by
  rw [View.read_writes_eq_canon _ _ _ (by
    intro y; unfold runMid; dsimp only
    refine ⟨_, List.mem_cons_self .., ?_⟩
    exact View.mem_set_unit_zero (S := S256x1) hz2 inb_S256x1_S256x1_0_0 y)]
  unfold runMid; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem mid_sm (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : ¬k0_cond2 i = 1#1)
    (g : Vec F S1x256x1 .i32) (x : Vec F S1x256x6400 .f32) (s6 s7 s8 : Vec F S256x1 .f32) (f : arg7.view.ty.Contents (Elt F)) :
    arg7.view.read (Elt F) (arg7.view.writes (Elt F) f (runMid c i arg3 harg3 arg4 harg4 arg5 harg5 arg6 harg6 arg7 harg7 arg8 harg8 hc1 hc2 g x s6 s7 s8).2.1) = k0_pay8 x s6 s7 := by
  rw [View.read_writes_eq_canon _ _ _ (by
    intro y; unfold runMid; dsimp only
    refine ⟨_, List.mem_cons_self .., ?_⟩
    exact View.mem_set_unit_zero (S := S256x1) hz2 inb_S256x1_S256x1_0_0 y)]
  unfold runMid; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem mid_tg (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : ¬k0_cond2 i = 1#1)
    (g : Vec F S1x256x1 .i32) (x : Vec F S1x256x6400 .f32) (s6 s7 s8 : Vec F S256x1 .f32) (f : arg8.view.ty.Contents (Elt F)) :
    arg8.view.read (Elt F) (arg8.view.writes (Elt F) f (runMid c i arg3 harg3 arg4 harg4 arg5 harg5 arg6 harg6 arg7 harg7 arg8 harg8 hc1 hc2 g x s6 s7 s8).2.2.1) = k0_pay1 (k0_pay10 i x g) s8 := by
  rw [View.read_writes_eq_canon _ _ _ (by
    intro y; unfold runMid; dsimp only
    refine ⟨_, List.mem_cons_self .., ?_⟩
    exact View.mem_set_unit_zero (S := S256x1) hz2 inb_S256x1_S256x1_0_0 y)]
  unfold runMid; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

/-- The length word the last tile reads from the table held at `xt`: the word at the sample's position. -/
def lastWord (c : Dev nD) (i : grid0.Coords) (hc2 : k0_cond2 i = 1#1) (xt : TbBuf (F := F) c) : Elt F .i32 :=
  tbM.view.readAt (Elt F) (Rect.unit (s := S32) (k0_off1 i) S1.size (k0_off1_inb i hc2)).toLoadRect xt (Shape.Idx.first (numel1_S1.symm ▸ Nat.one_pos))

set_option maxHeartbeats 1000000 in
theorem first_mx (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : first i) (hc2 : ¬k0_cond2 i = 1#1)
    (g : Vec F S1x256x1 .i32) (x : Vec F S1x256x6400 .f32)  (f : arg6.view.ty.Contents (Elt F)) :
    arg6.view.read (Elt F) (arg6.view.writes (Elt F) f (runFirst c i arg3 harg3 arg4 harg4 arg5 harg5 arg6 harg6 arg7 harg7 arg8 harg8 hc1 hc2 g x ).1) = k0_pay9 x (k0_pay3 (F := F)) := by
  rw [View.read_writes_eq_canon _ _ _ (by
    intro y; unfold runFirst; dsimp only
    refine ⟨_, List.mem_cons_self .., ?_⟩
    exact View.mem_set_unit_zero (S := S256x1) hz2 inb_S256x1_S256x1_0_0 y)]
  unfold runFirst; dsimp only; sl_unfold_words
  rw [View.canon_cons_unit_zero (S := S256x1) hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem first_sm (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : first i) (hc2 : ¬k0_cond2 i = 1#1)
    (g : Vec F S1x256x1 .i32) (x : Vec F S1x256x6400 .f32)  (f : arg7.view.ty.Contents (Elt F)) :
    arg7.view.read (Elt F) (arg7.view.writes (Elt F) f (runFirst c i arg3 harg3 arg4 harg4 arg5 harg5 arg6 harg6 arg7 harg7 arg8 harg8 hc1 hc2 g x ).2.1) = k0_pay8 x (k0_pay3 (F := F)) (k0_pay4 (F := F)) := by
  rw [View.read_writes_eq_canon _ _ _ (by
    intro y; unfold runFirst; dsimp only
    refine ⟨_, List.mem_cons_self .., ?_⟩
    exact View.mem_set_unit_zero (S := S256x1) hz2 inb_S256x1_S256x1_0_0 y)]
  unfold runFirst; dsimp only; sl_unfold_words
  rw [View.canon_cons_unit_zero (S := S256x1) hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem first_tg (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : first i) (hc2 : ¬k0_cond2 i = 1#1)
    (g : Vec F S1x256x1 .i32) (x : Vec F S1x256x6400 .f32)  (f : arg8.view.ty.Contents (Elt F)) :
    arg8.view.read (Elt F) (arg8.view.writes (Elt F) f (runFirst c i arg3 harg3 arg4 harg4 arg5 harg5 arg6 harg6 arg7 harg7 arg8 harg8 hc1 hc2 g x ).2.2.1) = k0_pay1 (k0_pay10 i x g) (k0_pay5 (F := F)) := by
  rw [View.read_writes_eq_canon _ _ _ (by
    intro y; unfold runFirst; dsimp only
    refine ⟨_, List.mem_cons_self .., ?_⟩
    exact View.mem_set_unit_zero (S := S256x1) hz2 inb_S256x1_S256x1_0_0 y)]
  unfold runFirst; dsimp only; sl_unfold_words
  rw [View.canon_cons_unit_zero (S := S256x1) hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem last_mx (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : k0_cond2 i = 1#1)
    (g : Vec F S1x256x1 .i32) (x : Vec F S1x256x6400 .f32) (s6 s7 s8 : Vec F S256x1 .f32) (xt : TbBuf (F := F) c) (f : arg6.view.ty.Contents (Elt F)) :
    arg6.view.read (Elt F) (arg6.view.writes (Elt F) f (runLast c i arg3 harg3 arg4 harg4 arg5 harg5 arg6 harg6 arg7 harg7 arg8 harg8 hc1 hc2 g x s6 s7 s8 xt).2.1) = k0_pay9 x s6 := by
  rw [View.read_writes_eq_canon _ _ _ (by
    intro y; unfold runLast; dsimp only
    refine ⟨_, List.mem_cons_self .., ?_⟩
    exact View.mem_set_unit_zero (S := S256x1) hz2 inb_S256x1_S256x1_0_0 y)]
  unfold runLast; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem last_sm (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : k0_cond2 i = 1#1)
    (g : Vec F S1x256x1 .i32) (x : Vec F S1x256x6400 .f32) (s6 s7 s8 : Vec F S256x1 .f32) (xt : TbBuf (F := F) c) (f : arg7.view.ty.Contents (Elt F)) :
    arg7.view.read (Elt F) (arg7.view.writes (Elt F) f (runLast c i arg3 harg3 arg4 harg4 arg5 harg5 arg6 harg6 arg7 harg7 arg8 harg8 hc1 hc2 g x s6 s7 s8 xt).2.2.1) = k0_pay8 x s6 s7 := by
  rw [View.read_writes_eq_canon _ _ _ (by
    intro y; unfold runLast; dsimp only
    refine ⟨_, List.mem_cons_self .., ?_⟩
    exact View.mem_set_unit_zero (S := S256x1) hz2 inb_S256x1_S256x1_0_0 y)]
  unfold runLast; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem last_tg (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : k0_cond2 i = 1#1)
    (g : Vec F S1x256x1 .i32) (x : Vec F S1x256x6400 .f32) (s6 s7 s8 : Vec F S256x1 .f32) (xt : TbBuf (F := F) c) (f : arg8.view.ty.Contents (Elt F)) :
    arg8.view.read (Elt F) (arg8.view.writes (Elt F) f (runLast c i arg3 harg3 arg4 harg4 arg5 harg5 arg6 harg6 arg7 harg7 arg8 harg8 hc1 hc2 g x s6 s7 s8 xt).2.2.2.1) = k0_pay1 (k0_pay10 i x g) s8 := by
  rw [View.read_writes_eq_canon _ _ _ (by
    intro y; unfold runLast; dsimp only
    refine ⟨_, List.mem_cons_self .., ?_⟩
    exact View.mem_set_unit_zero (S := S256x1) hz2 inb_S256x1_S256x1_0_0 y)]
  unfold runLast; dsimp only; sl_unfold_words
  rw [View.canon_unit_zero hz2]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]

set_option maxHeartbeats 1000000 in
theorem last_out (c : Dev nD) (i : grid0.Coords)
    (arg3 : Memref sig .tc .vmem S1x256x1 .i32) (harg3 : arg3.IsWhole) (arg4 : Memref sig .tc .vmem S1x256x6400 .f32) (harg4 : arg4.IsWhole)
    (arg5 : Memref sig .tc .vmem S1x256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬first i) (hc2 : k0_cond2 i = 1#1)
    (g : Vec F S1x256x1 .i32) (x : Vec F S1x256x6400 .f32) (s6 s7 s8 : Vec F S256x1 .f32) (xt : TbBuf (F := F) c) (f : arg5.view.ty.Contents (Elt F)) :
    arg5.view.read (Elt F) (arg5.view.writes (Elt F) f (runLast c i arg3 harg3 arg4 harg4 arg5 harg5 arg6 harg6 arg7 harg7 arg8 harg8 hc1 hc2 g x s6 s7 s8 xt).1) = k0_pay2 (lastWord c i hc2 xt) (k0_pay9 x s6) (k0_pay8 x s6 s7) (k0_pay1 (k0_pay10 i x g) s8) := by
  rw [View.read_writes_eq_canon _ _ _ (by
    intro y; unfold runLast; dsimp only
    refine ⟨_, List.mem_cons_self .., ?_⟩
    exact View.mem_set_unit_zero (S := S1x256x1) hz3 inb_S1x256x1_S1x256x1_0_0_0 y)]
  unfold runLast; dsimp only; sl_unfold_words
  rw [View.canon_unit_zero hz3]
  simp only [View.readAt_eq_ld, harg3.read_unread, harg4.read_unread, harg5.read_unread, harg6.read_unread, harg7.read_unread, harg8.read_unread,
    View.ld_unit_zero (S := S256x1) hz2, View.ld_unit_zero (S := S1x256x6400) hz3, View.ld_unit_zero (S := S1x256x1) hz3,
    View.readCov_unit_zero (S := S256x1) _ hz2]
  rfl

end Cert.KernelIdeal.Body

end
-- ==== Proof.KSound2.lean ====
import proofs.«429842_j38276748542062_2_alg».proof.Proof.Gen.KernelIdeal.Launch
import proofs.«429842_j38276748542062_2_alg».proof.Proof.Gen.KernelIdeal.Skeleton
import proofs.«429842_j38276748542062_2_alg».proof.Proof.KSound
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The body at a generic grid point

The two conditions and the output window's schedule in closed form over the 160 points (point `n` is tile `n % 5` of
sample `n / 5`); each input's staging buffer holds its block whenever the body runs; then, case by case, the run
applies and what it leaves is the next value of the fold. -/

theorem first_iff : ∀ t : Fin (cfgM m).N, first (grid0.coords t) ↔ t.val % 5 = 0 :=
  (by decide +kernel : ∀ t : Fin grid0.N, first (grid0.coords t) ↔ t.val % 5 = 0)
theorem last_iff : ∀ t : Fin (cfgM m).N, k0_cond2 (grid0.coords t) = 1#1 ↔ t.val % 5 = 4 :=
  (by decide +kernel : ∀ t : Fin grid0.N, k0_cond2 (grid0.coords t) = 1#1 ↔ t.val % 5 = 4)
theorem coords_eq : ∀ t : Fin (cfgM m).N, Traj.coords t.val = grid0.coords t :=
  (by decide +kernel : ∀ t : Fin grid0.N, Traj.coords t.val = grid0.coords t)
theorem N_eq : (cfgM m).N = 160 := N_0

/-- The output window is idle, and not written back, wherever the body does not store into it; live at a sample's last tile. -/
theorem idle2 (t : Fin (cfgM m).N) (h : ¬k0_cond2 (grid0.coords t) = 1#1) : (cfgM m).idle 2 (grid0.coords t) = true := by
  show (!(k0_cond2 (grid0.coords t) == 1#1)) = true
  simp [h]
theorem live2 (t : Fin (cfgM m).N) (h : k0_cond2 (grid0.coords t) = 1#1) : (cfgM m).idle 2 (grid0.coords t) = false := by
  show (!(k0_cond2 (grid0.coords t) == 1#1)) = false
  simp [h]
theorem noFlush2 : ∀ t : Fin (cfgM m).N, ¬k0_cond2 (grid0.coords t) = 1#1 → ((cfgM m).win 2).flush t = false :=
  (by decide +kernel : ∀ t : Fin grid0.N, ¬k0_cond2 (grid0.coords t) = 1#1 → Pipeline.Window.flushOf grid0 true cc0_transform_2 t = false)

/-- Each input's staging buffer holds the input's block whenever the body runs, fetched at that point or not. -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- Each window's current staging memref at point `t`, and the body as the pipeline calls it there. -/
abbrev ms0 (t : Fin (cfgM m).N) : Memref sig .tc .vmem S1x256x1 .i32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x256x6400 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x256x1 .f32 := spec0_2.stage ((cfgM m).slots t 2)
abbrev hs2 (t : Fin (cfgM m).N) : (ms2 m t).IsWhole := hstage0_2 (((cfgM m).slots t 2).cast nbuf0_2)
abbrev bodyAt (t : Fin (cfgM m).N) : Prog (TpuEff nD τ sig (Elt F) Λ₀ .tc) PUnit :=
  cc0__ragged_ce_kernel (grid0.coords t) tbM htbM (ms0 m t) (hs0 m t) (ms1 m t) (hs1 m t) (ms2 m t) (hs2 m t)
    scM0 (Memref.isWhole_whole _) scM1 (Memref.isWhole_whole _) scM2 (Memref.isWhole_whole _)

/-- The table held whole, as one points-to. -/
theorem prefHeld_eq (c : Dev nD) : (Pipeline.prefHeld pre0 c (fun _ => fullShare) (tbl m) : sProp 𝕄) = tbPt c (tbl m 0) := by
  unfold Pipeline.prefHeld
  rw [show (Finset.univ : Finset (Fin 1)) = {(0 : Fin 1)} from by decide, bigSep_singleton]
  rfl

/-- The blocks by point number are the blocks at the point. -/
theorem xb_eq (c : Dev nD) (t : Fin (cfgM m).N) : xb m c t.val = iblk m c 1 t := by unfold xb; exact dif_pos t.isLt
theorem gb_eq (c : Dev nD) (t : Fin (cfgM m).N) : gb m c t.val = iblk m c 0 t := by unfold gb; exact dif_pos t.isLt

/-- One more point of the fold. -/
theorem stAt_succ (c : Dev nD) (n : ℕ) : stAt m c (n + 1) = Traj.step n (xb m c n) (gb m c n) (stAt m c n) := rfl

/-- The invariant, at whatever point, holds the table and the three scratch columns at something; -/
theorem PhiS_any (c : Dev nD) (n : ℕ) : PhiS m c n ⊢ iprop(tbPt c (tbl m 0) ∗ (∃ d, owns (c : Thread nD τ) scM0 fullShare d) ∗ (∃ d, owns (c : Thread nD τ) scM1 fullShare d) ∗ (∃ d, owns (c : Thread nD τ) scM2 fullShare d)) := by
  cases n with
  | zero =>
    show iprop(Pipeline.prefHeld pre0 c (fun _ => fullShare) (tbl m) ∗ Pipeline.scopedRest (Ix := Unit) (Name := ℕ) (U := UR sig nD τ) (Lvl := ℕ) (Val := Elt F) spec0 c) ⊢ _
    rw [prefHeld_eq, scopedRest0_eq]
    simp only [owns_whole]
    exact .rfl
  | succ n =>
    show iprop(Pipeline.prefHeld pre0 c (fun _ => fullShare) (tbl m) ∗ owns (c : Thread nD τ) scM0 fullShare (stAt m c (n + 1)).mx ∗ owns (c : Thread nD τ) scM1 fullShare (stAt m c (n + 1)).sm ∗ owns (c : Thread nD τ) scM2 fullShare (stAt m c (n + 1)).tg) ⊢ _
    rw [prefHeld_eq]
    iintro ⟨HT, H0, H1, H2⟩
    isplitl [HT]; · iexact HT
    isplitl [H0]; · iexists _; iexact H0
    isplitl [H1]; · iexists _; iexact H1
    iexists _; iexact H2

/-- after the first point, at the fold's values. -/
theorem PhiS_pos (c : Dev nD) (n : ℕ) (hn : n ≠ 0) : PhiS m c n = iprop(tbPt c (tbl m 0) ∗ owns (c : Thread nD τ) scM0 fullShare (stAt m c n).mx ∗ owns (c : Thread nD τ) scM1 fullShare (stAt m c n).sm ∗ owns (c : Thread nD τ) scM2 fullShare (stAt m c n).tg) := by
  cases n with
  | zero => exact absurd rfl hn
  | succ n =>
    show iprop(Pipeline.prefHeld pre0 c (fun _ => fullShare) (tbl m) ∗ _) = _
    rw [prefHeld_eq]

end Cert.KernelIdeal.Body

end
-- ==== Proof.KWord.lean ====
import proofs.«429842_j38276748542062_2_alg».proof.Proof.KSound2
import proofs.«429842_j38276748542062_2_alg».proof.Proof.KBody
import Idealize.ShloMosaic.Lib.ValueIdx

set_option maxRecDepth 16384

noncomputable section

namespace Cert.KernelIdeal.Body

open Cert.KernelIdeal Cert.KernelIdeal.Gen
open Idealize.ShloMosaic Idealize.ShloMosaic.TcCoe

variable {F : FTy → Type} [FloatOps F]

variable (m : (ℓ : Loc nD τ sig) → Buf (Elt F) ℓ)

/-! # The length word the last tile reads

At a sample's last tile the body loads one word of the lengths table, at the offset the first grid coordinate names.
Point `t` of the grid has first coordinate `t / 5`, below 32, so the 32-bit casts leave it as it is and the word
read is the table's entry of the sample the point belongs to. -/

/-- The offset of the load at point `t`: the sample's number. -/
theorem off1_eq : ∀ t : Fin (cfgM m).N, k0_off1 (grid0.coords t) 0 = t.val / 5 % 32 :=
  (by decide +kernel : ∀ t : Fin grid0.N, k0_off1 (grid0.coords t) 0 = t.val / 5 % 32)

/-- The word the last tile reads from the table at its entry contents is the length of the point's sample. -/
theorem lastWord_eq (c : Dev nD) (t : Fin (cfgM m).N) (hc2 : k0_cond2 (grid0.coords t) = 1#1) :
    lastWord c (grid0.coords t) hc2 (tbl m 0) = lenAt m t.val := by
  unfold lastWord lenAt
  show tbl m 0 _ = tbl m 0 _
  congr 1
  funext a
  match a with
  | ⟨0, _⟩ => exact Fin.ext ((Nat.add_zero _).trans (off1_eq m t))

end Cert.KernelIdeal.Body

end
-- ==== Proof.KSound3.lean ====
import proofs.«429842_j38276748542062_2_alg».proof.Proof.Gen.KernelIdeal.Launch
import proofs.«429842_j38276748542062_2_alg».proof.Proof.Gen.KernelIdeal.Skeleton
import proofs.«429842_j38276748542062_2_alg».proof.Proof.KSound2
import proofs.«429842_j38276748542062_2_alg».proof.Proof.KWord
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The body obligation

What the body is called with at a point and what it returns, the windows one by one; then the three cases. -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

def bodyPost (c : Dev nD) (t : Fin (cfgM m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_0 (c : Dev nD) (t : Fin (cfgM m).N) : (dats m 0 c).leavesExact 0 t = owns (c : Thread nD τ) (ms0 m t) fullShare (iblk m c 0 t) := by
  rw [← after_0]; unfold Dat.leavesExact; rw [show (cfgM m).idle 0 ((cfgM m).grid.coords t) = false from rfl]; rfl
theorem leaves_1 (c : Dev nD) (t : Fin (cfgM m).N) : (dats m 0 c).leavesExact 1 t = owns (c : Thread nD τ) (ms1 m t) fullShare (iblk m c 1 t) := by
  rw [← after_1]; unfold Dat.leavesExact; rw [show (cfgM m).idle 1 ((cfgM m).grid.coords t) = false from rfl]; rfl

set_option maxHeartbeats 1000000 in
/-- A middle tile: the columns go from the fold's value before the point to its value after it. -/
theorem sound_mid (c : Dev nD) (t : Fin (cfgM m).N) (h0 : ¬t.val % 5 = 0) (h4 : ¬t.val % 5 = 4) :
    bodyPre m c t ⊢ wp frame (wpE (defs₀ (F := F)) Variants.none c none) Set.univ (bodyAt m t) (fun _ => bodyPost m c t) := by
  have hc1 : ¬first (grid0.coords t) := fun h => h0 ((first_iff m t).mp h)
  have hc2 : ¬k0_cond2 (grid0.coords t) = 1#1 := fun h => h4 ((last_iff m t).mp h)
  have hz : t.val ≠ 0 := fun h => h0 (by rw [h])
  have hstart : Traj.start t.val (stAt m c t.val) = stAt m c t.val := by unfold Traj.start; rw [if_neg h0]
  unfold bodyPre bodyPost bodyAt
  simp only [before_0, before_1]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    leaves_0, leaves_1, Dat.leavesExact_idle (dats m 0 c) 2 t (idle2 m t hc2) (noFlush2 m t hc2),
    PhiS_pos m c _ hz, PhiS_pos m c _ (Nat.succ_ne_zero _), stAt_succ, xb_eq, gb_eq]
  unfold Traj.step; rw [hstart, coords_eq]; dsimp only
  iintro ⟨⟨HT, H6, H7, H8⟩, Ho, ⟨%d0, H3⟩, ⟨%d1, H4⟩, ⟨%d2, H5⟩⟩
  iapply ((runMid c (grid0.coords t) (ms0 m t) (hs0 m t) (ms1 m t) (hs1 m t) (ms2 m t) (hs2 m t) scM0 (Memref.isWhole_whole _) scM1 (Memref.isWhole_whole _) scM2 (Memref.isWhole_whole _) hc1 hc2 (iblk m c 0 t) (iblk m c 1 t) (stAt m c t.val).mx (stAt m c t.val).sm (stAt m c t.val).tg).2.2.2 _ (tbl m 0) Set.univ _)
  isplitl [H3]; · iexact H3
  isplitl [H4]; · iexact H4
  isplitl [H5]; · iexact H5
  isplitl [H6]; · iexact H6
  isplitl [H7]; · iexact H7
  isplitl [H8]; · iexact H8
  isplitl [HT]; · iexact HT
  iintro ⟨H3, H4, H5, ⟨%e6, H6⟩, ⟨%e7, H7⟩, ⟨%e8, H8⟩, HT⟩
  isplitl [HT H6 H7 H8]
  · isplitl [HT]; · iexact HT
    isplitl [H6]
    · unfold owns; iexists _; isplitr
      swap; · iexact H6
      ipureintro; exact mid_mx c _ _ _ _ _ _ _ _ _ _ _ _ _ hc1 hc2 _ _ _ _ _ e6
    isplitl [H7]
    · unfold owns; iexists _; isplitr
      swap; · iexact H7
      ipureintro; exact mid_sm c _ _ _ _ _ _ _ _ _ _ _ _ _ hc1 hc2 _ _ _ _ _ e7
    unfold owns; iexists _; isplitr
    swap; · iexact H8
    ipureintro; exact mid_tg c _ _ _ _ _ _ _ _ _ _ _ _ _ hc1 hc2 _ _ _ _ _ e8
  isplitl [Ho]; · iexact Ho
  isplitl [H3]; · iexact H3
  isplitl [H4]; · iexact H4
  iexists _; iexact H5

set_option maxHeartbeats 1000000 in
/-- The first tile of a sample: whatever the columns held, they end at the fold's value after the point (the fold
    starts a sample from the reset values). -/
theorem sound_first (c : Dev nD) (t : Fin (cfgM m).N) (h0 : t.val % 5 = 0) :
    bodyPre m c t ⊢ wp frame (wpE (defs₀ (F := F)) Variants.none c none) Set.univ (bodyAt m t) (fun _ => bodyPost m c t) := by
  have hc1 : first (grid0.coords t) := (first_iff m t).mpr h0
  have hc2 : ¬k0_cond2 (grid0.coords t) = 1#1 := fun h => by have := (last_iff m t).mp h; omega
  have hstart : Traj.start t.val (stAt m c t.val) = ⟨k0_pay3 (F := F), k0_pay4 (F := F), k0_pay5 (F := F)⟩ := by unfold Traj.start; rw [if_pos h0]
  unfold bodyPre bodyPost bodyAt
  simp only [before_0, before_1]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    leaves_0, leaves_1, Dat.leavesExact_idle (dats m 0 c) 2 t (idle2 m t hc2) (noFlush2 m t hc2),
    PhiS_pos m c _ (Nat.succ_ne_zero _), stAt_succ, xb_eq, gb_eq]
  unfold Traj.step; rw [hstart, coords_eq]; dsimp only
  iintro ⟨HP, Ho, ⟨%d0, H3⟩, ⟨%d1, H4⟩, ⟨%d2, H5⟩⟩
  ihave HQ := (PhiS_any m c t.val) $$ HP
  icases HQ with ⟨HT, H6, H7, H8⟩
  iapply ((runFirst c (grid0.coords t) (ms0 m t) (hs0 m t) (ms1 m t) (hs1 m t) (ms2 m t) (hs2 m t) scM0 (Memref.isWhole_whole _) scM1 (Memref.isWhole_whole _) scM2 (Memref.isWhole_whole _) hc1 hc2 (iblk m c 0 t) (iblk m c 1 t)).2.2.2 _ (tbl m 0) Set.univ _)
  isplitl [H3]; · iexact H3
  isplitl [H4]; · iexact H4
  isplitl [H5]; · iexact H5
  isplitl [H6]; · iexact H6
  isplitl [H7]; · iexact H7
  isplitl [H8]; · iexact H8
  isplitl [HT]; · iexact HT
  iintro ⟨H3, H4, H5, ⟨%e6, H6⟩, ⟨%e7, H7⟩, ⟨%e8, H8⟩, HT⟩
  isplitl [HT H6 H7 H8]
  · isplitl [HT]; · iexact HT
    isplitl [H6]
    · unfold owns; iexists _; isplitr
      swap; · iexact H6
      ipureintro; exact first_mx c _ _ _ _ _ _ _ _ _ _ _ _ _ hc1 hc2 _ _ e6
    isplitl [H7]
    · unfold owns; iexists _; isplitr
      swap; · iexact H7
      ipureintro; exact first_sm c _ _ _ _ _ _ _ _ _ _ _ _ _ hc1 hc2 _ _ e7
    unfold owns; iexists _; isplitr
    swap; · iexact H8
    ipureintro; exact first_tg c _ _ _ _ _ _ _ _ _ _ _ _ _ hc1 hc2 _ _ e8
  isplitl [Ho]; · iexact Ho
  isplitl [H3]; · iexact H3
  isplitl [H4]; · iexact H4
  iexists _; iexact H5

set_option maxHeartbeats 1000000 in
/-- The last tile of a sample: the columns take their last step and the output buffer ends at the masked negative
    log-likelihoods of the sample's rows. -/
theorem sound_last (c : Dev nD) (t : Fin (cfgM m).N) (h4 : t.val % 5 = 4) :
    bodyPre m c t ⊢ wp frame (wpE (defs₀ (F := F)) Variants.none c none) Set.univ (bodyAt m t) (fun _ => bodyPost m c t) := by
  have h0 : ¬t.val % 5 = 0 := by omega
  have hc1 : ¬first (grid0.coords t) := fun h => h0 ((first_iff m t).mp h)
  have hc2 : k0_cond2 (grid0.coords t) = 1#1 := (last_iff m t).mpr h4
  have hz : t.val ≠ 0 := fun h => h0 (by rw [h])
  have hstart : Traj.start t.val (stAt m c t.val) = stAt m c t.val := by unfold Traj.start; rw [if_neg h0]
  unfold bodyPre bodyPost bodyAt
  simp only [before_0, before_1]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    leaves_0, leaves_1,
    show (dats m 0 c).leavesExact 2 t = owns (c : Thread nD τ) (ms2 m t) fullShare ((dats m 0 c).after 2 t) from by
      unfold Dat.leavesExact; rw [live2 m t hc2]; rfl,
    after_2, PhiS_pos m c _ hz, PhiS_pos m c _ (Nat.succ_ne_zero _)]
  unfold outAt Traj.outv
  rw [← lastWord_eq m c t hc2, stAt_succ, xb_eq, gb_eq]
  unfold Traj.step; rw [hstart, coords_eq]; dsimp only
  iintro ⟨⟨HT, H6, H7, H8⟩, Ho, ⟨%d0, H3⟩, ⟨%d1, H4⟩, ⟨%d2, H5⟩⟩
  iapply ((runLast c (grid0.coords t) (ms0 m t) (hs0 m t) (ms1 m t) (hs1 m t) (ms2 m t) (hs2 m t) scM0 (Memref.isWhole_whole _) scM1 (Memref.isWhole_whole _) scM2 (Memref.isWhole_whole _) hc1 hc2 (iblk m c 0 t) (iblk m c 1 t) (stAt m c t.val).mx (stAt m c t.val).sm (stAt m c t.val).tg (tbl m 0)).2.2.2.2 Set.univ _)
  isplitl [H3]; · iexact H3
  isplitl [H4]; · iexact H4
  isplitl [H5]; · iexists _; iexact H5
  isplitl [H6]; · iexact H6
  isplitl [H7]; · iexact H7
  isplitl [H8]; · iexact H8
  isplitl [HT]; · iexact HT
  iintro ⟨H3, H4, ⟨%e5, H5⟩, ⟨%e6, H6⟩, ⟨%e7, H7⟩, ⟨%e8, H8⟩, HT⟩
  isplitl [HT H6 H7 H8]
  · isplitl [HT]; · iexact HT
    isplitl [H6]
    · unfold owns; iexists _; isplitr
      swap; · iexact H6
      ipureintro; exact last_mx c _ _ _ _ _ _ _ _ _ _ _ _ _ hc1 hc2 _ _ _ _ _ _ e6
    isplitl [H7]
    · unfold owns; iexists _; isplitr
      swap; · iexact H7
      ipureintro; exact last_sm c _ _ _ _ _ _ _ _ _ _ _ _ _ hc1 hc2 _ _ _ _ _ _ e7
    unfold owns; iexists _; isplitr
    swap; · iexact H8
    ipureintro; exact last_tg c _ _ _ _ _ _ _ _ _ _ _ _ _ hc1 hc2 _ _ _ _ _ _ e8
  isplitl [Ho]; · iexact Ho
  isplitl [H3]; · iexact H3
  isplitl [H4]; · iexact H4
  unfold owns; iexists _; isplitr
  swap; · iexact H5
  ipureintro; exact last_out c _ _ _ _ _ _ _ _ _ _ _ _ _ hc1 hc2 _ _ _ _ _ _ e5

/-- The body at any point. -/
theorem sound_body (c : Dev nD) (t : Fin (cfgM m).N) :
    bodyPre m c t ⊢ wp frame (wpE (defs₀ (F := F)) Variants.none c none) Set.univ (bodyAt m t) (fun _ => bodyPost m c t) := by
  by_cases h0 : t.val % 5 = 0
  · exact sound_first m c t h0
  · by_cases h4 : t.val % 5 = 4
    · exact sound_last m c t h4
    · exact sound_mid m c t h0 h4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.KVals.lean ====
import proofs.«429842_j38276748542062_2_alg».proof.Proof.KBody
import proofs.«429842_j38276748542062_2_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents behind the kernel region

The contents of a core's buffers at each boundary between the program's items after the region, a fold from the
contents at the region's entry: at the region's exit its three arrays hold what the pipeline leaves and every other
buffer what it held at the entry; each stretch of host operations then acts on the contents before it. -/

/-- At the region's exit: its arrays at what the pipeline leaves, every other buffer as entered. -/
def W2 (c : Dev nD) : Valuation τ sig (Elt F) :=
  Pipeline.withArrays spec0 c (W1 m c) fun w => (dats m 0 c).arrAt w (cfgM m).N
/-- After each of the three host stretches behind the region. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)

/-- At the exit each array of the region holds what the pipeline leaves, -/
theorem W2_arr (c : Dev nD) (w : Fin (cfgM m).W) :
    W2 m c (Proc.devRef .tc (Pipeline.arrRef spec0 w)) = (dats m 0 c).arrAt w (cfgM m).N := by
  unfold W2; exact Pipeline.withArrays_arr spec0 (launch0 (F := F)).win.arr_inj c _ _ w
/-- and a buffer that is no array of the region what it held at the entry. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The exit contents read at the TensorCore's references. -/
abbrev V2 (c : Dev nD) (b : Ref sig .tc) : Buf (Elt F) ((c : Thread nD τ).loc b) := W2 m c b
theorem hF0 (c : Dev nD) (w : Fin (cfgM m).W) : (dats m 0 c).arrAt w (cfgM m).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

end Cert.KernelIdeal.Body

end
-- ==== Proof.KRun.lean ====
import proofs.«429842_j38276748542062_2_alg».proof.Proof.KSound3
import proofs.«429842_j38276748542062_2_alg».proof.Proof.KVals
import proofs.«429842_j38276748542062_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch of the kernel program

The program is one host operation, the kernel region, and nineteen host operations in three stretches, one of which
reads the lengths table. Between two items a core holds every unscoped buffer at a named valuation, a fold through the
program from the launch memory, beside what it owes (nothing). The region takes its three arrays and the table out of
those buffers, hands the table to the body's invariant, and gives all back at the exit valuation: the arrays at what the
pipeline leaves, every other buffer as entered. -/

/-- No core owes another anything: no level is assigned. -/
abbrev L : GSem nD τ sig → Finset Unit := fun _ => ∅
abbrev lv : GSem nD τ sig → Unit → ℕ := fun _ _ => 0
/-- What rides beside the buffers through every item: what the core owes, nothing. -/
abbrev R (c : Dev nD) : sProp 𝕄 := iprop(∃ W, owes (c : Thread nD τ) (0 : CellTallies nD τ sig Unit) W)
/-- A stretch of host operations as a segment, from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- A whole scoped buffer owned at named contents is that buffer held at some contents. -/
theorem owns_forget (c : Dev nD) (b : Ref sig .tc) (f : b.ty.Contents (Elt F)) :
    (owns (c : Thread nD τ) (Memref.whole b) fullShare f : sProp 𝕄)
      ⊢ iprop(∃ g : Buf (Elt F) ((c : Thread nD τ).loc b), ((c : Thread nD τ).loc b) ↦{fullShare} g) := by
  rw [owns_whole]; iintro H; iexists _; iexact H

/-- After any point the invariant gives back the table and the three scratch buffers, their contents forgotten. -/
theorem PhiS_succ_out (c : Dev nD) (n : ℕ) :
    PhiS m c (n + 1) ⊢ iprop(Pipeline.prefHeld pre0 c (fun _ => fullShare) (tbl m)
      ∗ Pipeline.scopedRest (Ix := Unit) (Name := ℕ) (U := UR sig nD τ) (Lvl := ℕ) (Val := Elt F) spec0 c) := by
  rw [scopedRest0_eq]
  show iprop(Pipeline.prefHeld pre0 c (fun _ => fullShare) (tbl m)
      ∗ owns (c : Thread nD τ) scM0 fullShare (stAt m c (n + 1)).mx ∗ owns (c : Thread nD τ) scM1 fullShare (stAt m c (n + 1)).sm ∗ owns (c : Thread nD τ) scM2 fullShare (stAt m c (n + 1)).tg) ⊢ _
  iintro ⟨Ht, H0, H1, H2⟩
  isplitl [Ht]; · iexact Ht
  isplitl [H0]; · iapply (owns_forget c cc0_scratch0 _); iexact H0
  isplitl [H1]; · iapply (owns_forget c cc0_scratch1 _); iexact H1
  iapply (owns_forget c cc0_scratch2 _); iexact H2

/-- The invariant at the last point is the one after point 159. -/
theorem Phi_last (c : Dev nD) : (dats m 0 c).Φ (Fin.last (cfgM m).N) = PhiS m c (159 + 1) :=
  congrArg (PhiS m c) ((Fin.val_last _).trans N_0)

/-- The unscoped buffers that are no array of the region, at the entry contents: the table at its contents and the rest. -/
theorem rest_split (c : Dev nD) :
    (Pipeline.unscopedRest (Ix := Unit) (Name := ℕ) (U := UR sig nD τ) (Lvl := ℕ) spec0 c (V1 m c) : sProp 𝕄)
      = iprop(Pipeline.prefHeld pre0 c (fun _ => fullShare) (tbl m) ∗ Pipeline.unscopedRestP pre0 spec0 c (V1 m c)) := by
  rw [Pipeline.unscopedRest_split preFacts0 c (V1 m c), show (fun k => V1 m c (pre0.ref k)) = tbl m from funext (V_pre m c)]

set_option backward.isDefEq.respectTransparency.types false in
/-- The kernel region over the thread state: entered from every unscoped buffer at `W1`, left at `W2`. Its arrays and
    the table split out of the unscoped buffers at the entry; the table goes through the invariant and comes back; at
    the exit the arrays at their final contents, the table and the rest make the unscoped buffers at `W2`. -/
def reg0 : Pipeline.RegionSeg (pcfgs (F := F)) (admP m) (dats m) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := Pipeline.prefHeld pre0 c (fun _ => fullShare) (tbl m)
  Z c := Pipeline.unscopedRestP (Ix := Unit) (Name := ℕ) (U := UR sig nD τ) (Lvl := ℕ) pre0 spec0 c (V1 m c)
  hentry c := by
    rw [Pipeline.ownSems0_none]
    have hsplit := Pipeline.arrays_of_unscopedBufs (p := 0) (pcfgs (F := F)) (admP m) (dats m) (launch0 (F := F)).win (launch0 (F := F)).arr_whole c
      ((dats m 0 c).share_full fun _ => rfl) (V1 m c) fun _ => rfl
    rw [Pipeline.unscopedBufs_held] at hsplit
    have hsplit' := hsplit.trans (sep_mono .rfl (Entails.of_eq (rest_split m c)))
    iintro ⟨⟨Hub, HO⟩, -, -⟩
    ihave H := hsplit' $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = iprop(Pipeline.prefHeld pre0 c (fun _ => fullShare) (tbl m)
      ∗ Pipeline.scopedRest (Ix := Unit) (Name := ℕ) (U := UR sig nD τ) (Lvl := ℕ) (Val := Elt F) spec0 c) from rfl]
    iintro ⟨-, Ht, Hr⟩
    isplitl [Ht]; · iexact Ht
    iexact Hr
  hout c := by
    rw [Pipeline.ownSems0_none, Phi_last m c]
    iintro H
    ihave H' := (PhiS_succ_out m c 159) $$ H
    icases H' with ⟨Ht, Hr⟩
    isplitl [Ht]; · iexact Ht
    isplitr; · iempintro
    iexact Hr
  hexit c := by
    have hjoin := Pipeline.unscopedBufs_of_arrays (p := 0) (pcfgs (F := F)) (admP m) (Ix := Unit) (Name := ℕ) (U := UR sig nD τ) (Lvl := ℕ)
      (launch0 (F := F)).win (launch0 (F := F)).arr_whole c (dats m) ((dats m 0 c).share_full fun _ => rfl)
      (V1 m c) (V2 m c) ((dats m 0 c).arrAt · (cfgM m).N) (hF0 m c) (hrest0 m c)
    rw [Pipeline.unscopedBufs_held] at hjoin
    have hjoin' := (sep_mono .rfl (Entails.of_eq (rest_split m c).symm)).trans hjoin
    iintro ⟨Ha, HO, HY, Hrest⟩
    imodintro
    isplitl [Ha Hrest HY]
    · iapply hjoin'
      isplitl [Ha]; · iexact Ha
      isplitl [HY]; · iexact HY
      iexact Hrest
    unfold Pipeline.Dat.owesAt Pipeline.owesWithin
    icases HO with ⟨%W, -, HO⟩; iexists W; iexact HO

/-- The program's five segments in order. -/
abbrev segs : List (Pipeline.Seg (pcfgs (F := F)) (admP m) (dats m) () defs₀ Variants.none L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)) ]
/-- The program is the run of its segments. -/
theorem main_run (c : Dev nD) : main (F := F) c = Pipeline.Seg.run (segs m) := (main_chain c).trans (by chain_rfl)

set_option backward.isDefEq.respectTransparency.types false in
/-- From any memory with zero counters every weakly fair execution of the program on the TensorCores terminates, and
    every final state holds each unscoped buffer at the last valuation of the fold. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) (admP m) (dats m) () (cellOf_inj (admP m)) emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (admP m)) (cellOf_inj (admP m))) (Pipeline.launchToks (Pipeline.pin (pcfgs (F := F)) (admP m)) (cellOf_inj (admP m))))
    (hu₀ := by
      iintro Hu; imodintro
      isplitl [Hu]
      · iapply (show (ownU (initOf (Pipeline.cells (Pipeline.pin (pcfgs (F := F)) (admP m)) (cellOf_inj (admP m))) (Pipeline.launchToks (Pipeline.pin (pcfgs (F := F)) (admP m)) (cellOf_inj (admP m)))) : sProp 𝕄)
            ⊢ BI.own (emb₁ (initOf (Pipeline.cells (Pipeline.pin (pcfgs (F := F)) (admP m)) (cellOf_inj (admP m))) (Pipeline.launchToks (Pipeline.pin (pcfgs (F := F)) (admP m)) (cellOf_inj (admP m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.KernelIdeal.Body

end
-- ==== Proof.KArgs.lean ====
/-
  The arguments end as launched. No host operation writes an argument's buffer, and the kernel region reads the
  logits through an input window (never written back) and bypasses the labels and the lengths; so the fold of the
  program's items at an argument's buffer walks back, item by item, to the launch memory.
-/
import proofs.«429842_j38276748542062_2_alg».proof.Proof.KVals

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! # What the host stretches write

Each host operation writes its one result buffer; listed stretch by stretch, the written buffers are values of the
program, never an argument. -/

/-- A one-buffer set of written buffers lies in the image of any list of references naming that buffer. -/
theorem single_sub {W : List (Ref sig .tc)} {y : Ref sig .tc} (hy : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, hy, rfl⟩))

/-- The stretch before the region writes the reshaped labels. -/
theorem writes_hostOps0 : (hostOps0 : List (HloOp τ sig (Elt F))).Forall fun op =>
    op.writes ⊆ ([main_v0].map (Proc.devRef (τ := τ) .tc)).toFinset :=
  single_sub (y := main_v0) (by decide)
/-- The first stretch behind it writes the constants and the lengths less one. -/
theorem writes_hostOps1 : (hostOps1 : List (HloOp τ sig (Elt F))).Forall fun op =>
    op.writes ⊆ ([main_c, main_v2, main_v3, main_c_0, main_c_1].map (Proc.devRef (τ := τ) .tc)).toFinset :=
  ⟨single_sub (y := main_c) (by decide), single_sub (y := main_v2) (by decide), single_sub (y := main_v3) (by decide),
    single_sub (y := main_c_0) (by decide), single_sub (y := main_c_1) (by decide)⟩
/-- The clip writes its own values and its result. -/
theorem writes_hostOps1_1 : (hostOps1_1 : List (HloOp τ sig (Elt F))).Forall fun op =>
    op.writes ⊆ ([main_call0_v0, main_call0_v1, main_call0_v2, main_call0_v3, main_call0_v4, main_v4].map (Proc.devRef (τ := τ) .tc)).toFinset :=
  ⟨single_sub (y := main_call0_v0) (by decide), single_sub (y := main_call0_v1) (by decide), single_sub (y := main_call0_v2) (by decide),
    single_sub (y := main_call0_v3) (by decide), single_sub (y := main_call0_v4) (by decide), single_sub (y := main_v4) (by decide)⟩
/-- The last stretch writes the count, the total and the quotient. -/
theorem writes_hostOps1_2 : (hostOps1_2 : List (HloOp τ sig (Elt F))).Forall fun op =>
    op.writes ⊆ ([main_c_2, main_v5, main_c_3, main_v6, main_v7, main_cst, main_v8, main_v9].map (Proc.devRef (τ := τ) .tc)).toFinset :=
  ⟨single_sub (y := main_c_2) (by decide), single_sub (y := main_v5) (by decide), single_sub (y := main_c_3) (by decide),
    single_sub (y := main_v6) (by decide), single_sub (y := main_v7) (by decide), single_sub (y := main_cst) (by decide),
    single_sub (y := main_v8) (by decide), single_sub (y := main_v9) (by decide)⟩

/-! # The arguments at the program's end -/

/-- The logits: an input window's array of the region, never written back, and written by no host operation. -/
theorem W5_arg0 (c : Dev nD) : W5 m c (Proc.devRef .tc main_arg0) = m ((c.tc : Thread nD τ).loc main_arg0) :=
  calc W5 m c (Proc.devRef .tc main_arg0)
    _ = W4 m c (Proc.devRef .tc main_arg0) := StableHlo.after_of_writes_sub hostOps1_2 _ (writes_hostOps1_2 (F := F)) (by decide)
    _ = W3 m c (Proc.devRef .tc main_arg0) := StableHlo.after_of_writes_sub hostOps1_1 _ (writes_hostOps1_1 (F := F)) (by decide)
    _ = W2 m c (Proc.devRef .tc main_arg0) := StableHlo.after_of_writes_sub hostOps1 _ (writes_hostOps1 (F := F)) (by decide)
    _ = W1 m c (Proc.devRef .tc main_arg0) := (W2_arr m c 1).trans (((dats m 0 c).arrAt_in 1 rfl _).trans (A_eq m c 1))
    _ = W0 m c (Proc.devRef .tc main_arg0) := StableHlo.after_of_writes_sub hostOps0 _ (writes_hostOps0 (F := F)) (by decide)
    _ = m ((c.tc : Thread nD τ).loc main_arg0) := rfl

/-- The labels: no array of the region, and written by no host operation. -/
theorem W5_arg1 (c : Dev nD) : W5 m c (Proc.devRef .tc main_arg1) = m ((c.tc : Thread nD τ).loc main_arg1) :=
  calc W5 m c (Proc.devRef .tc main_arg1)
    _ = W4 m c (Proc.devRef .tc main_arg1) := StableHlo.after_of_writes_sub hostOps1_2 _ (writes_hostOps1_2 (F := F)) (by decide)
    _ = W3 m c (Proc.devRef .tc main_arg1) := StableHlo.after_of_writes_sub hostOps1_1 _ (writes_hostOps1_1 (F := F)) (by decide)
    _ = W2 m c (Proc.devRef .tc main_arg1) := StableHlo.after_of_writes_sub hostOps1 _ (writes_hostOps1 (F := F)) (by decide)
    _ = W1 m c (Proc.devRef .tc main_arg1) := W2_of_ne m c main_arg1 (by decide)
    _ = W0 m c (Proc.devRef .tc main_arg1) := StableHlo.after_of_writes_sub hostOps0 _ (writes_hostOps0 (F := F)) (by decide)
    _ = m ((c.tc : Thread nD τ).loc main_arg1) := rfl

/-- The lengths: no array of the region (it is its prefetched table), and written by no host operation. -/
theorem W5_arg2 (c : Dev nD) : W5 m c (Proc.devRef .tc main_arg2) = m ((c.tc : Thread nD τ).loc main_arg2) :=
  calc W5 m c (Proc.devRef .tc main_arg2)
    _ = W4 m c (Proc.devRef .tc main_arg2) := StableHlo.after_of_writes_sub hostOps1_2 _ (writes_hostOps1_2 (F := F)) (by decide)
    _ = W3 m c (Proc.devRef .tc main_arg2) := StableHlo.after_of_writes_sub hostOps1_1 _ (writes_hostOps1_1 (F := F)) (by decide)
    _ = W2 m c (Proc.devRef .tc main_arg2) := StableHlo.after_of_writes_sub hostOps1 _ (writes_hostOps1 (F := F)) (by decide)
    _ = W1 m c (Proc.devRef .tc main_arg2) := W2_of_ne m c main_arg2 (by decide)
    _ = W0 m c (Proc.devRef .tc main_arg2) := StableHlo.after_of_writes_sub hostOps0 _ (writes_hostOps0 (F := F)) (by decide)
    _ = m ((c.tc : Thread nD τ).loc main_arg2) := rfl

/-- An unscoped TensorCore reference is among the core's unscoped buffers: these are the TensorCore's references
    filtered by not being scoped. -/
theorem mem_uc (b : Ref sig .tc) (h : ¬ (Proc.devRef .tc b : DevRef τ sig).isScoped) : Proc.devRef .tc b ∈ Pipeline.ucRefs τ sig := by
  unfold Pipeline.ucRefs
  rw [Finset.mem_filter]
  exact ⟨StableHlo.devRef_mem_tcRefs b, h⟩

end Cert.KernelIdeal.Body

end
-- ==== Proof.Spec.lean ====
/-
  The mathematics of the length-masked cross entropy, stated once, over literal shapes and with no program in sight.

  For logits `x : [32, 256, 32000]`, labels `gt : [32, 256]` and lengths `len : [32]`:
  * `rowMax x b t` is the largest logit of row `(b, t)` (the supremum over the vocabulary axis, bottom `-∞`);
  * `rowSum x b t` is the sum over the vocabulary of `exp (x - rowMax)`;
  * `tgt x gt b t` is the logit at the row's label;
  * `nll x gt b t = (rowMax + log rowSum) - tgt`, the negative log-likelihood of the label under the softmax;
  * position `(b, t)` counts when `t < len b - 1` as signed 32-bit integers (`valid`);
  * `nllArr` is the masked array `[32, 256, 1]`, `num` its total, `cnt` the number of counted positions,
    at least one: `max (∑ b, clip (len b - 1) 0 256) 1` in 32-bit arithmetic;
  * `result` is `num / cnt`, the mean, as a rank-0 array.
-/
import Idealize.ShloMosaic.PureOps.Ideal
import Idealize.ShloMosaic.Lib.ValueIdx
import Mathlib.Data.BitVec

noncomputable section

namespace Cert.Spec

open Idealize.ShloMosaic Idealize.ShloMosaic.ValueIdx

abbrev SX : Shape := ⟨3, ![32, 256, 32000]⟩
abbrev SG : Shape := ⟨2, ![32, 256]⟩
abbrev SL : Shape := ⟨1, ![32]⟩
abbrev SN : Shape := ⟨3, ![32, 256, 1]⟩
abbrev S0 : Shape := ⟨0, ![]⟩

/-- The largest logit of row `(b, t)`. -/
def rowMax (x : SX.Idx → EReal) (b : Fin 32) (t : Fin 256) : EReal :=
  Finset.univ.sup fun v : Fin 32000 => x (ix3 b t v)

/-- The row's sum of exponentials, shifted by its largest logit. -/
def rowSum (x : SX.Idx → EReal) (b : Fin 32) (t : Fin 256) : EReal :=
  ∑ v : Fin 32000, Ideal.exp (x (ix3 b t v) - rowMax x b t)

/-- The row's label as a vocabulary position (reduced into range, so that the definition is total). -/
def label (gt : SG.Idx → BitVec 32) (b : Fin 32) (t : Fin 256) : Fin 32000 :=
  ⟨(gt (ix2 b t)).toNat % 32000, Nat.mod_lt _ (by norm_num)⟩

/-- The logit at the row's label. -/
def tgt (x : SX.Idx → EReal) (gt : SG.Idx → BitVec 32) (b : Fin 32) (t : Fin 256) : EReal :=
  x (ix3 b t (label gt b t))

/-- The negative log-likelihood of the row's label under the row's softmax. -/
def nll (x : SX.Idx → EReal) (gt : SG.Idx → BitVec 32) (b : Fin 32) (t : Fin 256) : EReal :=
  (rowMax x b t + Ideal.log (rowSum x b t)) - tgt x gt b t

/-- Position `t` of sample `b` counts when `t < len b - 1`, as signed 32-bit integers. -/
def valid (len : SL.Idx → BitVec 32) (b : Fin 32) (t : Fin 256) : Bool :=
  (BitVec.ofNat 32 t.val).slt (len (ix1 b) - 1#32)

/-- The masked negative log-likelihood at `(b, t)`. -/
def masked (x : SX.Idx → EReal) (gt : SG.Idx → BitVec 32) (len : SL.Idx → BitVec 32) (b : Fin 32) (t : Fin 256) : EReal :=
  if valid len b t then nll x gt b t else 0

/-- The masked array `[32, 256, 1]`. -/
def nllArr (x : SX.Idx → EReal) (gt : SG.Idx → BitVec 32) (len : SL.Idx → BitVec 32) : SN.Idx → EReal :=
  fun j => masked x gt len ⟨(j 0).val, (j 0).isLt⟩ ⟨(j 1).val, (j 1).isLt⟩

/-- Its total. -/
def num (x : SX.Idx → EReal) (gt : SG.Idx → BitVec 32) (len : SL.Idx → BitVec 32) : EReal :=
  ∑ b : Fin 32, ∑ t : Fin 256, masked x gt len b t

/-- Signed maximum and minimum of 32-bit integers. -/
def smax (a b : BitVec 32) : BitVec 32 := if a.slt b then b else a
def smin (a b : BitVec 32) : BitVec 32 := if a.slt b then a else b

/-- How many positions of sample `b` count: `len b - 1` clipped to `[0, 256]`. -/
def rowCount (len : SL.Idx → BitVec 32) (b : Fin 32) : BitVec 32 :=
  smin 256#32 (smax 0#32 (len (ix1 b) - 1#32))

/-- The number of counted positions, at least one. -/
def cnt (len : SL.Idx → BitVec 32) : BitVec 32 :=
  smax (∑ b : Fin 32, rowCount len b) 1#32

/-- The mean masked negative log-likelihood, as a rank-0 array. -/
def result (x : SX.Idx → EReal) (gt : SG.Idx → BitVec 32) (len : SL.Idx → BitVec 32) : FVec Ideal S0 .f32 :=
  Host.divf (F := Ideal) (fun _ => num x gt len) (sitofp (F := Ideal) .f32 (fun _ => cnt len))

end Cert.Spec

end
-- ==== Proof.KTrajValue.lean ====
/-
  The arithmetic of the row statistics a sample's five vocabulary tiles fold up, at the exact (extended real) values.

  A row of logits is folded tile by tile into three numbers: the running maximum, the running sum of exponentials
  shifted by the running maximum (rescaled whenever the maximum grows), and the logit at the row's label. After the
  last tile these are the row's maximum, its sum of `exp (logit - maximum)` and the label's logit, so the block written
  there is the masked negative log-likelihood `(maximum + log sum) - label's logit` where the position counts, else `0`.

  Three parts: laws of finite suprema and sums over prefixes of the naturals; each stored value read at one row as a
  plain expression in the tile's entries; the invariant over the tiles and the final identity.
-/
import proofs.«429842_j38276748542062_2_alg».proof.Proof.KTraj
import proofs.«429842_j38276748542062_2_alg».proof.Proof.Spec
import Idealize.ShloMosaic.PureOps.Ideal.Laws
import Idealize.ShloMosaic.Lib.ValueIdx
import Idealize.ShloMosaic.Lib.ValueLayout

noncomputable section

/-! # Laws of finite maxima and sums of exponentials over prefixes of the naturals

A row of logits is a function `F : ℕ → ℝ`; a prefix of the vocabulary is `Finset.range N`. The running maximum of a
prefix is the supremum of the row over it (`⊥` for the empty prefix), the running sum the sum of
`exp (F n - maximum)`. The laws say how both extend from `range a` to `range (a + b)`. -/

namespace Cert.KernelIdeal.TrajLaw

open Finset Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of `max` from `⊥` is the supremum. -/
theorem fold_max_eq_sup {ι : Type*} (s : Finset ι) (f : ι → EReal) : s.fold max ⊥ f = s.sup f := by
  classical
  induction s using Finset.induction_on with
  | empty => simp
  | insert a s ha ih => rw [Finset.fold_insert ha, Finset.sup_insert, ih]

/-- The supremum over `range (a + b)` is the larger of the supremum over `range a` and that over the next `b` entries. -/
theorem sup_range_add (f : ℕ → EReal) (a b : ℕ) :
    (range (a + b)).sup f = max ((range a).sup f) ((range b).sup fun i => f (a + i)) := by
  induction b with
  | zero => simp
  | succ b ih =>
    rw [← Nat.add_assoc, Finset.range_add_one, Finset.sup_insert, ih, Finset.range_add_one, Finset.sup_insert]
    exact max_left_comm _ _ _

/-- The supremum over `Fin n` of a function of the value is the supremum over `range n`. -/
theorem sup_fin_eq_sup_range (n : ℕ) (f : ℕ → EReal) :
    (univ : Finset (Fin n)).sup (fun l => f l.val) = (range n).sup f := by
  apply le_antisymm
  · exact Finset.sup_le fun l _ => Finset.le_sup (f := f) (mem_range.2 l.isLt)
  · exact Finset.sup_le fun i hi => Finset.le_sup (f := fun l : Fin n => f l.val) (mem_univ ⟨i, mem_range.1 hi⟩)

/-- The supremum of finitely many reals over a nonempty set is a real. -/
theorem sup_coe_real (s : Finset ℕ) (hs : s.Nonempty) (F : ℕ → ℝ) :
    ∃ m : ℝ, s.sup (fun n => (F n : EReal)) = (m : EReal) := by
  obtain ⟨i, _, hi⟩ := Finset.exists_mem_eq_sup s hs (fun n => (F n : EReal))
  exact ⟨F i, hi⟩

/-- Rescaling: the sum of `exp (F n - M)` over `s`, `M` the supremum over `s`, times `exp (M - m)` is the sum of
    `exp (F n - m)`: `exp (M - m) · exp (F n - M) = exp (F n - m)` on the reals; for empty `s` both sides are `0`. -/
theorem rescale (F : ℕ → ℝ) (s : Finset ℕ) (m : ℝ) :
    Ideal.exp (s.sup (fun n => (F n : EReal)) - (m : EReal))
        * ∑ n ∈ s, Ideal.exp ((F n : EReal) - s.sup (fun n => (F n : EReal)))
      = ∑ n ∈ s, Ideal.exp ((F n : EReal) - (m : EReal)) := by
  rcases s.eq_empty_or_nonempty with rfl | hs
  · simp
  · obtain ⟨M, hM⟩ := sup_coe_real s hs F
    rw [hM]
    simp only [← EReal.coe_sub, Ideal.exp_coe, ← coe_sum, ← EReal.coe_mul]
    refine congrArg _ ?_
    rw [Finset.mul_sum]
    refine Finset.sum_congr rfl fun n _ => ?_
    rw [← Real.exp_add]
    congr 1
    ring

/-- One step of the running sum: from the prefix `range a` to `range (a + b)`, `b` positive. -/
theorem sum_step (F : ℕ → ℝ) (a b : ℕ) (hb : 0 < b) :
    Ideal.exp ((range a).sup (fun n => (F n : EReal)) - (range (a + b)).sup (fun n => (F n : EReal)))
        * (∑ n ∈ range a, Ideal.exp ((F n : EReal) - (range a).sup (fun n => (F n : EReal))))
      + ∑ i ∈ range b, Ideal.exp ((F (a + i) : EReal) - (range (a + b)).sup (fun n => (F n : EReal)))
    = ∑ n ∈ range (a + b), Ideal.exp ((F n : EReal) - (range (a + b)).sup (fun n => (F n : EReal))) := by
  obtain ⟨m, hm⟩ := sup_coe_real (range (a + b)) (by simp; omega) F
  rw [hm, rescale, Finset.sum_range_add]

/-- A sum that is zero off one index is the term at it. -/
theorem sum_onehot (f : ℕ → EReal) (N g : ℕ) (hg : g < N) :
    ∑ n ∈ range N, (if n = g then f n else 0) = f g := by
  rw [Finset.sum_ite_eq' (range N) g f, if_pos (mem_range.2 hg)]

end Cert.KernelIdeal.TrajLaw

/-! # The columns' update and the written block, read at one row

Each of the values a grid point stores is read here at row `t` as a plain expression in the entries of the point's
blocks: the new maximum is the larger of the old one and the block row's supremum, the new sum the old sum rescaled plus
the block row's sum of exponentials, the label's logit the old one plus the block row's one-hot sum, and the block written at
the last tile is the masked difference. -/

namespace Cert.KernelIdeal.TrajStep

open Cert.KernelIdeal Cert.KernelIdeal.Gen
open Idealize.ShloMosaic Idealize.ShloMosaic.ValueIdx
open Cert.KernelIdeal.TrajLaw

variable [Cert.KernelIdeal.Facts]

/-- The pattern `0xFF800000` denotes `-∞`. -/
theorem ofBits_neg_inf : Ideal.ofBits .f32 0xFF800000#32 = ⊥ := by
  simp [Ideal.ofBits, Ideal.ieee]

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A `[256, 1]` column broadcast to `[256, 6400]` reads, at `(t, l)`, the column at `t`. -/
theorem broadcastTo_col_apply {α : Type} (v : S256x1.Idx → α) (h : S256x1.Broadcasts S256x6400)
    (t : Fin 256) (l : Fin 6400) : broadcastTo S256x6400 v h (ix2 t l) = v (ix2 t (0 : Fin 1)) := by
  refine broadcastTo_apply v h (ix2 t l) (ix2 t (0 : Fin 1)) fun ax => ?_
  match ax with
  | ⟨0, _⟩ => rfl
  | ⟨1, _⟩ => rfl

/-- The logits block viewed `[256, 6400]` reads, at `(t, l)`, the block at `(0, t, l)`. -/
theorem pay6_apply (x0 : Vec Ideal S1x256x6400 .f32) (t : Fin 256) (l : Fin 6400) :
    k0_pay6 x0 (ix2 t l) = x0 (ix3 (0 : Fin 1) t l) := by
  unfold k0_pay6
  exact shapeCast_1ab_ab_apply x0 _ t l

/-- The index a lane reduction of a `[256, 6400]` array reads at row `t`, lane `l`. -/
theorem lift_eq (h : S256x6400.Reduces [1] S256) (t : Fin 256) (l : Fin 6400) :
    h.lift (ix1 t) l = ix2 t l := by
  funext a
  match a with
  | ⟨0, _⟩ => exact Fin.ext rfl
  | ⟨1, _⟩ => exact Fin.ext rfl

/-- A lane maximum of a `[256, 6400]` array from `-∞`, read at row `t`: the supremum of the row. -/
theorem rowmax_apply (v : FVec Ideal S256x6400 .f32) (h : S256x6400.Reduces [1] S256) (hφ : FKind.Formats .f32)
    (hacc : (0xFF800000#32 : BitVec 32) = FKind.maximumf.neutral .f32 hφ) (t : Fin 256) :
    multiReduction (F := Ideal) .maximumf [1] S256 v 0xFF800000#32 h hφ hacc (ix1 t)
      = Finset.univ.sup fun l : Fin 6400 => v (ix2 t l) := by
  refine (Ideal.multiReduction_maximumf_single v 0xFF800000#32 h hφ hacc (ix1 t)).trans ?_
  have e : (v ∘ h.lift (ix1 t)) = fun l : Fin 6400 => v (ix2 t l) := funext fun l => congrArg v (lift_eq h t l)
  show (Finset.univ : Finset (Fin 6400)).fold max (Ideal.ofBits .f32 0xFF800000#32) (v ∘ h.lift (ix1 t)) = _
  rw [e, ofBits_neg_inf]
  exact fold_max_eq_sup _ _

/-- A lane sum of a `[256, 6400]` array from `0`, read at row `t`: the sum of the row. -/
theorem rowsum_apply (v : FVec Ideal S256x6400 .f32) (h : S256x6400.Reduces [1] S256) (hφ : FKind.Formats .f32)
    (hacc : (0x00000000#32 : BitVec 32) = FKind.add.neutral .f32 hφ) (t : Fin 256) :
    multiReduction (F := Ideal) .add [1] S256 v 0x00000000#32 h hφ hacc (ix1 t)
      = ∑ l : Fin 6400, v (ix2 t l) := by
  refine (Ideal.multiReduction_add_single v 0x00000000#32 h hφ hacc (ix1 t)).trans ?_
  exact Finset.sum_congr rfl fun l _ => congrArg v (lift_eq h t l)

/-- The new maximum at row `t`: the larger of the old one and the block row's supremum. -/
theorem pay7_apply (x0 : Vec Ideal S1x256x6400 .f32) (m0 : Vec Ideal S256x1 .f32) (t : Fin 256) :
    k0_pay7 x0 m0 (ix2 t (0 : Fin 1))
      = max (m0 (ix2 t (0 : Fin 1))) (Finset.univ.sup fun l : Fin 6400 => x0 (ix3 (0 : Fin 1) t l)) := by
  unfold k0_pay7
  refine (maximumf_apply _ _ _).trans ?_
  refine congrArg (max (m0 (ix2 t (0 : Fin 1)))) ?_
  refine (shapeCast_a_a1_apply _ _ t (0 : Fin 1)).trans ?_
  refine (rowmax_apply _ _ _ _ t).trans ?_
  exact Finset.sup_congr rfl fun l _ => pay6_apply x0 t l

/-- The stored maximum is that value. -/
theorem pay9_apply (x0 : Vec Ideal S1x256x6400 .f32) (m0 : Vec Ideal S256x1 .f32) (t : Fin 256) :
    k0_pay9 x0 m0 (ix2 t (0 : Fin 1))
      = max (m0 (ix2 t (0 : Fin 1))) (Finset.univ.sup fun l : Fin 6400 => x0 (ix3 (0 : Fin 1) t l)) := by
  unfold k0_pay9
  refine (congrFun (shapeCast_self _ _) _).trans ?_
  exact pay7_apply x0 m0 t

/-- The new sum at row `t`: the old sum times `exp (old maximum - new maximum)` plus the block row's sum of
    `exp (entry - new maximum)`. -/
theorem pay8_apply (x0 : Vec Ideal S1x256x6400 .f32) (m0 l0 : Vec Ideal S256x1 .f32) (t : Fin 256) :
    k0_pay8 x0 m0 l0 (ix2 t (0 : Fin 1))
      = Ideal.exp (m0 (ix2 t (0 : Fin 1)) - k0_pay7 x0 m0 (ix2 t (0 : Fin 1))) * l0 (ix2 t (0 : Fin 1))
        + ∑ l : Fin 6400, Ideal.exp (x0 (ix3 (0 : Fin 1) t l) - k0_pay7 x0 m0 (ix2 t (0 : Fin 1))) := by
  unfold k0_pay8
  refine (congrFun (shapeCast_self _ _) _).trans ?_
  refine (addf_apply _ _ _).trans ?_
  refine congrArg₂ (· + ·) rfl ?_
  refine (shapeCast_a_a1_apply _ _ t (0 : Fin 1)).trans ?_
  refine (rowsum_apply _ _ _ _ t).trans ?_
  refine Finset.sum_congr rfl fun l _ => ?_
  show Ideal.exp (k0_pay6 x0 (ix2 t l) - broadcastTo S256x6400 (k0_pay7 x0 m0) _ (ix2 t l)) = _
  rw [pay6_apply, broadcastTo_col_apply]

/-- The one-hot block at `(t, l)`: the logit where the lane's vocabulary position is the row's label, else `0`. -/
theorem pay10_apply (i : grid0.Coords) (x0 : Vec Ideal S1x256x6400 .f32) (g0 : Vec Ideal S1x256x1 .i32)
    (t : Fin 256) (l : Fin 6400) :
    k0_pay10 i x0 g0 (ix2 t l)
      = if BitVec.ofNat 32 (i 1).val * 6400#32 + BitVec.ofNat 32 l.val = g0 (ix3 (0 : Fin 1) t (0 : Fin 1))
          then x0 (ix3 (0 : Fin 1) t l) else 0 := by
  unfold k0_pay10
  show Scalar.select (IntOp.cmpi .eq (IntOp.addi (Scalar.muli (BitVec.ofNat 32 (i 1).val) 6400#32)
          (iota .tc S256x6400 32 [1] _ (ix2 t l)))
        (broadcastTo S256x6400 (shapeCast S256x1 g0 _) _ (ix2 t l))) (k0_pay6 x0 (ix2 t l))
        (Ideal.ofBits .f32 0x00000000#32) = _
  rw [iota_single_apply, broadcastTo_col_apply, shapeCast_1ab_ab_apply, pay6_apply, Ideal.ofBits_zero_f32]
  show (if BitVec.ofBool (BitVec.ofNat 32 (i 1).val * 6400#32 + BitVec.ofNat 32 l.val == g0 (ix3 (0 : Fin 1) t (0 : Fin 1))) = 1#1
      then _ else _) = _
  by_cases h : BitVec.ofNat 32 (i 1).val * 6400#32 + BitVec.ofNat 32 l.val = g0 (ix3 (0 : Fin 1) t (0 : Fin 1))
  · rw [if_pos h, if_pos (by rw [beq_iff_eq.2 h]; rfl)]
  · rw [if_neg h, if_neg (by rw [beq_eq_false_iff_ne.2 h]; decide)]

/-- The label's logit at row `t`: the old one plus the one-hot block row's sum. -/
theorem pay1_apply (v : FVec Ideal S256x6400 .f32) (t0 : Vec Ideal S256x1 .f32) (t : Fin 256) :
    k0_pay1 v t0 (ix2 t (0 : Fin 1)) = t0 (ix2 t (0 : Fin 1)) + ∑ l : Fin 6400, v (ix2 t l) := by
  unfold k0_pay1
  refine (congrFun (shapeCast_self _ _) _).trans ?_
  refine (addf_apply _ _ _).trans ?_
  refine congrArg₂ (· + ·) rfl ?_
  refine (shapeCast_a_a1_apply _ _ t (0 : Fin 1)).trans ?_
  exact rowsum_apply _ _ _ _ t

/-- The block written at the last tile, at row `t`: where `t < len - 1` as signed words, `(maximum + log sum) - label's logit`, else `0`. -/
theorem pay2_apply (len : BitVec 32) (m0 l0 t0 : Vec Ideal S256x1 .f32) (t : Fin 256) :
    k0_pay2 (F := Ideal) len m0 l0 t0 (ix3 (0 : Fin 1) t (0 : Fin 1))
      = if (BitVec.ofNat 32 t.val).slt (len - 1#32)
          then (m0 (ix2 t (0 : Fin 1)) + Ideal.log (l0 (ix2 t (0 : Fin 1)))) - t0 (ix2 t (0 : Fin 1)) else 0 := by
  unfold k0_pay2
  refine (shapeCast_ab_1ab_apply _ _ (0 : Fin 1) t (0 : Fin 1)).trans ?_
  show Scalar.select (IntOp.cmpi .slt (iota .tc S256x1 32 [0] _ (ix2 t (0 : Fin 1))) (Scalar.subi len 1#32))
        ((m0 (ix2 t (0 : Fin 1)) + Ideal.log (l0 (ix2 t (0 : Fin 1)))) - t0 (ix2 t (0 : Fin 1)))
        (Ideal.ofBits .f32 0x00000000#32) = _
  rw [iota_single_apply, Ideal.ofBits_zero_f32]
  show (if BitVec.ofBool ((BitVec.ofNat 32 t.val).slt (len - 1#32)) = 1#1 then _ else _) = _
  cases hc : (BitVec.ofNat 32 t.val).slt (len - 1#32)
  · rw [if_neg (by decide)]; rfl
  · rw [if_pos (by decide)]; rfl

end Cert.KernelIdeal.TrajStep

/-! # The columns after a sample's tiles, and the block written at the last one -/

namespace Cert.KernelIdeal.TrajValue

open Cert.KernelIdeal Cert.KernelIdeal.Gen Cert.KernelIdeal.Traj
open Idealize.ShloMosaic Idealize.ShloMosaic.ValueIdx
open Cert.KernelIdeal.TrajLaw Cert.KernelIdeal.TrajStep
open Finset

variable [Cert.KernelIdeal.Facts]

/-- The reset maximum is `-∞` everywhere. -/
theorem pay3_apply (j : S256x1.Idx) : k0_pay3 (F := Ideal) j = ⊥ := by
  unfold k0_pay3
  refine (congrFun (shapeCast_self _ _) _).trans ?_
  exact ofBits_neg_inf

/-- The reset sum is `0` everywhere. -/
theorem pay4_apply (j : S256x1.Idx) : k0_pay4 (F := Ideal) j = 0 := by
  unfold k0_pay4
  refine (congrFun (shapeCast_self _ _) _).trans ?_
  exact Ideal.ofBits_zero_f32

/-- The reset label's logit is `0` everywhere. -/
theorem pay5_apply (j : S256x1.Idx) : k0_pay5 (F := Ideal) j = 0 := by
  unfold k0_pay5
  refine (congrFun (shapeCast_self _ _) _).trans ?_
  exact Ideal.ofBits_zero_f32

/-- Rank-3 indices with equal coordinates are equal. -/
theorem ix3_congr {n0 n1 n2 : ℕ} {a a' : Fin n0} {b b' : Fin n1} {c c' : Fin n2}
    (ha : a.val = a'.val) (hb : b.val = b'.val) (hc : c.val = c'.val) : ix3 a b c = ix3 a' b' c' := by
  rw [Fin.ext ha, Fin.ext hb, Fin.ext hc]

/-- Rank-2 indices with equal coordinates are equal. -/
theorem ix2_congr {n0 n1 : ℕ} {a a' : Fin n0} {b b' : Fin n1}
    (ha : a.val = a'.val) (hb : b.val = b'.val) : ix2 a b = ix2 a' b' := by
  rw [Fin.ext ha, Fin.ext hb]

/-- The lane's vocabulary position `v · 6400 + l`, computed in 32-bit words, is the label's word exactly when the
    naturals are equal: both sides are below `2 ^ 32`. -/
theorem word_eq_iff (v l : ℕ) (hv : v < 5) (hl : l < 6400) (gw : BitVec 32) :
    BitVec.ofNat 32 v * 6400#32 + BitVec.ofNat 32 l = gw ↔ v * 6400 + l = gw.toNat := by
  rw [BitVec.toNat_eq]
  simp only [BitVec.toNat_add, BitVec.toNat_mul, BitVec.toNat_ofNat]
  omega

/-- What the three columns hold at row `t` once the first `N` vocabulary entries of the row `F` have been folded in:
    the supremum of the prefix, the sum of `exp (entry - supremum)` over it, and the entry at the label `g` if the prefix
    holds it (as a one-hot sum). -/
structure Inv (F : ℕ → ℝ) (g : ℕ) (N : ℕ) (s : St Ideal) (t : Fin 256) : Prop where
  mx : s.mx (ix2 t (0 : Fin 1)) = (range N).sup fun n => (F n : EReal)
  sm : s.sm (ix2 t (0 : Fin 1))
        = ∑ n ∈ range N, Ideal.exp ((F n : EReal) - (range N).sup fun n => (F n : EReal))
  tg : s.tg (ix2 t (0 : Fin 1)) = ∑ n ∈ range N, if n = g then (F n : EReal) else 0

/-- The reset columns hold the empty prefix. -/
theorem inv_reset (F : ℕ → ℝ) (g : ℕ) (t : Fin 256) :
    Inv F g 0 ⟨k0_pay3 (F := Ideal), k0_pay4 (F := Ideal), k0_pay5 (F := Ideal)⟩ t :=
  ⟨(pay3_apply (ix2 t (0 : Fin 1))).trans (by simp), (pay4_apply (ix2 t (0 : Fin 1))).trans (by simp),
    (pay5_apply (ix2 t (0 : Fin 1))).trans (by simp)⟩

/-- One tile: from the prefix `v · 6400` to `v · 6400 + 6400`, the block row being the row's next `6400` entries. -/
theorem inv_step (F : ℕ → ℝ) (gw : BitVec 32) (v : ℕ) (hv : v < 5) (i : grid0.Coords) (hi : (i 1).val = v)
    (x0 : Vec Ideal S1x256x6400 .f32) (g0 : Vec Ideal S1x256x1 .i32) (s : St Ideal) (t : Fin 256)
    (hx0 : ∀ l : Fin 6400, x0 (ix3 (0 : Fin 1) t l) = (F (v * 6400 + l.val) : EReal))
    (hg0 : g0 (ix3 (0 : Fin 1) t (0 : Fin 1)) = gw)
    (h : Inv F gw.toNat (v * 6400) s t) :
    Inv F gw.toNat (v * 6400 + 6400)
      ⟨k0_pay9 x0 s.mx, k0_pay8 x0 s.mx s.sm, k0_pay1 (k0_pay10 i x0 g0) s.tg⟩ t := by
  have hsup : (univ.sup fun l : Fin 6400 => x0 (ix3 (0 : Fin 1) t l))
      = (range 6400).sup fun k => (F (v * 6400 + k) : EReal) := by
    rw [← sup_fin_eq_sup_range 6400 fun k => (F (v * 6400 + k) : EReal)]
    exact Finset.sup_congr rfl fun l _ => hx0 l
  have hmx : k0_pay7 x0 s.mx (ix2 t (0 : Fin 1)) = (range (v * 6400 + 6400)).sup fun n => (F n : EReal) := by
    rw [pay7_apply, h.mx, hsup]
    exact (sup_range_add (fun n => (F n : EReal)) (v * 6400) 6400).symm
  refine ⟨?_, ?_, ?_⟩
  · exact (pay9_apply x0 s.mx t).trans ((pay7_apply x0 s.mx t).symm.trans hmx)
  · show k0_pay8 x0 s.mx s.sm (ix2 t (0 : Fin 1)) = _
    rw [pay8_apply, hmx, h.mx, h.sm]
    have hs : (∑ l : Fin 6400, Ideal.exp (x0 (ix3 (0 : Fin 1) t l) - (range (v * 6400 + 6400)).sup fun n => (F n : EReal)))
        = ∑ k ∈ range 6400, Ideal.exp ((F (v * 6400 + k) : EReal) - (range (v * 6400 + 6400)).sup fun n => (F n : EReal)) := by
      rw [Finset.sum_range fun k => Ideal.exp ((F (v * 6400 + k) : EReal) - (range (v * 6400 + 6400)).sup fun n => (F n : EReal))]
      exact Finset.sum_congr rfl fun l _ => by rw [hx0 l]
    rw [hs]
    exact sum_step F (v * 6400) 6400 (by norm_num)
  · show k0_pay1 (k0_pay10 i x0 g0) s.tg (ix2 t (0 : Fin 1)) = _
    rw [pay1_apply, h.tg]
    have hs : (∑ l : Fin 6400, k0_pay10 i x0 g0 (ix2 t l))
        = ∑ k ∈ range 6400, if v * 6400 + k = gw.toNat then (F (v * 6400 + k) : EReal) else 0 := by
      rw [Finset.sum_range fun k => if v * 6400 + k = gw.toNat then (F (v * 6400 + k) : EReal) else 0]
      refine Finset.sum_congr rfl fun l _ => ?_
      rw [pay10_apply, hi, hg0, hx0 l]
      exact if_congr (word_eq_iff v l.val hv l.isLt gw) rfl rfl
    rw [hs]
    exact (Finset.sum_range_add (fun n => if n = gw.toNat then (F n : EReal) else 0) (v * 6400) 6400).symm

/-- The block written at the last tile of sample `b`, at row `t`, is the masked negative log-likelihood of the row. -/
theorem outv_eq
    (x : Cert.Spec.SX.Idx → EReal) (gt : Cert.Spec.SG.Idx → BitVec 32) (len : Cert.Spec.SL.Idx → BitVec 32)
    (hfin : ∀ i, ∃ r : ℝ, x i = (r : EReal)) (hgt : ∀ j, (gt j).toNat < 32000)
    (xbk : ℕ → Vec Ideal S1x256x6400 .f32) (gbk : ℕ → Vec Ideal S1x256x1 .i32)
    (hx : ∀ (n : ℕ) (hn : n < 160) (t : Fin 256) (l : Fin 6400),
      xbk n (ix3 (0 : Fin 1) t l) = x (ix3 ⟨n / 5, by omega⟩ t ⟨n % 5 * 6400 + l.val, by have := l.isLt; omega⟩))
    (hg : ∀ (n : ℕ) (hn : n < 160) (t : Fin 256),
      gbk n (ix3 (0 : Fin 1) t (0 : Fin 1)) = gt (ix2 ⟨n / 5, by omega⟩ t))
    (b : Fin 32) (t : Fin 256) :
    Traj.outv (F := Ideal) (len (ix1 b)) (Traj.stAt xbk gbk (5 * b.val + 5)) (ix3 (0 : Fin 1) t (0 : Fin 1))
      = Cert.Spec.masked x gt len b t := by
  classical
  -- the row as a real function of the vocabulary position
  choose r hr using fun u : Fin 32000 => hfin (ix3 b t u)
  let F : ℕ → ℝ := fun n => if h : n < 32000 then r ⟨n, h⟩ else 0
  have hF : ∀ u : Fin 32000, x (ix3 b t u) = (F u.val : EReal) := fun u => by
    rw [hr u]; show _ = ((if h : u.val < 32000 then r ⟨u.val, h⟩ else 0 : ℝ) : EReal); rw [dif_pos u.isLt]
  have hb := b.isLt
  -- the blocks of the sample's five points
  have hxb : ∀ (v : ℕ) (hv : v < 5) (l : Fin 6400),
      xbk (5 * b.val + v) (ix3 (0 : Fin 1) t l) = (F (v * 6400 + l.val) : EReal) := fun v hv l => by
    have hl := l.isLt
    rw [hx (5 * b.val + v) (by omega) t l, ← hF ⟨v * 6400 + l.val, by omega⟩]
    exact congrArg x (ix3_congr (by show (5 * b.val + v) / 5 = b.val; omega) rfl
      (by show (5 * b.val + v) % 5 * 6400 + l.val = v * 6400 + l.val; omega))
  have hgb : ∀ (v : ℕ) (hv : v < 5),
      gbk (5 * b.val + v) (ix3 (0 : Fin 1) t (0 : Fin 1)) = gt (ix2 b t) := fun v hv => by
    rw [hg (5 * b.val + v) (by omega) t]
    exact congrArg gt (ix2_congr (by show (5 * b.val + v) / 5 = b.val; omega) rfl)
  -- the invariant after each tile
  have hinv : ∀ (v : ℕ) (hv : v < 5),
      Inv F (gt (ix2 b t)).toNat (v * 6400 + 6400) (stAt xbk gbk (5 * b.val + v + 1)) t := by
    intro v
    induction v with
    | zero =>
      intro hv
      have h0 : (5 * b.val + 0) % 5 = 0 := by omega
      show Inv F _ _ (step (5 * b.val + 0) (xbk (5 * b.val + 0)) (gbk (5 * b.val + 0)) (stAt xbk gbk (5 * b.val + 0))) t
      unfold step start
      rw [if_pos h0]
      exact inv_step F _ 0 hv (coords (5 * b.val + 0)) h0 _ _ _ t (hxb 0 hv) (hgb 0 hv)
        (by rw [Nat.zero_mul]; exact inv_reset F _ t)
    | succ v ih =>
      intro hv
      have h0 : ¬ (5 * b.val + (v + 1)) % 5 = 0 := by omega
      have h1 : (5 * b.val + (v + 1)) % 5 = v + 1 := by omega
      show Inv F _ _ (step (5 * b.val + (v + 1)) (xbk (5 * b.val + (v + 1))) (gbk (5 * b.val + (v + 1)))
        (stAt xbk gbk (5 * b.val + v + 1))) t
      unfold step start
      rw [if_neg h0]
      exact inv_step F _ (v + 1) hv (coords (5 * b.val + (v + 1))) h1 _ _ _ t (hxb (v + 1) hv) (hgb (v + 1) hv)
        (by have := ih (by omega); rwa [show v * 6400 + 6400 = (v + 1) * 6400 by ring] at this)
  have h5 : Inv F (gt (ix2 b t)).toNat 32000 (stAt xbk gbk (5 * b.val + 5)) t := hinv 4 (by norm_num)
  -- the three statistics of the whole row
  have hmax : Cert.Spec.rowMax x b t = (range 32000).sup fun n => (F n : EReal) := by
    unfold Cert.Spec.rowMax
    rw [← sup_fin_eq_sup_range 32000 fun n => (F n : EReal)]
    exact Finset.sup_congr rfl fun u _ => hF u
  have hsum : Cert.Spec.rowSum x b t
      = ∑ n ∈ range 32000, Ideal.exp ((F n : EReal) - (range 32000).sup fun n => (F n : EReal)) := by
    unfold Cert.Spec.rowSum
    rw [hmax, Finset.sum_range fun n => Ideal.exp ((F n : EReal) - (range 32000).sup fun n => (F n : EReal))]
    exact Finset.sum_congr rfl fun u _ => by rw [hF u]
  have htg : Cert.Spec.tgt x gt b t = ∑ n ∈ range 32000, if n = (gt (ix2 b t)).toNat then (F n : EReal) else 0 := by
    unfold Cert.Spec.tgt Cert.Spec.label
    rw [sum_onehot (fun n => (F n : EReal)) 32000 _ (hgt (ix2 b t)), hF]
    show (F ((gt (ix2 b t)).toNat % 32000) : EReal) = _
    rw [Nat.mod_eq_of_lt (hgt (ix2 b t))]
  unfold Traj.outv
  rw [pay2_apply, h5.mx, h5.sm, h5.tg]
  unfold Cert.Spec.masked Cert.Spec.valid Cert.Spec.nll
  rw [hmax, hsum, htg]

end Cert.KernelIdeal.TrajValue

end
-- ==== Proof.KArr.lean ====
/-
  From the blocks to the output array, at the exact (extended real) values.

  Point `n` of the 32 × 5 grid is tile `n % 5` of sample `n / 5`. Its logits block is rows `(n / 5, ·)` of the logits
  at vocabulary entries `(n % 5) · 6400 …`, its labels block row `n / 5` of the labels, and the length word its last tile
  reads is the sample's length. The output array `[32, 256, 1]` is written one row block `(b, ·, 0)` at a time, at the last
  tile of sample `b`, with the masked negative log-likelihoods of that sample; the 32 blocks cover the array, so after the
  region it is the array of masked negative log-likelihoods.
-/
import proofs.«429842_j38276748542062_2_alg».proof.Proof.KSound2
import proofs.«429842_j38276748542062_2_alg».proof.Proof.KVals
import proofs.«429842_j38276748542062_2_alg».proof.Proof.KTrajValue
import proofs.«429842_j38276748542062_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

/-- The one host operation before the region does not write the logits: the region finds them as launched. -/
theorem V1_arg0 : V1 m c main_arg0 = m ((c.tc : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- Nor the lengths. -/
theorem V1_arg2 : V1 m c main_arg2 = m ((c.tc : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-- The labels as the region finds them: the launched labels viewed `[32, 256, 1]`. -/
theorem V1_v0 : (V1 m c main_v0 : S32x256x1.Idx → BitVec 32)
    = shapeCast S32x256x1 (m ((c.tc : Thread nD τ).loc main_arg1) : S32x256.Idx → BitVec 32) shapeCasts_S32x256_S32x256x1 := by
  show StableHlo.after hostOps0 (W0 m c) (Proc.devRef .tc main_v0) = _
  after_results
  rfl

/-- The logits window's block index at point `t`: sample `t / 5`, tile `t % 5`. -/
theorem idx1 : ∀ t : Fin (cfgM m).N, cc0_transform_1 (grid0.coords t) (0 : Fin 3) = t.val / 5
    ∧ cc0_transform_1 (grid0.coords t) (1 : Fin 3) = 0 ∧ cc0_transform_1 (grid0.coords t) (2 : Fin 3) = t.val % 5 :=
  (by decide +kernel : ∀ t : Fin grid0.N, cc0_transform_1 (grid0.coords t) (0 : Fin 3) = t.val / 5
    ∧ cc0_transform_1 (grid0.coords t) (1 : Fin 3) = 0 ∧ cc0_transform_1 (grid0.coords t) (2 : Fin 3) = t.val % 5)

/-- The labels window's: sample `t / 5`. -/
theorem idx0 : ∀ t : Fin (cfgM m).N, cc0_transform_0 (grid0.coords t) (0 : Fin 3) = t.val / 5
    ∧ cc0_transform_0 (grid0.coords t) (1 : Fin 3) = 0 ∧ cc0_transform_0 (grid0.coords t) (2 : Fin 3) = 0 :=
  (by decide +kernel : ∀ t : Fin grid0.N, cc0_transform_0 (grid0.coords t) (0 : Fin 3) = t.val / 5
    ∧ cc0_transform_0 (grid0.coords t) (1 : Fin 3) = 0 ∧ cc0_transform_0 (grid0.coords t) (2 : Fin 3) = 0)

/-- The output window's: sample `t / 5`. -/
theorem idx2 : ∀ t : Fin (cfgM m).N, cc0_transform_2 (grid0.coords t) (0 : Fin 3) = t.val / 5
    ∧ cc0_transform_2 (grid0.coords t) (1 : Fin 3) = 0 ∧ cc0_transform_2 (grid0.coords t) (2 : Fin 3) = 0 :=
  (by decide +kernel : ∀ t : Fin grid0.N, cc0_transform_2 (grid0.coords t) (0 : Fin 3) = t.val / 5
    ∧ cc0_transform_2 (grid0.coords t) (1 : Fin 3) = 0 ∧ cc0_transform_2 (grid0.coords t) (2 : Fin 3) = 0)

/-- The logits block of point `n` at `(0, t, l)` is the logit of sample `n / 5`, position `t`, vocabulary entry
    `(n % 5) · 6400 + l`. -/
theorem xb_apply (n : ℕ) (hn : n < 160) (t : Fin 256) (l : Fin 6400) :
    xb (F := Ideal) m c n (ix3 (0 : Fin 1) t l)
      = (m ((c.tc : Thread nD τ).loc main_arg0) : Cert.Spec.SX.Idx → EReal)
          (ix3 ⟨n / 5, by omega⟩ t ⟨n % 5 * 6400 + l.val, by have := l.isLt; omega⟩) := by
  have hN : n < (cfgM m).N := by rw [N_eq]; exact hn
  obtain ⟨e0, e1, e2⟩ := idx1 m ⟨n, hN⟩
  refine (congrFun (xb_eq m c ⟨n, hN⟩) (ix3 (0 : Fin 1) t l)).trans ?_
  unfold iblk
  show V1 m c main_arg0 ((((cfgM m).win 1).blk ⟨n, hN⟩).view.emb (ix3 (0 : Fin 1) t l)) = _
  rw [V1_arg0]
  show m ((c.tc : Thread nD τ).loc main_arg0) _ = m ((c.tc : Thread nD τ).loc main_arg0) _
  congr 1
  funext a; apply Fin.ext
  match a with
  | ⟨0, _⟩ => show cc0_transform_1 (grid0.coords ⟨n, hN⟩) (0 : Fin 3) * 1 + 1 * 0 = n / 5; rw [e0]; show n / 5 * 1 + 1 * 0 = n / 5; omega
  | ⟨1, _⟩ => show cc0_transform_1 (grid0.coords ⟨n, hN⟩) (1 : Fin 3) * 256 + 1 * t.val = t.val; rw [e1]; omega
  | ⟨2, _⟩ => show cc0_transform_1 (grid0.coords ⟨n, hN⟩) (2 : Fin 3) * 6400 + 1 * l.val = n % 5 * 6400 + l.val; rw [e2]; show n % 5 * 6400 + 1 * l.val = _; omega

/-- The labels block of point `n` at `(0, t, 0)` is the label of sample `n / 5`, position `t`. -/
theorem gb_apply (n : ℕ) (hn : n < 160) (t : Fin 256) :
    gb (F := Ideal) m c n (ix3 (0 : Fin 1) t (0 : Fin 1))
      = (m ((c.tc : Thread nD τ).loc main_arg1) : Cert.Spec.SG.Idx → BitVec 32) (ix2 ⟨n / 5, by omega⟩ t) := by
  have hN : n < (cfgM m).N := by rw [N_eq]; exact hn
  have e0 : cc0_transform_0 (grid0.coords ⟨n, hN⟩) (0 : Fin 3) = n / 5 := (idx0 m ⟨n, hN⟩).1
  have e1 : cc0_transform_0 (grid0.coords ⟨n, hN⟩) (1 : Fin 3) = 0 := (idx0 m ⟨n, hN⟩).2.1
  have e2 : cc0_transform_0 (grid0.coords ⟨n, hN⟩) (2 : Fin 3) = 0 := (idx0 m ⟨n, hN⟩).2.2
  refine (congrFun (gb_eq m c ⟨n, hN⟩) (ix3 (0 : Fin 1) t (0 : Fin 1))).trans ?_
  unfold iblk
  show (V1 m c main_v0 : S32x256x1.Idx → BitVec 32) ((((cfgM m).win 0).blk ⟨n, hN⟩).view.emb (ix3 (0 : Fin 1) t (0 : Fin 1))) = _
  rw [V1_v0]
  refine (shapeCast_apply (s := S32x256) (t := S32x256x1) _ _ _ (ix2 (⟨n / 5, by omega⟩ : Fin 32) t) ?_).trans rfl
  rw [Shape.rowMajor_val_two]
  refine Eq.trans ?_ (Shape.rowMajor_val_three (d := ![32, 256, 1]) _).symm
  show n / 5 * 256 + t.val = ((cc0_transform_0 (grid0.coords ⟨n, hN⟩) (0 : Fin 3) * 1 + 1 * 0) * 256 + (cc0_transform_0 (grid0.coords ⟨n, hN⟩) (1 : Fin 3) * 256 + 1 * t.val)) * 1 + (cc0_transform_0 (grid0.coords ⟨n, hN⟩) (2 : Fin 3) * 1 + 1 * 0)
  rw [e0, e1, e2]
  omega

/-- The length word the last tile of a sample reads is the sample's length. -/
theorem lenAt_eq (n : ℕ) (hn : n < 160) :
    lenAt (F := Ideal) m n = (m ((c.tc : Thread nD τ).loc main_arg2) : Cert.Spec.SL.Idx → BitVec 32) (ix1 ⟨n / 5, by omega⟩) := by
  obtain rfl : c = 0 := Subsingleton.elim _ _
  unfold lenAt tbl
  show V1 m (0 : Dev nD) main_arg2 _ = _
  rw [V1_arg2]
  show m (((0 : Dev nD).tc : Thread nD τ).loc main_arg2) _ = m (((0 : Dev nD).tc : Thread nD τ).loc main_arg2) _
  congr 1
  funext a; apply Fin.ext
  match a with
  | ⟨0, _⟩ => show n / 5 % 32 = n / 5; omega

/-- The output window writes its block back exactly at a sample's last tile. -/
theorem flush2_of_last : ∀ t : Fin (cfgM m).N, t.val % 5 = 4 → ((cfgM m).win 2).flush t = true :=
  (by decide +kernel : ∀ t : Fin grid0.N, t.val % 5 = 4 → Pipeline.Window.flushOf grid0 true cc0_transform_2 t = true)
theorem last_of_flush2 : ∀ t : Fin (cfgM m).N, ((cfgM m).win 2).flush t = true → t.val % 5 = 4 :=
  (by decide +kernel : ∀ t : Fin grid0.N, Pipeline.Window.flushOf grid0 true cc0_transform_2 t = true → t.val % 5 = 4)

/-- What a sample's last tile writes back is the sample's row of the masked negative log-likelihoods. -/
theorem flushed2_eq [Cert.KernelIdeal.Facts]
    (hfin : ∀ i, ∃ r : ℝ, (m ((c.tc : Thread nD τ).loc main_arg0) : Cert.Spec.SX.Idx → EReal) i = (r : EReal))
    (hgt : ∀ j, ((m ((c.tc : Thread nD τ).loc main_arg1) : Cert.Spec.SG.Idx → BitVec 32) j).toNat < 32000)
    (t : Fin (cfgM m).N) (hf : ((cfgM m).win 2).flush t = true) :
    (dats (F := Ideal) m 0 c).flushed 2 t
      = (((cfgM m).win 2).blk t).view.read (Elt Ideal)
          (Cert.Spec.nllArr (m ((c.tc : Thread nD τ).loc main_arg0)) (m ((c.tc : Thread nD τ).loc main_arg1))
            (m ((c.tc : Thread nD τ).loc main_arg2))) := by
  have h4 := last_of_flush2 m t hf
  have hN : t.val < 160 := lt_of_lt_of_eq t.isLt (N_eq m)
  obtain ⟨e0, e1, e2⟩ := idx2 m t
  show ((cfgM m).win 2).cut (grid0.coords t) ((dats m 0 c).after 2 t) = _
  rw [after_2]
  refine funext fun (j : S1x256x1.Idx) => ?_
  obtain ⟨u, r, z, rfl⟩ : ∃ (u : Fin 1) (r : Fin 256) (z : Fin 1), j = ix3 u r z := ⟨j 0, j 1, j 2, eq_ix3 j⟩
  obtain rfl : u = 0 := Subsingleton.elim _ _
  obtain rfl : z = 0 := Subsingleton.elim _ _
  show outAt m c t.val (ix3 (0 : Fin 1) r (0 : Fin 1))
    = Cert.Spec.nllArr (m ((c.tc : Thread nD τ).loc main_arg0)) (m ((c.tc : Thread nD τ).loc main_arg1))
        (m ((c.tc : Thread nD τ).loc main_arg2)) ((((cfgM m).win 2).blk t).view.emb (ix3 (0 : Fin 1) r (0 : Fin 1)))
  unfold outAt stAt
  rw [lenAt_eq m c t.val hN, show t.val + 1 = 5 * (t.val / 5) + 5 by omega]
  refine (Cert.KernelIdeal.TrajValue.outv_eq _ _ _ hfin hgt (xb m c) (gb m c) (xb_apply m c) (gb_apply m c)
    (⟨t.val / 5, by omega⟩ : Fin 32) r).trans ?_
  unfold Cert.Spec.nllArr
  refine congrArg₂ (Cert.Spec.masked _ _ _) (Fin.ext ?_) (Fin.ext ?_)
  · show t.val / 5 = cc0_transform_2 (grid0.coords t) (0 : Fin 3) * 1 + 1 * 0
    rw [e0]; omega
  · show r.val = cc0_transform_2 (grid0.coords t) (1 : Fin 3) * 256 + 1 * r.val
    rw [e1]; omega

/-- Every index `(b, t, 0)` of the output array lies in the block the last tile of sample `b` writes back. -/
theorem cover2 (i : S32x256x1.Idx) :
    ∃ t : Fin (cfgM m).N, ((cfgM m).win 2).flush t = true ∧ i ∈ (((cfgM m).win 2).blk t).view.set := by
  have h0 : (i 0).val < 32 := (i 0).isLt
  have h1 : (i 1).val < 256 := (i 1).isLt
  have h2 : (i 2).val < 1 := (i 2).isLt
  have hN : 5 * (i 0).val + 4 < (cfgM m).N := by rw [N_eq]; omega
  obtain ⟨e0, e1, e2⟩ := idx2 m ⟨5 * (i 0).val + 4, hN⟩
  refine ⟨⟨5 * (i 0).val + 4, hN⟩, flush2_of_last m _ (by show (5 * (i 0).val + 4) % 5 = 4; omega), ?_⟩
  show i ∈ ((View.whole main_v1).slice (((cfgM m).win 2).rect ⟨5 * (i 0).val + 4, hN⟩)).set
  refine (congrArg (fun S => i ∈ S) (View.set_slice_whole main_v1 (((cfgM m).win 2).rect ⟨5 * (i 0).val + 4, hN⟩))).mpr ?_
  refine Rect.mem_set_unit.mpr fun a => ?_
  match a with
  | ⟨0, _⟩ =>
    show cc0_transform_2 (grid0.coords ⟨5 * (i 0).val + 4, hN⟩) (0 : Fin 3) * 1 ≤ (i 0).val
      ∧ (i 0).val < cc0_transform_2 (grid0.coords ⟨5 * (i 0).val + 4, hN⟩) (0 : Fin 3) * 1 + 1
    rw [e0]; show (5 * (i 0).val + 4) / 5 * 1 ≤ (i 0).val ∧ (i 0).val < (5 * (i 0).val + 4) / 5 * 1 + 1; omega
  | ⟨1, _⟩ =>
    show cc0_transform_2 (grid0.coords ⟨5 * (i 0).val + 4, hN⟩) (1 : Fin 3) * 256 ≤ (i 1).val
      ∧ (i 1).val < cc0_transform_2 (grid0.coords ⟨5 * (i 0).val + 4, hN⟩) (1 : Fin 3) * 256 + 256
    rw [e1]; omega
  | ⟨2, _⟩ =>
    show cc0_transform_2 (grid0.coords ⟨5 * (i 0).val + 4, hN⟩) (2 : Fin 3) * 1 ≤ (i 2).val
      ∧ (i 2).val < cc0_transform_2 (grid0.coords ⟨5 * (i 0).val + 4, hN⟩) (2 : Fin 3) * 1 + 1
    rw [e2]; omega

/-- The output array after the region is the array of masked negative log-likelihoods. -/
theorem arr_eq [Cert.KernelIdeal.Facts]
    (hfin : ∀ i, ∃ r : ℝ, (m ((c.tc : Thread nD τ).loc main_arg0) : Cert.Spec.SX.Idx → EReal) i = (r : EReal))
    (hgt : ∀ j, ((m ((c.tc : Thread nD τ).loc main_arg1) : Cert.Spec.SG.Idx → BitVec 32) j).toNat < 32000) :
    (dats (F := Ideal) m 0 c).arrAt 2 (cfgM m).N
      = Cert.Spec.nllArr (m ((c.tc : Thread nD τ).loc main_arg0)) (m ((c.tc : Thread nD τ).loc main_arg1))
          (m ((c.tc : Thread nD τ).loc main_arg2)) :=
  (dats (F := Ideal) m 0 c).arrAt_eq_of_cover 2 _ (fun t hf => flushed2_eq m c hfin hgt t hf) (cover2 m)

end Cert.KernelIdeal.Body

end
-- ==== Proof.KTail.lean ====
/-
  The host tail behind the kernel region. Three stretches of host operations turn the region's output array (the
  masked negative log-likelihoods, [32, 256, 1]) and the lengths into the program's result: the array's total over
  every index, divided by the count of counted positions, where the count is the sum over the samples of the length
  less one clipped to [0, 256], raised to at least one. Read at the extended reals the total is the double sum over
  samples and positions (the last axis has one element) and the integer sum is a sum of words in any order, so the
  result is the specification's mean.
-/
import proofs.«429842_j38276748542062_2_alg».proof.Proof.KArgs
import proofs.«429842_j38276748542062_2_alg».proof.Proof.Spec
import Idealize.ShloMosaic.Lib.StableHlo.Run
import Idealize.ShloMosaic.Lib.ValueIdx
import Idealize.ShloMosaic.PureOps.Reduce
import Idealize.ShloMosaic.PureOps.Ideal.Laws
import Mathlib.Algebra.BigOperators.Fin

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The three host stretches behind the region, each read at the buffers the next one reads -/

section Stretches

variable (V : Valuation τ sig (Elt F))

/-- The first stretch leaves the lengths less one, -/
theorem s1_v3 : StableHlo.after hostOps1 V (Proc.devRef .tc main_v3)
    = subi (V (Proc.devRef .tc main_arg2)) (broadcastInDim S32 ![] bcast_S_S32 (constantI S_ 32 1#32)) := by
  simp only [hostOps1]; after_results
/-- the constants 0 and 256, -/
theorem s1_c0 : StableHlo.after hostOps1 V (Proc.devRef .tc main_c_0) = constantI S_ 32 0#32 := by
  simp only [hostOps1]; after_results
theorem s1_c1 : StableHlo.after hostOps1 V (Proc.devRef .tc main_c_1) = constantI S_ 32 256#32 := by
  simp only [hostOps1]; after_results
/-- and the region's output array as it was. -/
theorem s1_v1 : StableHlo.after hostOps1 V (Proc.devRef .tc main_v1) = V (Proc.devRef .tc main_v1) := by
  simp only [hostOps1]; after_results

/-- The clip leaves min 256 (max 0 ·) of the lengths less one, -/
theorem s2_v4 : StableHlo.after hostOps1_1 V (Proc.devRef .tc main_v4)
    = minsi (broadcastInDim S32 ![] bcast_S_S32 (V (Proc.devRef .tc main_c_1)))
        (maxsi (broadcastInDim S32 ![] bcast_S_S32 (V (Proc.devRef .tc main_c_0))) (V (Proc.devRef .tc main_v3))) := by
  simp only [hostOps1_1]; after_results; rfl
/-- and the region's output array as it was. -/
theorem s2_v1 : StableHlo.after hostOps1_1 V (Proc.devRef .tc main_v1) = V (Proc.devRef .tc main_v1) := by
  simp only [hostOps1_1]; after_results

/-- The last stretch leaves the array's total over the count raised to at least one. -/
theorem s3_v9 : StableHlo.after hostOps1_2 V (Proc.devRef .tc main_v9)
    = Host.divf (Host.reduceAdd (V (Proc.devRef .tc main_v1)) (constant S_ .f32 0x00000000#32) reducesTo_S32x256x1_S_d0_1_2 h_S_)
        (sitofp .f32 (maxsi (Host.reduce IntOp.addi (V (Proc.devRef .tc main_v4)) (constantI S_ 32 0#32) reducesTo_S32_S_d0 h_S_)
          (constantI S_ 32 1#32))) := by
  simp only [hostOps1_2]; after_results

end Stretches

/-! # The tail as one function -/

/-- The host tail as one function of the masked array and the lengths: the array's total over every index, divided
    by the number of counted positions, that is the sum over the samples of the length less one clipped to [0, 256],
    raised to at least one. -/
def tail (A : (⟨S32x256x1, .f32⟩ : BufTy).Contents (Elt F)) (L : (⟨S32, .i32⟩ : BufTy).Contents (Elt F)) :
    (⟨S_, .f32⟩ : BufTy).Contents (Elt F) :=
  Host.divf (Host.reduceAdd A (constant S_ .f32 0x00000000#32) reducesTo_S32x256x1_S_d0_1_2 h_S_)
    (sitofp .f32 (maxsi (Host.reduce IntOp.addi
      (minsi (broadcastInDim S32 ![] bcast_S_S32 (constantI S_ 32 256#32))
        (maxsi (broadcastInDim S32 ![] bcast_S_S32 (constantI S_ 32 0#32))
          (subi L (broadcastInDim S32 ![] bcast_S_S32 (constantI S_ 32 1#32)))))
      (constantI S_ 32 0#32) reducesTo_S32_S_d0 h_S_) (constantI S_ 32 1#32)))

section Composed

variable (m : (ℓ : Loc nD τ sig) → Buf (Elt F) ℓ)

/-- The program's result buffer at its end is the tail of the region's output array and of the lengths, both as the
    region left them: the three stretches composed. -/
theorem W5_v9 (c : Dev nD) :
    W5 m c (Proc.devRef .tc main_v9) = tail (F := F) (W2 m c (Proc.devRef .tc main_v1)) (W2 m c (Proc.devRef .tc main_arg2)) := by
  have e1 : W4 m c (Proc.devRef .tc main_v1) = W2 m c (Proc.devRef .tc main_v1) := (s2_v1 (W3 m c)).trans (s1_v1 (W2 m c))
  have e4 : W4 m c (Proc.devRef .tc main_v4)
      = minsi (broadcastInDim S32 ![] bcast_S_S32 (constantI S_ 32 256#32))
          (maxsi (broadcastInDim S32 ![] bcast_S_S32 (constantI S_ 32 0#32))
            (subi (W2 m c (Proc.devRef .tc main_arg2)) (broadcastInDim S32 ![] bcast_S_S32 (constantI S_ 32 1#32)))) := by
    refine (s2_v4 (W3 m c)).trans ?_
    rw [show W3 m c (Proc.devRef .tc main_c_1) = _ from s1_c1 (W2 m c), show W3 m c (Proc.devRef .tc main_c_0) = _ from s1_c0 (W2 m c),
      show W3 m c (Proc.devRef .tc main_v3) = _ from s1_v3 (W2 m c)]
  refine (s3_v9 (W4 m c)).trans ?_
  rw [e1, e4]; rfl

end Composed

/-! # The arithmetic of the tail at the extended reals -/

section Arithmetic

open Idealize.ShloMosaic.ValueIdx

/-- The two signed maxima agree: one keeps its first argument on a tie, the other its second, and a tie of signed
    values is an equality of words. -/
theorem maxsi_eq_smax (a b : BitVec 32) : IntOp.maxsi a b = Cert.Spec.smax a b := by
  unfold IntOp.maxsi Cert.Spec.smax
  by_cases h1 : b.slt a = true <;> by_cases h2 : a.slt b = true
  · rw [BitVec.slt_iff_toInt_lt] at h1 h2; omega
  · rw [if_pos h1, if_neg h2]
  · rw [if_neg h1, if_pos h2]
  · rw [if_neg h1, if_neg h2]
    rw [BitVec.slt_iff_toInt_lt] at h1 h2
    exact BitVec.eq_of_toInt_eq (by omega)

/-- The two signed minima are the same expression. -/
theorem minsi_eq_smin (a b : BitVec 32) : IntOp.minsi a b = Cert.Spec.smin a b := rfl

/-- A fold of word addition from zero over a finite set is the sum over it. -/
theorem fold_addi_eq_sum {ι : Type} (S : Finset ι) (f : ι → BitVec 32) : S.fold IntOp.addi 0#32 f = ∑ i ∈ S, f i := by
  induction S using Finset.cons_induction with
  | empty => rfl
  | cons a S ha ih => rw [Finset.fold_cons, Finset.sum_cons, ih]; rfl

/-- A rank-1 index set is its coordinate's range, -/
def idxEquiv1 {n : Nat} : (⟨1, ![n]⟩ : Shape).Idx ≃ Fin n where
  toFun i := i 0
  invFun b := ix1 b
  left_inv i := (eq_ix1 i).symm
  right_inv _ := rfl
/-- so a sum over it is the sum over the coordinate. -/
theorem sum_idx1 {M : Type*} [AddCommMonoid M] {n : Nat} (f : (⟨1, ![n]⟩ : Shape).Idx → M) :
    ∑ i, f i = ∑ b : Fin n, f (ix1 b) := by
  rw [← Equiv.sum_comp (idxEquiv1 (n := n)).symm f]; rfl

/-- A rank-3 index set whose last extent is one is the product of its first two coordinates' ranges, -/
def idxEquiv3u {n0 n1 : Nat} : (⟨3, ![n0, n1, 1]⟩ : Shape).Idx ≃ Fin n0 × Fin n1 where
  toFun i := (i 0, i 1)
  invFun p := ix3 p.1 p.2 (0 : Fin 1)
  left_inv i := (congrArg (ix3 (i 0) (i 1)) (Subsingleton.elim (0 : Fin 1) (i 2))).trans (eq_ix3 i).symm
  right_inv _ := rfl
/-- so a sum over it is the double sum over those. -/
theorem sum_idx3u {M : Type*} [AddCommMonoid M] {n0 n1 : Nat} (f : (⟨3, ![n0, n1, 1]⟩ : Shape).Idx → M) :
    ∑ i, f i = ∑ a : Fin n0, ∑ b : Fin n1, f (ix3 a b (0 : Fin 1)) := by
  rw [← Equiv.sum_comp (idxEquiv3u (n0 := n0) (n1 := n1)).symm f, Fintype.sum_prod_type]; rfl

/-- The float total of the masked array, from zero, is the double sum of the masked negative log-likelihoods. -/
theorem total_eq_num (X : FVec Ideal S32x256x32000 .f32) (G : IVec S32x256 32) (Ln : IVec S32 32) (j : S_.Idx) :
    Host.reduceAdd (F := Ideal) (Cert.Spec.nllArr X G Ln) (constant (F := Ideal) S_ .f32 0x00000000#32)
      reducesTo_S32x256x1_S_d0_1_2 h_S_ j = Cert.Spec.num X G Ln := by
  simp only [Host.reduceAdd, Ideal.hostReduceAdd_def]
  rw [Ideal.hostReduceAdd_total reducesTo_S32x256x1_S_d0_1_2 (fun b => b.elim0)]
  show Ideal.ofBits .f32 0x00000000#32 + _ = _
  rw [Ideal.ofBits_zero_f32, zero_add, sum_idx3u]
  rfl

/-- The count: the sum over the samples of the clipped length less one, raised to at least one. -/
theorem count_eq_cnt (Ln : IVec S32 32) (j : S_.Idx) :
    maxsi (Host.reduce IntOp.addi
      (minsi (broadcastInDim S32 ![] bcast_S_S32 (constantI S_ 32 256#32))
        (maxsi (broadcastInDim S32 ![] bcast_S_S32 (constantI S_ 32 0#32))
          (subi Ln (broadcastInDim S32 ![] bcast_S_S32 (constantI S_ 32 1#32)))))
      (constantI S_ 32 0#32) reducesTo_S32_S_d0 h_S_) (constantI S_ 32 1#32) j = Cert.Spec.cnt Ln := by
  show IntOp.maxsi (Host.reduce IntOp.addi _ _ reducesTo_S32_S_d0 h_S_ j) 1#32 = _
  rw [maxsi_eq_smax, Host.reduce_eq_fold, Finset.filter_true_of_mem (fun i _ => Subsingleton.elim _ _)]
  show Cert.Spec.smax (Finset.univ.fold IntOp.addi 0#32 _) 1#32 = _
  rw [fold_addi_eq_sum, sum_idx1]
  unfold Cert.Spec.cnt
  refine congrArg (fun s => Cert.Spec.smax s 1#32) ?_
  refine Finset.sum_congr rfl fun b _ => ?_
  show IntOp.minsi 256#32 (IntOp.maxsi 0#32 (Ln (ix1 b) - 1#32)) = _
  rw [maxsi_eq_smax, minsi_eq_smin]
  rfl

/-- The tail of the masked array and the lengths is the mean. -/
theorem tail_eq_result (X : FVec Ideal S32x256x32000 .f32) (G : IVec S32x256 32) (Ln : IVec S32 32) :
    tail (F := Ideal) (Cert.Spec.nllArr X G Ln) Ln = Cert.Spec.result X G Ln := by
  funext j
  show FloatOps.hostDivf (Host.reduceAdd (F := Ideal) (Cert.Spec.nllArr X G Ln) (constant (F := Ideal) S_ .f32 0x00000000#32)
        reducesTo_S32x256x1_S_d0_1_2 h_S_ j)
      (FloatOps.sitofp .f32 (maxsi (Host.reduce IntOp.addi
        (minsi (broadcastInDim S32 ![] bcast_S_S32 (constantI S_ 32 256#32))
          (maxsi (broadcastInDim S32 ![] bcast_S_S32 (constantI S_ 32 0#32))
            (subi Ln (broadcastInDim S32 ![] bcast_S_S32 (constantI S_ 32 1#32)))))
        (constantI S_ 32 0#32) reducesTo_S32_S_d0 h_S_) (constantI S_ 32 1#32) j))
    = FloatOps.hostDivf (Cert.Spec.num X G Ln) (FloatOps.sitofp .f32 (Cert.Spec.cnt Ln))
  rw [total_eq_num, count_eq_cnt]

end Arithmetic

/-! # The program's result -/

/-- The stretch before the region leaves the lengths as launched. -/
theorem s0_arg2 (V : Valuation τ sig (Elt F)) : StableHlo.after hostOps0 V (Proc.devRef .tc main_arg2) = V (Proc.devRef .tc main_arg2) := by
  simp only [hostOps0]; after_results

/-- With the region's output array the masked negative log-likelihoods of the launch's logits, labels and lengths, the
    program's result is the specification's mean of them. -/
theorem result_eq (m : (ℓ : Loc nD τ sig) → Buf (Elt Ideal) ℓ) (c : Dev nD)
    (harr : (dats (F := Ideal) m 0 c).arrAt 2 (cfgM m).N
      = Cert.Spec.nllArr (m ((c.tc : Thread nD τ).loc main_arg0)) (m ((c.tc : Thread nD τ).loc main_arg1))
          (m ((c.tc : Thread nD τ).loc main_arg2))) :
    W5 m c (Proc.devRef .tc main_v9)
      = Cert.Spec.result (m ((c.tc : Thread nD τ).loc main_arg0)) (m ((c.tc : Thread nD τ).loc main_arg1))
          (m ((c.tc : Thread nD τ).loc main_arg2)) := by
  have eA : W2 m c (Proc.devRef .tc main_v1)
      = Cert.Spec.nllArr (m ((c.tc : Thread nD τ).loc main_arg0)) (m ((c.tc : Thread nD τ).loc main_arg1))
          (m ((c.tc : Thread nD τ).loc main_arg2)) := (W2_arr m c 2).trans harr
  have eL : W2 m c (Proc.devRef .tc main_arg2) = m ((c.tc : Thread nD τ).loc main_arg2) :=
    (W2_of_ne m c main_arg2 (by decide)).trans (s0_arg2 (W0 m c))
  rw [W5_v9, eA, eL]
  exact tail_eq_result _ _ _

end Cert.KernelIdeal.Body

end
-- ==== Proof.RefLink.lean ====
/-
  The reference's result, from the fold the run states to the last stage.

  The run leaves in the result buffer the fold of the 62 operations' results over the launch contents. Read one
  operation at a time, that fold is the composition of the operations' functions of the three arguments, and the
  stages `val_…` are that same composition, named step by step: the two are equal, definition by definition. The
  operations of the three called functions move their operands from a buffer's type to the value's type and back;
  moved there and back, contents are unchanged (`ofBuf_toBuf`), and with those pairs removed the two sides are the
  same term up to unfolding the stages' names.
-/
import proofs.«429842_j38276748542062_2_alg».proof.Proof.RefRun
import proofs.«429842_j38276748542062_2_alg».proof.Proof.RefRead

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-- Contents moved to a typed reference's buffer type and back are the contents: the two transports are along one
    equation and its inverse, and along `rfl` both are the identity. -/
theorem ofBuf_toBuf {sig : RefSig} {Val : EltTy → Type} {T : BufTy} (x : TRef sig T) (v : T.Contents Val) :
    x.ofBuf (x.toBuf v) = v := by
  obtain ⟨r, h, _, _⟩ := x
  subst h
  rfl

/-- What the run leaves in the result buffer is the last stage, at the arguments' launch contents. -/
theorem val_main_v19_eq (m : (ℓ : Loc nD τ sig) → Buf (Elt F) ℓ) (c : Dev nD) :
    Cert.ReferenceIdeal.ValueP.res_main_v19 m c = val_main_v19 (F := F) (m ((c.tc : Thread nD τ).loc main_arg0)) (m ((c.tc : Thread nD τ).loc main_arg1)) (m ((c.tc : Thread nD τ).loc main_arg2)) := by
  unfold Cert.ReferenceIdeal.ValueP.res_main_v19
  after_results_simp
  simp only [ofBuf_toBuf]
  rfl

end Cert.ReferenceIdeal.ReadP

end
-- ==== Proof.RefValue.lean ====
/-
  The float part of the reference's value, at the ideal instance (floats are extended reals, operations exact).

  For logits x : [32, 256, 32000], labels gt : [32, 256] and lengths len : [32], the reference sums over all positions
  (b, t) the value  select (t < len b - 1) (-(take (log_softmax x) gt)) 0.  Under the precondition (every logit a real,
  every label in [0, 32000)) this total is the specification's numerator:

  * the maximum over the vocabulary axis, folded from negative infinity, is the supremum of the row (a fold of max from
    the bottom element is the finite supremum), and the further maximum against negative infinity changes nothing;
  * the sum over the vocabulary of exp (x - max) is the row's sum;
  * a label in the vocabulary is nonnegative as a signed word, so it is not wrapped, it passes the in-bounds test
    0 ≤ g ≤ 31999, and clamping it into the vocabulary leaves it; the gather therefore reads the log-softmax value at
    the label, and the fill value of the out-of-bounds branch is never taken;
  * on the reals -((x_g - M) - log L) = (M + log L) - x_g: the row's largest logit M is a real (a supremum of finitely
    many reals over a nonempty set is attained), the row's sum L is a positive real (a sum of exponentials), so log L is
    a real, and the identity is one of real arithmetic;
  * the mask bit at (b, t) is the word of the signed comparison t < len b - 1, and a select on it is the conditional;
  * a sum over the rank-2 index set is the double sum over its coordinates.
-/
import proofs.«429842_j38276748542062_2_alg».proof.Proof.RefRead
import proofs.«429842_j38276748542062_2_alg».proof.Proof.Spec
import Idealize.ShloMosaic.PureOps.Reduce
import Idealize.ShloMosaic.PureOps.Ideal.Laws
import Idealize.ShloMosaic.Lib.ValueIdx
import Idealize.ShloMosaic.Lib.Affine
import Mathlib.Data.Finset.Lattice.Fold
import Mathlib.Algebra.Order.BigOperators.Group.Finset
import Mathlib.Analysis.Complex.Exponential
import Mathlib.Data.EReal.Basic
import Mathlib.Tactic.Ring

noncomputable section

namespace Cert.RefValue

open Cert.ReferenceIdeal Cert.ReferenceIdeal.Gen Cert.ReferenceIdeal.ReadP Idealize.ShloMosaic Idealize.ShloMosaic.ValueIdx

/-! ## Folds, sums and words -/

/-- Folding the maximum from the bottom element over a finite set is the set's supremum. -/
theorem fold_max_bot {ι : Type} (s : Finset ι) (f : ι → EReal) :
    s.fold max (⊥ : EReal) f = s.sup f := by
  classical
  induction s using Finset.induction_on with
  | empty => simp
  | insert a s ha ih => rw [Finset.fold_insert ha, Finset.sup_insert, ih]

/-- The word of negative infinity denotes the bottom element. -/
theorem ofBits_neg_inf : Ideal.ofBits .f32 0xFF800000#32 = (⊥ : EReal) := by simp [Ideal.ofBits, Ideal.ieee]

/-- The maximum over the vocabulary axis, from negative infinity, at row (b, t) is the row's largest logit. -/
theorem rowmax_raw (x : FVec Ideal S32x256x32000 .f32) (b : Fin 32) (t : Fin 256) :
    Host.reduce FloatOps.maximumf x (constant (F := Ideal) S_ .f32 0xFF800000#32) reducesTo_S32x256x32000_S32x256_d2 h_S_ (ix2 b t)
      = Cert.Spec.rowMax x b t := by
  rw [Host.reduce_eq_fold_single FloatOps.maximumf x _ reducesTo_S32x256x32000_S32x256_d2 (by decide) h_S_]
  show Finset.fold max (Ideal.ofBits .f32 0xFF800000#32) _ _ = _
  rw [ofBits_neg_inf, fold_max_bot]
  unfold Cert.Spec.rowMax
  refine Finset.sup_congr rfl fun k _ => ?_
  exact congrArg x (funext fun a => Fin.ext (by match a with | ⟨0, _⟩ => rfl | ⟨1, _⟩ => rfl | ⟨2, _⟩ => rfl))

/-- A fold over the one-element index set applies the operation once. -/
theorem fold_fin1 {α : Type} (op : α → α → α) [Std.Commutative op] [Std.Associative op] (c : α) (f : Fin 1 → α) :
    (Finset.univ : Finset (Fin 1)).fold op c f = op (f 0) c := by
  rw [Finset.univ_unique, Finset.fold_singleton]; rfl

/-- The conjunction over an axis of one element, from true, is that element. -/
theorem andred_raw (p : IVec S32x256x1x1 1) (b : Fin 32) (t : Fin 256) :
    Host.reduce IntOp.andi p (constantI S_ 1 1#1) reducesTo_S32x256x1x1_S32x256x1_d3 h_S_ (ix3 b t 0) = p (ix4 b t 0 0) := by
  rw [Host.reduce_eq_fold_single IntOp.andi p _ reducesTo_S32x256x1x1_S32x256x1_d3 (by decide) h_S_]
  refine (fold_fin1 IntOp.andi (1#1) _).trans ?_
  have h1 : ∀ c : BitVec 1, IntOp.andi c 1#1 = c := by decide
  rw [h1]
  exact congrArg p (funext fun a => Fin.ext (by match a with | ⟨0, _⟩ => rfl | ⟨1, _⟩ => rfl | ⟨2, _⟩ => rfl | ⟨3, _⟩ => rfl))

local notation "gd" => gather_S32x256x32000_S32x256x1x1_S32x256x1_n_2_01_01_2_3_111

/-- The gather along the vocabulary axis at row (b, t) reads the operand at the start index of that row, read signed and
    clamped into the vocabulary. -/
theorem gather_raw {α : Type} (y : S32x256x32000.Idx → α) (idx : IVec S32x256x1x1 32) (b : Fin 32) (t : Fin 256) :
    Host.gather gd y idx (ix3 b t 0)
      = y (ix3 b t ⟨min (idx (ix4 b t 0 0)).toInt.toNat 31999, by omega⟩) := by
  unfold Host.gather
  refine congrArg y (funext fun a => Fin.ext ?_)
  match a with
  | ⟨0, _⟩ =>
    show GatherDims.start gd (ix3 b t 0) idx 0 + GatherDims.batchCoord gd (ix3 b t 0) 0 + GatherDims.offCoord gd (ix3 b t 0) 0 = b.val
    rw [GatherDims.start_batching _ _ _ _ (by decide), GatherDims.offCoord_eq_zero _ _ _ (by decide), Nat.zero_add, Nat.add_zero]
    rfl
  | ⟨1, _⟩ =>
    show GatherDims.start gd (ix3 b t 0) idx 1 + GatherDims.batchCoord gd (ix3 b t 0) 1 + GatherDims.offCoord gd (ix3 b t 0) 1 = t.val
    rw [GatherDims.start_batching _ _ _ _ (by decide), GatherDims.offCoord_eq_zero _ _ _ (by decide), Nat.zero_add, Nat.add_zero]
    rfl
  | ⟨2, _⟩ =>
    show GatherDims.start gd (ix3 b t 0) idx 2 + GatherDims.batchCoord gd (ix3 b t 0) 2 + GatherDims.offCoord gd (ix3 b t 0) 2 = min (idx (ix4 b t 0 0)).toInt.toNat 31999
    rw [GatherDims.batchCoord_eq_zero _ _ _ (by decide), GatherDims.offCoord_eq_zero _ _ _ (by decide), Nat.add_zero]
    unfold GatherDims.start
    rw [dif_pos (show (2 : Fin 3) ∈ (GatherDims.startIndexMap gd) by decide)]
    have hsi : GatherDims.siIdx gd (ix3 b t 0) ⟨List.idxOf (2 : Fin 3) (GatherDims.startIndexMap gd),
        List.idxOf_lt_length_iff.2 (show (2 : Fin 3) ∈ (GatherDims.startIndexMap gd) by decide)⟩ = ix4 b t 0 0 := by
      funext c; refine Fin.ext ?_
      match c with
      | ⟨0, _⟩ => rfl
      | ⟨1, _⟩ => rfl
      | ⟨2, _⟩ => rfl
      | ⟨3, _⟩ => rfl
    rw [hsi]
    rfl

/-- The supremum of finitely many reals over a nonempty set is a real. -/
theorem sup_real {ι : Type} (s : Finset ι) (hs : s.Nonempty) (f : ι → EReal) (hf : ∀ i, ∃ r : ℝ, f i = (r : EReal)) :
    ∃ m : ℝ, s.sup f = (m : EReal) := by
  obtain ⟨i, _, hi⟩ := Finset.exists_mem_eq_sup s hs f
  obtain ⟨r, hr⟩ := hf i
  exact ⟨r, hi.trans hr⟩

/-- A finite sum of reals, read in the extended reals, is the real sum. -/
theorem sum_coe {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A row of real logits has a real largest logit and a positive real sum of shifted exponentials. -/
theorem row_real (f : Fin 32000 → EReal) (hf : ∀ v, ∃ r : ℝ, f v = (r : EReal)) :
    ∃ m l : ℝ, Finset.univ.sup f = (m : EReal) ∧ 0 < l ∧
      ∑ v : Fin 32000, Ideal.exp (f v - Finset.univ.sup f) = (l : EReal) := by
  have hne : (Finset.univ : Finset (Fin 32000)).Nonempty := ⟨⟨0, by norm_num⟩, Finset.mem_univ _⟩
  obtain ⟨m, hm⟩ := sup_real Finset.univ hne f hf
  choose g hg using hf
  refine ⟨m, ∑ v : Fin 32000, Real.exp (g v - m), hm, Finset.sum_pos (fun v _ => Real.exp_pos _) hne, ?_⟩
  rw [hm, ← sum_coe]
  refine Finset.sum_congr rfl fun v _ => ?_
  rw [hg v, ← EReal.coe_sub]
  rfl

/-- On the reals, the negated log-softmax value at the label is the negative log-likelihood. -/
theorem nll_real (r m l : ℝ) (hl : 0 < l) :
    -((((r : EReal) - (m : EReal)) - Ideal.log (l : EReal))) = ((m : EReal) + Ideal.log (l : EReal)) - (r : EReal) := by
  have hlog : Ideal.log (l : EReal) = ((Real.log l : ℝ) : EReal) := by
    rw [Ideal.log_coe, if_neg (not_le.2 hl)]
  rw [hlog, ← EReal.coe_sub, ← EReal.coe_sub, ← EReal.coe_neg, ← EReal.coe_add, ← EReal.coe_sub]
  congr 1
  ring

/-- A label below the vocabulary size, read as a signed word, is itself. -/
theorem toInt_of_lt (g : BitVec 32) (hg : g.toNat < 32000) : g.toInt = (g.toNat : Int) := by
  rw [BitVec.toInt_eq_toNat_cond, if_pos (by omega)]

/-- Such a label is not negative. -/
theorem slt_zero_of_lt (g : BitVec 32) (hg : g.toNat < 32000) : IntOp.cmpi .slt g 0#32 = 0#1 := by
  refine eq_zero_of_ne_one fun h => ?_
  have h1 := IntOp.cmpi_slt.1 h
  rw [toInt_of_lt g hg] at h1
  have h0 : (0#32 : BitVec 32).toInt = 0 := by decide
  omega

/-- Such a label is at least zero. -/
theorem sge_zero_of_lt (g : BitVec 32) (hg : g.toNat < 32000) : IntOp.cmpi .sge g 0#32 = 1#1 := by
  refine IntOp.cmpi_sge.2 ?_
  rw [toInt_of_lt g hg]
  have h0 : (0#32 : BitVec 32).toInt = 0 := by decide
  omega

/-- Such a label is at most the last vocabulary position. -/
theorem sle_last_of_lt (g : BitVec 32) (hg : g.toNat < 32000) : IntOp.cmpi .sle g 31999#32 = 1#1 := by
  refine IntOp.cmpi_sle.2 ?_
  rw [toInt_of_lt g hg]
  have h0 : (31999#32 : BitVec 32).toInt = 31999 := by decide
  omega

/-- A select on the word of a Boolean is the conditional on it. -/
theorem select_ofBool {α : Type} (v : Bool) (a c : α) : Scalar.select (BitVec.ofBool v) a c = if v then a else c := by
  cases v
  · exact select_zero a c
  · exact select_one a c

/-! ## The log-softmax stages at a row -/

/-- The shift of row (b, t): the larger of negative infinity and the row's largest logit, that is, the largest logit. -/
theorem shiftmax (x : (⟨S32x256x32000, .f32⟩ : BufTy).Contents (Elt Ideal)) (b : Fin 32) (t : Fin 256) :
    val_main_call0_v2 (F := Ideal) x (ix2 b t) = Cert.Spec.rowMax x b t := by
  rw [val_main_call0_v2_apply, val_main_call0_v1_apply, val_main_call0_cst_0_apply]
  show max (Ideal.ofBits .f32 0xFF800000#32) (val_main_call0_v0 (F := Ideal) x (ix2 b t)) = _
  rw [ofBits_neg_inf, show val_main_call0_v0 (F := Ideal) x (ix2 b t) = _ from rowmax_raw x b t]
  exact max_eq_right bot_le

/-- The shifted logit at (b, t, v) is the logit minus the row's largest. -/
theorem shifted (x : (⟨S32x256x32000, .f32⟩ : BufTy).Contents (Elt Ideal)) (b : Fin 32) (t : Fin 256) (v : Fin 32000) :
    val_main_call0_v5 (F := Ideal) x (ix3 b t v) = x (ix3 b t v) - Cert.Spec.rowMax x b t := by
  rw [val_main_call0_v5_apply, val_main_call0_v4_apply, val_main_call0_v3_apply,
    show idx_main_call0_v3 (idx_main_call0_v4 (ix3 b t v)) = ix2 b t from
      (funext fun a => by match a with | ⟨0, _⟩ => rfl | ⟨1, _⟩ => rfl),
    shiftmax, Ideal.subf_def]

/-- The sum over the vocabulary of the exponentials of the shifted logits of row (b, t) is the row's sum. -/
theorem rowsum (x : (⟨S32x256x32000, .f32⟩ : BufTy).Contents (Elt Ideal)) (b : Fin 32) (t : Fin 256) :
    val_main_call0_v7 (F := Ideal) x (ix2 b t) = Cert.Spec.rowSum x b t := by
  rw [val_main_call0_v7_apply]
  show Ideal.ofBits .f32 0x00000000#32 + _ = _
  rw [Ideal.ofBits_zero_f32, zero_add]
  unfold Cert.Spec.rowSum
  refine Finset.sum_congr rfl fun k _ => ?_
  rw [val_main_call0_v6_apply,
    show idx_main_call0_v7 (ix2 b t) k = ix3 b t k from
      (funext fun a => by match a with | ⟨0, _⟩ => rfl | ⟨1, _⟩ => rfl | ⟨2, _⟩ => rfl),
    shifted, Ideal.hostUnary_exp_def]

/-- The log-softmax value at (b, t, v): the shifted logit minus the logarithm of the row's sum. -/
theorem lsm (x : (⟨S32x256x32000, .f32⟩ : BufTy).Contents (Elt Ideal)) (b : Fin 32) (t : Fin 256) (v : Fin 32000) :
    val_main_v8 (F := Ideal) x (ix3 b t v)
      = (x (ix3 b t v) - Cert.Spec.rowMax x b t) - Ideal.log (Cert.Spec.rowSum x b t) := by
  rw [val_main_v8_apply, shifted, val_main_call0_v10_apply, val_main_call0_v9_apply, val_main_call0_v8_apply,
    show idx_main_call0_v8 (idx_main_call0_v10 (ix3 b t v)) = ix2 b t from
      (funext fun a => by match a with | ⟨0, _⟩ => rfl | ⟨1, _⟩ => rfl),
    rowsum, Ideal.subf_def, Ideal.hostUnary_log_def]

/-! ## The label's position and the in-bounds test -/

/-- With labels in the vocabulary the start index of row (b, t) is the label itself (no wrap of a negative label). -/
theorem startidx (gt : (⟨S32x256, .i32⟩ : BufTy).Contents (Elt Ideal)) (hgt : ∀ j, (gt j).toNat < 32000)
    (b : Fin 32) (t : Fin 256) :
    val_main_call1_v5 (F := Ideal) gt (ix4 b t 0 0) = gt (ix2 b t) := by
  have hi : idx_main_call1_v5 (ix4 b t (0 : Fin 1) (0 : Fin 1)) = ix3 b t 0 := by
    have hb := b.isLt
    have ht := t.isLt
    funext a
    match a with
    | ⟨0, _⟩ => exact Fin.ext (by show (((b.val * 256 + t.val) * 1 + 0) * 1 + 0) / 256 = b.val; omega)
    | ⟨1, _⟩ => exact Fin.ext (by show (((b.val * 256 + t.val) * 1 + 0) * 1 + 0) / 1 % 256 = t.val; omega)
    | ⟨2, _⟩ => rfl
  rw [val_main_call1_v5_apply, hi, val_main_call1_v4_apply, val_main_call1_v1_apply, val_main_v9_apply,
    val_main_call1_v0_apply, val_main_call1_c_apply,
    show idx_main_v9 (ix3 b t (0 : Fin 1)) = ix2 b t from
      (funext fun a => by match a with | ⟨0, _⟩ => rfl | ⟨1, _⟩ => rfl),
    slt_zero_of_lt _ (hgt _), select_zero]

/-- With labels in the vocabulary the in-bounds test of row (b, t) is true. -/
theorem inb (gt : (⟨S32x256, .i32⟩ : BufTy).Contents (Elt Ideal)) (hgt : ∀ j, (gt j).toNat < 32000)
    (b : Fin 32) (t : Fin 256) :
    val_main_call1_v12 (F := Ideal) gt (ix3 b t 0) = 1#1 := by
  unfold val_main_call1_v12
  refine (andred_raw (val_main_call1_v11 (F := Ideal) gt) b t).trans ?_
  rw [val_main_call1_v11_apply, val_main_call1_v7_apply, val_main_call1_v10_apply, startidx gt hgt,
    val_main_call1_v6_apply, val_main_call1_c_2_apply, val_main_call1_v9_apply, val_main_call1_v8_apply,
    val_main_call1_c_1_apply, sge_zero_of_lt _ (hgt _), sle_last_of_lt _ (hgt _)]
  rfl

/-- With labels in the vocabulary the gathered value of row (b, t) is the log-softmax value at the row's label. -/
theorem gathered (x : (⟨S32x256x32000, .f32⟩ : BufTy).Contents (Elt Ideal))
    (gt : (⟨S32x256, .i32⟩ : BufTy).Contents (Elt Ideal)) (hgt : ∀ j, (gt j).toNat < 32000) (b : Fin 32) (t : Fin 256) :
    val_main_call1_v13 (F := Ideal) x gt (ix3 b t 0)
      = (x (ix3 b t (Cert.Spec.label gt b t)) - Cert.Spec.rowMax x b t) - Ideal.log (Cert.Spec.rowSum x b t) := by
  unfold val_main_call1_v13
  rw [gather_raw]
  have hl : (⟨min (val_main_call1_v5 (F := Ideal) gt (ix4 b t 0 0)).toInt.toNat 31999, by omega⟩ : Fin 32000)
      = Cert.Spec.label gt b t := by
    refine Fin.ext ?_
    show min (val_main_call1_v5 (F := Ideal) gt (ix4 b t 0 0)).toInt.toNat 31999 = (gt (ix2 b t)).toNat % 32000
    rw [startidx gt hgt, toInt_of_lt _ (hgt _)]
    have := hgt (ix2 b t)
    omega
  rw [hl, lsm]

/-! ## The masked value at a position -/

/-- With real logits and labels in the vocabulary, the negated selected value at (b, t) is the negative log-likelihood. -/
theorem negval (x : (⟨S32x256x32000, .f32⟩ : BufTy).Contents (Elt Ideal))
    (gt : (⟨S32x256, .i32⟩ : BufTy).Contents (Elt Ideal)) (hfin : ∀ i, ∃ r : ℝ, x i = (r : EReal))
    (hgt : ∀ j, (gt j).toNat < 32000) (b : Fin 32) (t : Fin 256) :
    val_main_v12 (F := Ideal) x gt (ix2 b t) = Cert.Spec.nll x gt b t := by
  have hi : idx_main_v11 (ix2 b t) = ix3 b t 0 := by
    have hb := b.isLt
    have ht := t.isLt
    funext a
    match a with
    | ⟨0, _⟩ => exact Fin.ext (by show (b.val * 256 + t.val) / 256 = b.val; omega)
    | ⟨1, _⟩ => exact Fin.ext (by show (b.val * 256 + t.val) / 1 % 256 = t.val; omega)
    | ⟨2, _⟩ => rfl
  rw [val_main_v12_apply, val_main_v11_apply, hi, val_main_v10_apply, inb gt hgt, select_one, gathered x gt hgt,
    Ideal.hostNegf_def, Ideal.negf_def]
  obtain ⟨m, l, hm, hl, hs⟩ := row_real (fun v => x (ix3 b t v)) (fun v => hfin _)
  obtain ⟨r, hr⟩ := hfin (ix3 b t (Cert.Spec.label gt b t))
  have hM : Cert.Spec.rowMax x b t = (m : EReal) := hm
  have hS : Cert.Spec.rowSum x b t = (l : EReal) := hs
  unfold Cert.Spec.nll Cert.Spec.tgt
  rw [hM, hS, hr]
  exact nll_real r m l hl

/-- The mask bit at (b, t) is the word of the position's validity. -/
theorem maskbit (len : (⟨S32, .i32⟩ : BufTy).Contents (Elt Ideal)) (b : Fin 32) (t : Fin 256) :
    val_main_v7 (F := Ideal) len (ix2 b t) = BitVec.ofBool (Cert.Spec.valid len b t) := by
  rw [val_main_v7_apply, val_main_v5_apply, val_main_v3_apply, val_main_v2_apply, val_main_v6_apply, val_main_v4_apply,
    val_main_v1_apply, val_main_v0_apply, val_main_c_apply,
    show idx_main_v4 (idx_main_v6 (ix2 b t)) = ix1 b from (funext fun a => by match a with | ⟨0, _⟩ => rfl)]
  rfl

/-- The masked value at (b, t) is the specification's. -/
theorem maskedval (x : (⟨S32x256x32000, .f32⟩ : BufTy).Contents (Elt Ideal))
    (gt : (⟨S32x256, .i32⟩ : BufTy).Contents (Elt Ideal)) (len : (⟨S32, .i32⟩ : BufTy).Contents (Elt Ideal))
    (hfin : ∀ i, ∃ r : ℝ, x i = (r : EReal)) (hgt : ∀ j, (gt j).toNat < 32000) (b : Fin 32) (t : Fin 256) :
    val_main_v16 (F := Ideal) x gt len (ix2 b t) = Cert.Spec.masked x gt len b t := by
  rw [val_main_v16_apply, maskbit, select_ofBool, negval x gt hfin hgt, val_main_call2_v1_apply, val_main_call2_v0_apply,
    val_main_cst_apply]
  show (if _ then _ else Ideal.ofBits .f32 0x00000000#32) = _
  rw [Ideal.ofBits_zero_f32]
  unfold Cert.Spec.masked
  rfl

/-- THE REFERENCE'S TOTAL: with real logits and labels in the vocabulary, the sum over all positions of the masked values
    is the specification's numerator. -/
theorem num_eq [Cert.ReferenceIdeal.Facts] (x : (⟨Cert.ReferenceIdeal.S32x256x32000, .f32⟩ : BufTy).Contents (Elt Ideal))
    (gt : (⟨Cert.ReferenceIdeal.S32x256, .i32⟩ : BufTy).Contents (Elt Ideal))
    (len : (⟨Cert.ReferenceIdeal.S32, .i32⟩ : BufTy).Contents (Elt Ideal))
    (hfin : ∀ i, ∃ r : ℝ, x i = (r : EReal)) (hgt : ∀ j, (gt j).toNat < 32000) :
    Cert.ReferenceIdeal.ReadP.val_main_v17 (F := Ideal) x gt len = fun _ => Cert.Spec.num x gt len := by
  funext i
  rw [val_main_v17_apply]
  show Ideal.ofBits .f32 0x00000000#32 + _ = _
  rw [Ideal.ofBits_zero_f32, zero_add, sum_idx2 (n0 := 32) (n1 := 256)]
  unfold Cert.Spec.num
  exact Finset.sum_congr rfl fun b _ => Finset.sum_congr rfl fun t _ => maskedval x gt len hfin hgt b t

end Cert.RefValue

end
-- ==== Proof.RefCount.lean ====
/-
  The integer part of the reference's result: the number of positions it counts.

  The reference builds the mask `t <s len b - 1` over `[32, 256]` (an iota along the second axis compared, signed, with
  the row's length less one), widens each bit to a 32-bit word, sums all of them from zero, and takes the signed maximum
  with one. For one row the sum over `t < 256` of the bits `[t <s n]` is `n` clipped to `[0, 256]`: no `t` qualifies
  when `n ≤ 0`, exactly the `t < n` when `0 < n ≤ 256`, all 256 when `n > 256`. Addition of 32-bit words is that of a
  commutative ring, so the sum over both axes is the sum over the rows of the row counts, whatever the order; and the
  signed maximum with one is the specification's. Hence the reference's count is `Spec.cnt`.
-/
import proofs.«429842_j38276748542062_2_alg».proof.Proof.RefRead
import proofs.«429842_j38276748542062_2_alg».proof.Proof.Spec
import Idealize.ShloMosaic.PureOps.Reduce
import Idealize.ShloMosaic.Lib.ValueIdx
import Idealize.ShloMosaic.Lib.StableHlo.Predicate
import Mathlib.Data.BitVec
import Mathlib.Algebra.BigOperators.Fin
import Mathlib.Algebra.BigOperators.Intervals

noncomputable section

namespace Cert.RefCount

open Idealize.ShloMosaic Idealize.ShloMosaic.ValueIdx Cert.ReferenceIdeal Cert.ReferenceIdeal.ReadP

/-- A fold of word addition from zero over a finite set is the sum over the set. -/
theorem fold_addi_eq_sum {ι : Type} (S : Finset ι) (f : ι → BitVec 32) :
    S.fold IntOp.addi 0#32 f = ∑ i ∈ S, f i := by
  induction S using Finset.cons_induction with
  | empty => rfl
  | cons a S ha ih => rw [Finset.fold_cons, Finset.sum_cons, ih]; rfl

/-- Below `N`, the number of `t` with `t < m` is `min m N`. -/
theorem sum_range_lt (m N : ℕ) : ∑ t ∈ Finset.range N, (if t < m then 1 else 0 : ℕ) = min m N := by
  induction N with
  | zero => simp
  | succ N ih => rw [Finset.sum_range_succ, ih]; split <;> omega

/-- The signed maximum of two words, either way round it is spelt: the larger as signed integers (equal integers are equal words). -/
theorem maxsi_eq_smax (a b : BitVec 32) : IntOp.maxsi a b = Cert.Spec.smax a b := by
  unfold IntOp.maxsi Cert.Spec.smax
  simp only [BitVec.slt]
  by_cases h1 : b.toInt < a.toInt
  · have h2 : ¬ a.toInt < b.toInt := by omega
    simp [h1, h2]
  · by_cases h2 : a.toInt < b.toInt
    · simp [h1, h2]
    · have : a = b := BitVec.eq_of_toInt_eq (by omega)
      simp [this]

/-- The widened bit `[t <s n]` for `t < 256` is the natural number `[t < max n 0]` as a word: `t` is its own signed value. -/
theorem row_term (n : BitVec 32) (t : Fin 256) :
    (IntOp.cmpi .slt (BitVec.ofNat 32 t.val) n).setWidth 32
      = ((if t.val < n.toInt.toNat then 1 else 0 : ℕ) : BitVec 32) := by
  have ht : (BitVec.ofNat 32 t.val).toInt = t.val :=
    StableHlo.Predicate.toInt_ofNat_small t.val (by have := t.isLt; omega)
  show (BitVec.ofBool ((BitVec.ofNat 32 t.val).slt n)).setWidth 32 = _
  rw [BitVec.slt, ht]
  by_cases h : (t.val : ℤ) < n.toInt
  · have h' : t.val < n.toInt.toNat := by omega
    rw [decide_eq_true h, if_pos h']; rfl
  · have h' : ¬ t.val < n.toInt.toNat := by omega
    rw [decide_eq_false h, if_neg h']; rfl

/-- `min (max n 0) 256` as a word is `n` clipped to `[0, 256]` by signed comparisons: by the three cases of `n`. -/
theorem clip_cast (n : BitVec 32) :
    ((min n.toInt.toNat 256 : ℕ) : BitVec 32) = Cert.Spec.smin 256#32 (Cert.Spec.smax 0#32 n) := by
  have h0 : (0#32 : BitVec 32).toInt = 0 := by decide
  have h256 : (256#32 : BitVec 32).toInt = 256 := by decide
  unfold Cert.Spec.smin Cert.Spec.smax
  simp only [BitVec.slt, h0]
  by_cases hpos : 0 < n.toInt
  · rw [decide_eq_true hpos, if_pos rfl, h256]
    by_cases hbig : 256 < n.toInt
    · rw [decide_eq_true hbig, if_pos rfl, show min n.toInt.toNat 256 = 256 by omega]; rfl
    · rw [decide_eq_false hbig, if_neg (by simp)]
      have hc := BitVec.toInt_eq_toNat_cond n
      have hlt := n.isLt
      have hm : min n.toInt.toNat 256 = n.toNat := by
        split at hc <;> omega
      rw [hm]
      exact BitVec.eq_of_toNat_eq (by rw [BitVec.natCast_eq_ofNat, BitVec.toNat_ofNat]; exact Nat.mod_eq_of_lt hlt)
  · rw [decide_eq_false hpos, if_neg (by simp), if_neg (by simp), show min n.toInt.toNat 256 = 0 by omega]
    rfl

/-- One row: the sum over `t < 256` of the widened bits `[t <s n]` is `n` clipped to `[0, 256]`. -/
theorem row_count (n : BitVec 32) :
    ∑ t : Fin 256, (IntOp.cmpi .slt (BitVec.ofNat 32 t.val) n).setWidth 32
      = Cert.Spec.smin 256#32 (Cert.Spec.smax 0#32 n) := by
  rw [Finset.sum_congr rfl (fun t _ => row_term n t), ← Nat.cast_sum,
    Fin.sum_univ_eq_sum_range (fun t => if t < n.toInt.toNat then 1 else 0) 256, sum_range_lt]
  exact clip_cast n

variable {F : FTy → Type} [FloatOps F]

/-- The widened mask at row `b`, position `t`: one when `t` is below `len b - 1` as signed words, else zero. -/
theorem mask_apply (len : IVec S32 32) (b : Fin 32) (t : Fin 256) :
    val_main_v13 (F := F) len (ix2 b t)
      = (IntOp.cmpi .slt (BitVec.ofNat 32 t.val) (len (ix1 b) - 1#32)).setWidth 32 := by
  have hb : idx_main_v4 (idx_main_v6 (ix2 b t)) = ix1 b :=
    funext fun a => Fin.ext (by match a with | ⟨0, _⟩ => rfl)
  rw [val_main_v13_apply, val_main_v7_apply, val_main_v5_apply, val_main_v3_apply, val_main_v2_apply,
    val_main_v6_apply, val_main_v4_apply, val_main_v1_apply, val_main_v0_apply, val_main_c_apply, hb]
  rfl

/-- A sum-reduction of a `[32, 256]` array of words over both axes, from zero, is the double sum of its elements. -/
theorem reduce_all (x : IVec S32x256 32) (h : S32x256.ReducesTo [0, 1] S_) (hu : 0 < S_.numel) (j : S_.Idx) :
    Host.reduce IntOp.addi x (constantI S_ 32 0#32) h hu j = ∑ b : Fin 32, ∑ t : Fin 256, x (ix2 b t) := by
  rw [Host.reduce_eq_fold]
  have hall : (Finset.univ.filter fun i : S32x256.Idx => h.drop i = j) = Finset.univ :=
    Finset.filter_true_of_mem fun i _ => funext fun a => a.elim0
  rw [hall]
  show Finset.fold IntOp.addi 0#32 x Finset.univ = _
  rw [fold_addi_eq_sum, sum_idx2]

/-- The number of positions the reference counts is the specification's count. -/
theorem count_eq {F : FTy → Type} [FloatOps F] [Cert.ReferenceIdeal.Facts] (len : IVec Cert.ReferenceIdeal.S32 32) :
    Cert.ReferenceIdeal.ReadP.val_main_v15 (F := F) len = fun _ => Cert.Spec.cnt len := by
  funext i
  rw [val_main_v15_apply, val_main_c_1_apply, maxsi_eq_smax]
  unfold Cert.Spec.cnt
  refine congrArg (fun a => Cert.Spec.smax a 1#32) ?_
  unfold val_main_v14
  rw [show val_main_c_0 (F := F) = constantI S_ 32 0#32 from rfl, reduce_all]
  refine Finset.sum_congr rfl fun b _ => ?_
  rw [Finset.sum_congr rfl (fun t _ => mask_apply (F := F) len b t)]
  exact row_count _

end Cert.RefCount

end
-- ==== Proof.PreDecode.lean ====
/-
  The precondition read back. The printed predicate states two things of the inputs: every logit has absolute
  value strictly below plus infinity, and every label lies in [0, 32000) as a signed 32-bit integer; each is
  an "and" over all positions, and the two are joined by "and". On the extended reals, where the absolute value
  of a is max a (-a), the first says that no logit is top or bottom, so each is a real number; the second,
  read signed, says that each label's unsigned value is below 32000.
-/
import proofs.«429842_j38276748542062_2_alg».proof.Pre_finite_inputs
import proofs.«429842_j38276748542062_2_alg».proof.Proof.Gen.Pre_finite_inputs
import Idealize.ShloMosaic.Lib.ReduceAll
import Idealize.ShloMosaic.Lib.ValueIdx
import Idealize.ShloMosaic.PureOps.Ideal

noncomputable section

namespace Cert.PreDecode

open Idealize.ShloMosaic Cert.Pre_finite_inputs

/-- The rank-0 shape has exactly one index. -/
instance subsingleton_S_ : Subsingleton S_.Idx := ⟨fun a b => funext fun d => d.elim0⟩

/-- The pattern 0x7F800000 (all-ones exponent, zero fraction, sign clear) denotes plus infinity. -/
theorem ofBits_inf : Ideal.ofBits .f32 0x7F800000#32 = (⊤ : EReal) := by
  simp [Ideal.ofBits, Ideal.ieee]

/-- An extended real whose absolute value max a (-a) is strictly below top is a real number:
    at top the maximum is top, at bottom the negation is top, and the remaining case is a real. -/
theorem real_of_abs_lt_top (a : EReal) (h : max a (-a) < (⊤ : EReal)) : ∃ r : ℝ, a = (r : EReal) := by
  induction a using EReal.rec with
  | bot => exact absurd h (by simp)
  | coe r => exact ⟨r, rfl⟩
  | top => exact absurd h (by simp)

/-- The ordered "less than" comparison of extended reals gives the word 1 only when the strict inequality holds. -/
theorem lt_of_cmp_olt (a b : EReal) (h : Ideal.cmp .olt a b = 1#1) : a < b := by
  by_cases hlt : a < b
  · exact hlt
  · have h' : BitVec.ofBool (decide (a < b)) = 1#1 := h
    rw [decide_eq_false hlt] at h'
    exact absurd h' (by decide)

/-- A 32-bit word whose signed value lies in [0, 32000) has unsigned value below 32000: a nonnegative
    signed value is the unsigned value itself. -/
theorem toNat_lt_of_signed_range (g : BitVec 32) (h0 : (0#32 : BitVec 32).toInt ≤ g.toInt)
    (h1 : g.toInt < (32000#32 : BitVec 32).toInt) : g.toNat < 32000 := by
  have e0 : (0#32 : BitVec 32).toInt = 0 := by decide
  have e1 : (32000#32 : BitVec 32).toInt = 32000 := by decide
  rw [e0] at h0
  rw [e1] at h1
  rw [BitVec.toInt_eq_toNat_cond] at h0 h1
  split at h0 <;> omega

/-- The precondition decoded: every logit is a real number and every label is below 32000. -/
theorem decode [Cert.Pre_finite_inputs.Facts] (x : FVec Ideal Cert.Pre_finite_inputs.S32x256x32000 .f32)
    (gt : IVec Cert.Pre_finite_inputs.S32x256 32) (len : IVec Cert.Pre_finite_inputs.S32 32)
    (h : Cert.Pre_finite_inputs.fn (F := Ideal) x gt len = fun _ => 1#1) :
    (∀ i, ∃ r : ℝ, x i = (r : EReal)) ∧ (∀ j, (gt j).toNat < 32000) := by
  have h0 := congrFun h ValueIdx.ix0
  dsimp only [Cert.Pre_finite_inputs.fn] at h0
  obtain ⟨hx, hg⟩ := IntOp.andi_eq_one.1 h0
  refine ⟨fun i => ?_, fun j => ?_⟩
  · have e := Host.reduce_andi_all _ _ _ _ _ hx i
    have e2 : Ideal.cmp .olt (max (x i) (-(x i))) (Ideal.ofBits .f32 0x7F800000#32) = 1#1 := e
    have e' := lt_of_cmp_olt _ _ e2
    rw [ofBits_inf] at e'
    exact real_of_abs_lt_top (x i) e'
  · have e := Host.reduce_andi_all _ _ _ _ _ hg j
    obtain ⟨e0, e1⟩ := IntOp.andi_eq_one.1 e
    exact toNat_lt_of_signed_range (gt j) (IntOp.cmpi_sge.1 e0) (IntOp.cmpi_slt.1 e1)

end Cert.PreDecode

end
-- ==== Proof.lean ====
/-
  The length-masked cross entropy of a batch of 32 sequences of 256 positions over a vocabulary of 32000: the Pallas
  kernel (an online log-sum-exp over five vocabulary tiles of 6400, the label's logit found by compare-and-select, the
  mean taken on the host) against the jnp reference (log_softmax, take_along_axis, a masked mean).

  Both programs compute, for logits x, labels g in [0, 32000) and lengths n,
      ( Σ_{b, t : t < n_b - 1} (M_{bt} + log L_{bt} - x_{bt g_{bt}}) ) / max (#{(b, t) : t < n_b - 1}, 1),
  with M the row's largest logit and L the row's sum of exp (x - M): the specification (Proof/Spec.lean).
  * The kernel side: the three row statistics the kernel carries between tiles are a pure fold of the blocks
    (Proof/KTraj.lean); after the fifth tile they are M, L and the label's logit — the rescaling
    exp (M' - M) · Σ exp (x - M') = Σ exp (x - M) is an identity of real numbers, which is where the finiteness of the
    logits is used, and exactly one vocabulary position matches a label in range (Proof/KTrajValue.lean); the output
    array is the masked negative log-likelihoods block by block (Proof/KArr.lean) and the host operations behind the
    region sum it and divide by the count (Proof/KTail.lean). That the program runs — every grid point's body from the
    fold's value before the point to its value after it, the lengths table held whole through the region and handed to
    the host operation that reads it afterwards — is Proof/KRuns.lean … Proof/KRun.lean, generic in the float family
    and laid out a second time for the word-level program (Proof/B*.lean).
  * The reference side: log_softmax's row maximum and row sum are M and L, the gather reads the label's entry (the
    index is in range, so neither the wrap of a negative index nor the out-of-bounds fill applies), and
    -((x_g - M) - log L) = (M + log L) - x_g over the reals (Proof/RefValue.lean); the count of valid positions, summed
    position by position, is the sum over the samples of n_b - 1 clipped to [0, 256] (Proof/RefCount.lean).
-/
import proofs.«429842_j38276748542062_2_alg».proof.Defs
import proofs.«429842_j38276748542062_2_alg».proof.Proof.Gen.Kernel
import proofs.«429842_j38276748542062_2_alg».proof.Proof.Gen.KernelIdeal
import proofs.«429842_j38276748542062_2_alg».proof.Proof.Gen.ReferenceIdeal
import proofs.«429842_j38276748542062_2_alg».proof.Proof.Gen.Pre_finite_inputs
import proofs.«429842_j38276748542062_2_alg».proof.Proof.BRun
import proofs.«429842_j38276748542062_2_alg».proof.Proof.BArgs
import proofs.«429842_j38276748542062_2_alg».proof.Proof.KRun
import proofs.«429842_j38276748542062_2_alg».proof.Proof.KArgs
import proofs.«429842_j38276748542062_2_alg».proof.Proof.KArr
import proofs.«429842_j38276748542062_2_alg».proof.Proof.KTail
import proofs.«429842_j38276748542062_2_alg».proof.Proof.RefRun
import proofs.«429842_j38276748542062_2_alg».proof.Proof.RefLink
import proofs.«429842_j38276748542062_2_alg».proof.Proof.RefValue
import proofs.«429842_j38276748542062_2_alg».proof.Proof.RefCount
import proofs.«429842_j38276748542062_2_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel program runs and leaves its three arguments as they were: no host operation writes one,
    and the region reads the logits through an input window and only reads the lengths table. -/
theorem frame_k : Cert.frame_Kernel := fun m ρ _ =>
  (θ_run (Cert.Kernel.defs (F := Bits)) _ _).mono (fun _ h c =>
    ⟨(h c _ (Cert.Kernel.Body.mem_uc Cert.Kernel.main_arg0 (by decide))).trans (Cert.Kernel.Body.W5_arg0 m c),
     (h c _ (Cert.Kernel.Body.mem_uc Cert.Kernel.main_arg1 (by decide))).trans (Cert.Kernel.Body.W5_arg1 m c),
     (h c _ (Cert.Kernel.Body.mem_uc Cert.Kernel.main_arg2 (by decide))).trans (Cert.Kernel.Body.W5_arg2 m c)⟩)
    (Cert.Kernel.Body.run_main (F := Bits) m ρ)

/-- The same for the idealized kernel program. -/
theorem frame_ki : Cert.frame_KernelIdeal := fun m ρ _ =>
  (θ_run (Cert.KernelIdeal.defs (F := Ideal)) _ _).mono (fun _ h c =>
    ⟨(h c _ (Cert.KernelIdeal.Body.mem_uc Cert.KernelIdeal.main_arg0 (by decide))).trans (Cert.KernelIdeal.Body.W5_arg0 m c),
     (h c _ (Cert.KernelIdeal.Body.mem_uc Cert.KernelIdeal.main_arg1 (by decide))).trans (Cert.KernelIdeal.Body.W5_arg1 m c),
     (h c _ (Cert.KernelIdeal.Body.mem_uc Cert.KernelIdeal.main_arg2 (by decide))).trans (Cert.KernelIdeal.Body.W5_arg2 m c)⟩)
    (Cert.KernelIdeal.Body.run_main (F := Ideal) m ρ)

/-- The reference is host operations only: its run with the result dropped. -/
theorem frame_ri : Cert.frame_ReferenceIdeal := fun m ρ _ =>
  (θ_run (Cert.ReferenceIdeal.defs (F := Ideal)) _ _).mono (fun _ h c => (h c).2) (Cert.ReferenceIdeal.ValueP.run (F := Ideal) m ρ)

/-- The reference's result is the specification's mean: its numerator the masked sum, its denominator the count. -/
theorem ref_result (x : Cert.Spec.SX.Idx → EReal) (gt : Cert.Spec.SG.Idx → BitVec 32) (len : Cert.Spec.SL.Idx → BitVec 32)
    (hfin : ∀ i, ∃ r : ℝ, x i = (r : EReal)) (hgt : ∀ j, (gt j).toNat < 32000) :
    Cert.ReferenceIdeal.ReadP.val_main_v19 (F := Ideal) x gt len = Cert.Spec.result x gt len := by
  unfold Cert.ReferenceIdeal.ReadP.val_main_v19 Cert.ReferenceIdeal.ReadP.val_main_v18 Cert.Spec.result
  rw [Cert.RefValue.num_eq x gt len hfin hgt, Cert.RefCount.count_eq (F := Ideal) len]

/-- From memories that agree on the arguments both idealized programs end at the specification's mean of the kernel's
    arguments. -/
theorem algebraic : Cert.algebraic_KernelIdeal_ReferenceIdeal := by
  intro m ρ m' ρ' hpre hagree
  have hd := fun c : Dev Cert.KernelIdeal.nD => Cert.PreDecode.decode _ _ _ (hpre c)
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono (fun _ h c =>
      ⟨(h c _ (Cert.KernelIdeal.Body.mem_uc Cert.KernelIdeal.main_v9 (by decide))).trans
          (Cert.KernelIdeal.Body.result_eq m c (Cert.KernelIdeal.Body.arr_eq m c (hd c).1 (hd c).2)),
       (h c _ (Cert.KernelIdeal.Body.mem_uc Cert.KernelIdeal.main_arg0 (by decide))).trans (Cert.KernelIdeal.Body.W5_arg0 m c),
       (h c _ (Cert.KernelIdeal.Body.mem_uc Cert.KernelIdeal.main_arg1 (by decide))).trans (Cert.KernelIdeal.Body.W5_arg1 m c),
       (h c _ (Cert.KernelIdeal.Body.mem_uc Cert.KernelIdeal.main_arg2 (by decide))).trans (Cert.KernelIdeal.Body.W5_arg2 m c)⟩)
      (Cert.KernelIdeal.Body.run_main (F := Ideal) m ρ)
  · refine (θ_run (Cert.ReferenceIdeal.defs (F := Ideal)) _ _).mono (fun _ h c => ⟨?_, (h c).2⟩)
      (Cert.ReferenceIdeal.ValueP.run (F := Ideal) m' ρ')
    rw [(h c).1, Cert.ReferenceIdeal.ReadP.val_main_v19_eq, (hagree c).1, (hagree c).2.1, (hagree c).2.2]
    exact ref_result _ _ _ (hd c).1 (hd c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
